-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S32 : Shape := ⟨1, ![32]⟩
abbrev S224 : Shape := ⟨1, ![224]⟩
abbrev S32x1 : Shape := ⟨2, ![32, 1]⟩
abbrev S1x224 : Shape := ⟨2, ![1, 224]⟩
abbrev S32x224 : Shape := ⟨2, ![32, 224]⟩
abbrev S_ : Shape := ⟨0, ![]⟩

class Facts : Prop where
  bcast_S32_S32x1_0 : S32.BroadcastsInDim S32x1 (![0] : Fin 1 → Fin S32x1.rank)
  bcast_S224_S1x224_1 : S224.BroadcastsInDim S1x224 (![1] : Fin 1 → Fin S1x224.rank)
  bcast_S1x224_S32x224_0_1 : S1x224.BroadcastsInDim S32x224 (![0, 1] : Fin 2 → Fin S32x224.rank)
  bcast_S32x1_S32x224_0_1 : S32x1.BroadcastsInDim S32x224 (![0, 1] : Fin 2 → Fin S32x224.rank)
  bcast_S_S32x224 : S_.BroadcastsInDim S32x224 (![] : Fin 0 → Fin S32x224.rank)
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  reducesTo_S32x224_S_d0_1 : S32x224.ReducesTo [0, 1] S_

variable [Facts]

def fn_part3 {F : FTy → Type} [FloatOps F] (main_v44 : IVec S32x224 32) (main_v55 : IVec S_ 1) (main_c_13 : IVec S_ 32) : IVec S_ 1 :=
  let main_v56 : IVec S32x224 32 := broadcastInDim S32x224 ![] bcast_S_S32x224 main_c_13
  let main_v57 : IVec S32x224 1 := cmpi .sge main_v44 main_v56
  let main_c_14 : IVec S_ 32 := constantI S_ 32 512#32
  let main_v58 : IVec S32x224 32 := broadcastInDim S32x224 ![] bcast_S_S32x224 main_c_14
  let main_v59 : IVec S32x224 1 := cmpi .slt main_v44 main_v58
  let main_v60 : IVec S32x224 1 := andi main_v57 main_v59
  let main_c_15 : IVec S_ 1 := constantI S_ 1 1#1
  let main_v61 : IVec S_ 1 := (fun x v => Host.reduce IntOp.andi x v reducesTo_S32x224_S_d0_1 h_S_) main_v60 main_c_15
  let main_v62 : IVec S_ 1 := andi main_v55 main_v61
  main_v62

def fn_part2 {F : FTy → Type} [FloatOps F] (main_arg0 : FVec F S16x3x512x512 .f32) (main_v22 : IVec S32x224 32) (main_v23 : IVec S32x1 32) (main_v30 : IVec S32x224 32) (main_v34 : IVec S32x224 1) (main_v38 : IVec S32x224 1) : IVec S_ 1 :=
  let main_v39 : IVec S32x224 1 := andi main_v34 main_v38
  let main_c_8 : IVec S_ 32 := constantI S_ 32 1#32
  let main_v40 : IVec S32x224 32 := broadcastInDim S32x224 ![] bcast_S_S32x224 main_c_8
  let main_v41 : IVec S32x224 32 := subi main_v30 main_v40
  let main_v42 : IVec S32x224 32 := select main_v39 main_v41 main_v30
  let main_v43 : IVec S32x224 32 := broadcastInDim S32x224 ![0, 1] bcast_S32x1_S32x224_0_1 main_v23
  let main_v44 : IVec S32x224 32 := addi main_v43 main_v42
  let main_v45 : FVec F S16x3x512x512 .f32 := Host.absf main_arg0
  let main_cst : FVec F S_ .f32 := constant S_ .f32 0x7F800000#32
  let main_v46 : FVec F S16x3x512x512 .f32 := broadcastInDim S16x3x512x512 ![] bcast_S_S16x3x512x512 main_cst
  let main_v47 : IVec S16x3x512x512 1 := cmpf .olt main_v45 main_v46
  let main_c_9 : IVec S_ 1 := constantI S_ 1 1#1
  let main_v48 : IVec S_ 1 := (fun x v => Host.reduce IntOp.andi x v reducesTo_S16x3x512x512_S_d0_1_2_3 h_S_) main_v47 main_c_9
  let main_c_10 : IVec S_ 32 := constantI S_ 32 0#32
  let main_v49 : IVec S32x224 32 := broadcastInDim S32x224 ![] bcast_S_S32x224 main_c_10
  let main_v50 : IVec S32x224 1 := cmpi .sge main_v22 main_v49
  let main_c_11 : IVec S_ 32 := constantI S_ 32 512#32
  let main_v51 : IVec S32x224 32 := broadcastInDim S32x224 ![] bcast_S_S32x224 main_c_11
  let main_v52 : IVec S32x224 1 := cmpi .slt main_v22 main_v51
  let main_v53 : IVec S32x224 1 := andi main_v50 main_v52
  let main_c_12 : IVec S_ 1 := constantI S_ 1 1#1
  let main_v54 : IVec S_ 1 := (fun x v => Host.reduce IntOp.andi x v reducesTo_S32x224_S_d0_1 h_S_) main_v53 main_c_12
  let main_v55 : IVec S_ 1 := andi main_v48 main_v54
  let main_c_13 : IVec S_ 32 := constantI S_ 32 0#32
  fn_part3 (F := F) main_v44 main_v55 main_c_13

def fn_part1 {F : FTy → Type} [FloatOps F] (main_arg0 : FVec F S16x3x512x512 .f32) (main_arg1 : IVec S32 32) (main_arg2 : IVec S32 32) (main_v0 : IVec S224 32) (main_v1 : IVec S32x1 32) (main_v8 : IVec S32x224 32) (main_v17 : IVec S32x224 1) (main_v18 : IVec S32x224 32) : IVec S_ 1 :=
  let main_v19 : IVec S32x224 32 := subi main_v8 main_v18
  let main_v20 : IVec S32x224 32 := select main_v17 main_v19 main_v8
  let main_v21 : IVec S32x224 32 := broadcastInDim S32x224 ![0, 1] bcast_S32x1_S32x224_0_1 main_v1
  let main_v22 : IVec S32x224 32 := addi main_v21 main_v20
  let main_v23 : IVec S32x1 32 := broadcastInDim S32x1 ![0] bcast_S32_S32x1_0 main_arg2
  let main_v24 : IVec S1x224 32 := broadcastInDim S1x224 ![1] bcast_S224_S1x224_1 main_v0
  let main_v25 : IVec S32x1 32 := broadcastInDim S32x1 ![0] bcast_S32_S32x1_0 main_arg1
  let main_v26 : IVec S32x224 32 := broadcastInDim S32x224 ![0, 1] bcast_S1x224_S32x224_0_1 main_v24
  let main_v27 : IVec S32x224 32 := broadcastInDim S32x224 ![0, 1] bcast_S32x1_S32x224_0_1 main_v25
  let main_v28 : IVec S32x224 32 := muli main_v26 main_v27
  let main_c_4 : IVec S_ 32 := constantI S_ 32 224#32
  let main_v29 : IVec S32x224 32 := broadcastInDim S32x224 ![] bcast_S_S32x224 main_c_4
  let main_v30 : IVec S32x224 32 := Host.divsi main_v28 main_v29
  let main_v31 : IVec S32x224 32 := signi main_v28
  let main_c_5 : IVec S_ 32 := constantI S_ 32 224#32
  let main_v32 : IVec S_ 32 := signi main_c_5
  let main_v33 : IVec S32x224 32 := broadcastInDim S32x224 ![] bcast_S_S32x224 main_v32
  let main_v34 : IVec S32x224 1 := cmpi .ne main_v31 main_v33
  let main_c_6 : IVec S_ 32 := constantI S_ 32 224#32
  let main_v35 : IVec S32x224 32 := broadcastInDim S32x224 ![] bcast_S_S32x224 main_c_6
  let main_v36 : IVec S32x224 32 := Host.remsi main_v28 main_v35
  let main_c_7 : IVec S_ 32 := constantI S_ 32 0#32
  let main_v37 : IVec S32x224 32 := broadcastInDim S32x224 ![] bcast_S_S32x224 main_c_7
  let main_v38 : IVec S32x224 1 := cmpi .ne main_v36 main_v37
  fn_part2 (F := F) main_arg0 main_v22 main_v23 main_v30 main_v34 main_v38

def fn {F : FTy → Type} [FloatOps F] (main_arg0 : FVec F S16x3x512x512 .f32) (main_arg1 : IVec S32 32) (main_arg2 : IVec S32 32) (main_arg3 : IVec S32 32) : IVec S_ 1 :=
  let main_v0 : IVec S224 32 := iotaInDim S224 32 0
  let main_v1 : IVec S32x1 32 := broadcastInDim S32x1 ![0] bcast_S32_S32x1_0 main_arg3
  let main_v2 : IVec S1x224 32 := broadcastInDim S1x224 ![1] bcast_S224_S1x224_1 main_v0
  let main_v3 : IVec S32x1 32 := broadcastInDim S32x1 ![0] bcast_S32_S32x1_0 main_arg1
  let main_v4 : IVec S32x224 32 := broadcastInDim S32x224 ![0, 1] bcast_S1x224_S32x224_0_1 main_v2
  let main_v5 : IVec S32x224 32 := broadcastInDim S32x224 ![0, 1] bcast_S32x1_S32x224_0_1 main_v3
  let main_v6 : IVec S32x224 32 := muli main_v4 main_v5
  let main_c : IVec S_ 32 := constantI S_ 32 224#32
  let main_v7 : IVec S32x224 32 := broadcastInDim S32x224 ![] bcast_S_S32x224 main_c
  let main_v8 : IVec S32x224 32 := Host.divsi main_v6 main_v7
  let main_v9 : IVec S32x224 32 := signi main_v6
  let main_c_0 : IVec S_ 32 := constantI S_ 32 224#32
  let main_v10 : IVec S_ 32 := signi main_c_0
  let main_v11 : IVec S32x224 32 := broadcastInDim S32x224 ![] bcast_S_S32x224 main_v10
  let main_v12 : IVec S32x224 1 := cmpi .ne main_v9 main_v11
  let main_c_1 : IVec S_ 32 := constantI S_ 32 224#32
  let main_v13 : IVec S32x224 32 := broadcastInDim S32x224 ![] bcast_S_S32x224 main_c_1
  let main_v14 : IVec S32x224 32 := Host.remsi main_v6 main_v13
  let main_c_2 : IVec S_ 32 := constantI S_ 32 0#32
  let main_v15 : IVec S32x224 32 := broadcastInDim S32x224 ![] bcast_S_S32x224 main_c_2
  let main_v16 : IVec S32x224 1 := cmpi .ne main_v14 main_v15
  let main_v17 : IVec S32x224 1 := andi main_v12 main_v16
  let main_c_3 : IVec S_ 32 := constantI S_ 32 1#32
  let main_v18 : IVec S32x224 32 := broadcastInDim S32x224 ![] bcast_S_S32x224 main_c_3
  fn_part1 (F := F) main_arg0 main_arg1 main_arg2 main_v0 main_v1 main_v8 main_v17 main_v18
-- ==== Kernel.lean ====
abbrev S16x3x512x512 : Shape := ⟨4, ![16, 3, 512, 512]⟩
abbrev S32 : Shape := ⟨1, ![32]⟩
abbrev S224 : Shape := ⟨1, ![224]⟩
abbrev S32x1 : Shape := ⟨2, ![32, 1]⟩
abbrev S1x224 : Shape := ⟨2, ![1, 224]⟩
abbrev S32x224 : Shape := ⟨2, ![32, 224]⟩
abbrev S_ : Shape := ⟨0, ![]⟩
abbrev S512 : Shape := ⟨1, ![512]⟩
abbrev S32x224x1 : Shape := ⟨3, ![32, 224, 1]⟩
abbrev S1x1x512 : Shape := ⟨3, ![1, 1, 512]⟩
abbrev S32x224x512 : Shape := ⟨3, ![32, 224, 512]⟩
abbrev S32x1x224 : Shape := ⟨3, ![32, 1, 224]⟩
abbrev S1x512x1 : Shape := ⟨3, ![1, 512, 1]⟩
abbrev S32x512x224 : Shape := ⟨3, ![32, 512, 224]⟩
abbrev S8x896x512 : Shape := ⟨3, ![8, 896, 512]⟩
abbrev S32x16x3x224x224 : Shape := ⟨5, ![32, 16, 3, 224, 224]⟩
abbrev S1x3x512x512 : Shape := ⟨4, ![1, 3, 512, 512]⟩
abbrev S4x1x3x224x224 : Shape := ⟨5, ![4, 1, 3, 224, 224]⟩
abbrev S3x512x512 : Shape := ⟨3, ![3, 512, 512]⟩
abbrev S5376x512 : Shape := ⟨2, ![5376, 512]⟩
abbrev S1x1x512x512 : Shape := ⟨4, ![1, 1, 512, 512]⟩
abbrev S512x512 : Shape := ⟨2, ![512, 512]⟩
abbrev S1x512x512 : Shape := ⟨3, ![1, 512, 512]⟩
abbrev S1x896x512 : Shape := ⟨3, ![1, 896, 512]⟩
abbrev S896x512 : Shape := ⟨2, ![896, 512]⟩
abbrev S224x512 : Shape := ⟨2, ![224, 512]⟩
abbrev S1344x512 : Shape := ⟨2, ![1344, 512]⟩
abbrev S1x512x224 : Shape := ⟨3, ![1, 512, 224]⟩
abbrev S512x224 : Shape := ⟨2, ![512, 224]⟩
abbrev S1344x224 : Shape := ⟨2, ![1344, 224]⟩
abbrev S224x224 : Shape := ⟨2, ![224, 224]⟩
abbrev S1x1x1x224x224 : Shape := ⟨5, ![1, 1, 1, 224, 224]⟩
abbrev S512x3x224x224 : Shape := ⟨4, ![512, 3, 224, 224]⟩

abbrev nBuf : Space → Nat
  | .hbm => 74
  | .vmem => 9
  | .smem => 0
  | _ => 0

abbrev bufTy : (tb : Table) → Fin (tcTables nBuf tb) → BufTy
  | .hbm, ⟨0, _⟩ => ⟨S16x3x512x512, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S224, .i32⟩
  | .hbm, ⟨5, _⟩ => ⟨S32x1, .i32⟩
  | .hbm, ⟨6, _⟩ => ⟨S1x224, .i32⟩
  | .hbm, ⟨7, _⟩ => ⟨S32x1, .i32⟩
  | .hbm, ⟨8, _⟩ => ⟨S32x224, .i32⟩
  | .hbm, ⟨9, _⟩ => ⟨S32x224, .i32⟩
  | .hbm, ⟨10, _⟩ => ⟨S32x224, .i32⟩
  | .hbm, ⟨11, _⟩ => ⟨S_, .i32⟩
  | .hbm, ⟨12, _⟩ => ⟨S_, .i32⟩
  | .hbm, ⟨13, _⟩ => ⟨S32x224, .i32⟩
  | .hbm, ⟨14, _⟩ => ⟨S32x224, .i32⟩
  | .hbm, ⟨15, _⟩ => ⟨S32x224, .i32⟩
  | .hbm, ⟨16, _⟩ => ⟨S_, .i32⟩
  | .hbm, ⟨17, _⟩ => ⟨S32x224, .i32⟩
  | .hbm, ⟨18, _⟩ => ⟨S32x224, .i1⟩
  | .hbm, ⟨19, _⟩ => ⟨S32x224, .i32⟩
  | .hbm, ⟨20, _⟩ => ⟨S32x224, .i32⟩
  | .hbm, ⟨21, _⟩ => ⟨S_, .i32⟩
  | .hbm, ⟨22, _⟩ => ⟨S32x224, .i32⟩
  | .hbm, ⟨23, _⟩ => ⟨S32x224, .i1⟩
  | .hbm, ⟨24, _⟩ => ⟨S32x224, .i1⟩
  | .hbm, ⟨25, _⟩ => ⟨S_, .i32⟩
  | .hbm, ⟨26, _⟩ => ⟨S32x224, .i32⟩
  | .hbm, ⟨27, _⟩ => ⟨S32x224, .i32⟩
  | .hbm, ⟨28, _⟩ => ⟨S32x224, .i32⟩
  | .hbm, ⟨29, _⟩ => ⟨S32x224, .i32⟩
  | .hbm, ⟨30, _⟩ => ⟨S32x224, .i32⟩
  | .hbm, ⟨31, _⟩ => ⟨S32x1, .i32⟩
  | .hbm, ⟨32, _⟩ => ⟨S1x224, .i32⟩
  | .hbm, ⟨33, _⟩ => ⟨S32x1, .i32⟩
  | .hbm, ⟨34, _⟩ => ⟨S32x224, .i32⟩
  | .hbm, ⟨35, _⟩ => ⟨S32x224, .i32⟩
  | .hbm, ⟨36, _⟩ => ⟨S32x224, .i32⟩
  | .hbm, ⟨37, _⟩ => ⟨S_, .i32⟩
  | .hbm, ⟨38, _⟩ => ⟨S_, .i32⟩
  | .hbm, ⟨39, _⟩ => ⟨S32x224, .i32⟩
  | .hbm, ⟨40, _⟩ => ⟨S32x224, .i32⟩
  | .hbm, ⟨41, _⟩ => ⟨S32x224, .i32⟩
  | .hbm, ⟨42, _⟩ => ⟨S_, .i32⟩
  | .hbm, ⟨43, _⟩ => ⟨S32x224, .i32⟩
  | .hbm, ⟨44, _⟩ => ⟨S32x224, .i1⟩
  | .hbm, ⟨45, _⟩ => ⟨S32x224, .i32⟩
  | .hbm, ⟨46, _⟩ => ⟨S32x224, .i32⟩
  | .hbm, ⟨47, _⟩ => ⟨S_, .i32⟩
  | .hbm, ⟨48, _⟩ => ⟨S32x224, .i32⟩
  | .hbm, ⟨49, _⟩ => ⟨S32x224, .i1⟩
  | .hbm, ⟨50, _⟩ => ⟨S32x224, .i1⟩
  | .hbm, ⟨51, _⟩ => ⟨S_, .i32⟩
  | .hbm, ⟨52, _⟩ => ⟨S32x224, .i32⟩
  | .hbm, ⟨53, _⟩ => ⟨S32x224, .i32⟩
  | .hbm, ⟨54, _⟩ => ⟨S32x224, .i32⟩
  | .hbm, ⟨55, _⟩ => ⟨S32x224, .i32⟩
  | .hbm, ⟨56, _⟩ => ⟨S32x224, .i32⟩
  | .hbm, ⟨57, _⟩ => ⟨S512, .i32⟩
  | .hbm, ⟨58, _⟩ => ⟨S512, .i32⟩
  | .hbm, ⟨59, _⟩ => ⟨S32x224x1, .i32⟩
  | .hbm, ⟨60, _⟩ => ⟨S1x1x512, .i32⟩
  | .hbm, ⟨61, _⟩ => ⟨S32x224x512, .i32⟩
  | .hbm, ⟨62, _⟩ => ⟨S32x224x512, .i32⟩
  | .hbm, ⟨63, _⟩ => ⟨S32x224x512, .i1⟩
  | .hbm, ⟨64, _⟩ => ⟨S32x224x512, .bf16⟩
  | .hbm, ⟨65, _⟩ => ⟨S32x1x224, .i32⟩
  | .hbm, ⟨66, _⟩ => ⟨S1x512x1, .i32⟩
  | .hbm, ⟨67, _⟩ => ⟨S32x512x224, .i32⟩
  | .hbm, ⟨68, _⟩ => ⟨S32x512x224, .i32⟩
  | .hbm, ⟨69, _⟩ => ⟨S32x512x224, .i1⟩
  | .hbm, ⟨70, _⟩ => ⟨S32x512x224, .bf16⟩
  | .hbm, ⟨71, _⟩ => ⟨S8x896x512, .bf16⟩
  | .hbm, ⟨72, _⟩ => ⟨S32x16x3x224x224, .f32⟩
  | .hbm, ⟨73, _⟩ => ⟨S512x3x224x224, .f32⟩
  | .local _ .vmem, ⟨0, _⟩ => ⟨S1x3x512x512, .f32⟩
  | .local _ .vmem, ⟨1, _⟩ => ⟨S1x3x512x512, .f32⟩
  | .local _ .vmem, ⟨2, _⟩ => ⟨S8x896x512, .bf16⟩
  | .local _ .vmem, ⟨3, _⟩ => ⟨S32x512x224, .bf16⟩
  | .local _ .vmem, ⟨4, _⟩ => ⟨S4x1x3x224x224, .f32⟩
  | .local _ .vmem, ⟨5, _⟩ => ⟨S4x1x3x224x224, .f32⟩
  | .local _ .vmem, ⟨6, _⟩ => ⟨S3x512x512, .bf16⟩
  | .local _ .vmem, ⟨7, _⟩ => ⟨S3x512x512, .bf16⟩
  | .local _ .vmem, ⟨8, _⟩ => ⟨S5376x512, .bf16⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off2 (i : grid0.Coords) (c0_i32_50 : BitVec 32) : Fin 3 → Nat :=
  let arg1 : BitVec 32 := BitVec.ofNat 32 (i 1).val
  let c4_i32 : BitVec 32 := 4#32
  let v127 : BitVec 32 := Scalar.muli arg1 c4_i32
  let v128 : BitVec 32 := Scalar.addi v127 c0_i32_50
  let v129 : Index := Scalar.indexCast v128
  let c0_51 : Index := 0#32
  let c0_52 : Index := 0#32
  ![v129.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x896x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32_S32x1_0 : S32.BroadcastsInDim S32x1 (![0] : Fin 1 → Fin S32x1.rank)
  bcast_S224_S1x224_1 : S224.BroadcastsInDim S1x224 (![1] : Fin 1 → Fin S1x224.rank)
  bcast_S1x224_S32x224_0_1 : S1x224.BroadcastsInDim S32x224 (![0, 1] : Fin 2 → Fin S32x224.rank)
  bcast_S32x1_S32x224_0_1 : S32x1.BroadcastsInDim S32x224 (![0, 1] : Fin 2 → Fin S32x224.rank)
  bcast_S_S32x224 : S_.BroadcastsInDim S32x224 (![] : Fin 0 → Fin S32x224.rank)
  bcast_S32x224_S32x224x1_0_1 : S32x224.BroadcastsInDim S32x224x1 (![0, 1] : Fin 2 → Fin S32x224x1.rank)
  bcast_S512_S1x1x512_2 : S512.BroadcastsInDim S1x1x512 (![2] : Fin 1 → Fin S1x1x512.rank)
  bcast_S32x224x1_S32x224x512_0_1_2 : S32x224x1.BroadcastsInDim S32x224x512 (![0, 1, 2] : Fin 3 → Fin S32x224x512.rank)
  bcast_S1x1x512_S32x224x512_0_1_2 : S1x1x512.BroadcastsInDim S32x224x512 (![0, 1, 2] : Fin 3 → Fin S32x224x512.rank)
  bcast_S32x224_S32x1x224_0_2 : S32x224.BroadcastsInDim S32x1x224 (![0, 2] : Fin 2 → Fin S32x1x224.rank)
  bcast_S512_S1x512x1_1 : S512.BroadcastsInDim S1x512x1 (![1] : Fin 1 → Fin S1x512x1.rank)
  bcast_S32x1x224_S32x512x224_0_1_2 : S32x1x224.BroadcastsInDim S32x512x224 (![0, 1, 2] : Fin 3 → Fin S32x512x224.rank)
  bcast_S1x512x1_S32x512x224_0_1_2 : S1x512x1.BroadcastsInDim S32x512x224 (![0, 1, 2] : Fin 3 → Fin S32x512x224.rank)
  shapeCasts_S32x224x512_S8x896x512 : S32x224x512.ShapeCasts S8x896x512
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  bitsLt_bf16_f32 : FTy.bits .bf16 < FTy.bits .f32
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  shapeCasts_S512x512_S1x512x512 : S512x512.ShapeCasts S1x512x512
  packedbf16_S3x512x512_S1x512x512_0_0_0 : (Rect.unit (s := S3x512x512) ![0, 0, 0] S1x512x512.size inb_S3x512x512_S1x512x512_0_0_0).PackedRows (EltTy.packing .bf16)
  inb_S1x3x512x512_S1x1x512x512_0_1_0_0 : ∀ a, (![0, 1, 0, 0] : Fin 4 → Nat) a + S1x1x512x512.size a ≤ S1x3x512x512.size a
  inb_S3x512x512_S1x512x512_1_0_0 : ∀ a, (![1, 0, 0] : Fin 3 → Nat) a + S1x512x512.size a ≤ S3x512x512.size a
  packedbf16_S3x512x512_S1x512x512_1_0_0 : (Rect.unit (s := S3x512x512) ![1, 0, 0] S1x512x512.size inb_S3x512x512_S1x512x512_1_0_0).PackedRows (EltTy.packing .bf16)
  inb_S1x3x512x512_S1x1x512x512_0_2_0_0 : ∀ a, (![0, 2, 0, 0] : Fin 4 → Nat) a + S1x1x512x512.size a ≤ S1x3x512x512.size a
  inb_S3x512x512_S1x512x512_2_0_0 : ∀ a, (![2, 0, 0] : Fin 3 → Nat) a + S1x512x512.size a ≤ S3x512x512.size a
  packedbf16_S3x512x512_S1x512x512_2_0_0 : (Rect.unit (s := S3x512x512) ![2, 0, 0] S1x512x512.size inb_S3x512x512_S1x512x512_2_0_0).PackedRows (EltTy.packing .bf16)
  h_S1x896x512 : 0 < S1x896x512.numel
  shapeCasts_S1x896x512_S896x512 : S1x896x512.ShapeCasts S896x512
  slices_S896x512_o0_0_S224x512 : S896x512.Slices ![0, 0] S224x512
  inb_S5376x512_S224x512_0_0 : ∀ a, (![0, 0] : Fin 2 → Nat) a + S224x512.size a ≤ S5376x512.size a
  h_S224x512 : 0 < S224x512.numel
  shapeCasts_S224x512_S224x512 : S224x512.ShapeCasts S224x512
  packedbf16_S5376x512_S224x512_0_0 : (Rect.unit (s := S5376x512) ![0, 0] S224x512.size inb_S5376x512_S224x512_0_0).PackedRows (EltTy.packing .bf16)
  inb_S5376x512_S224x512_224_0 : ∀ a, (![224, 0] : Fin 2 → Nat) a + S224x512.size a ≤ S5376x512.size a
  packedbf16_S5376x512_S224x512_224_0 : (Rect.unit (s := S5376x512) ![224, 0] S224x512.size inb_S5376x512_S224x512_224_0).PackedRows (EltTy.packing .bf16)
  slices_S896x512_o224_0_S224x512 : S896x512.Slices ![224, 0] S224x512
  inb_S5376x512_S224x512_1344_0 : ∀ a, (![1344, 0] : Fin 2 → Nat) a + S224x512.size a ≤ S5376x512.size a
  packedbf16_S5376x512_S224x512_1344_0 : (Rect.unit (s := S5376x512) ![1344, 0] S224x512.size inb_S5376x512_S224x512_1344_0).PackedRows (EltTy.packing .bf16)
  inb_S5376x512_S224x512_1568_0 : ∀ a, (![1568, 0] : Fin 2 → Nat) a + S224x512.size a ≤ S5376x512.size a
  packedbf16_S5376x512_S224x512_1568_0 : (Rect.unit (s := S5376x512) ![1568, 0] S224x512.size inb_S5376x512_S224x512_1568_0).PackedRows (EltTy.packing .bf16)
  slices_S896x512_o448_0_S224x512 : S896x512.Slices ![448, 0] S224x512
  inb_S5376x512_S224x512_2688_0 : ∀ a, (![2688, 0] : Fin 2 → Nat) a + S224x512.size a ≤ S5376x512.size a
  packedbf16_S5376x512_S224x512_2688_0 : (Rect.unit (s := S5376x512) ![2688, 0] S224x512.size inb_S5376x512_S224x512_2688_0).PackedRows (EltTy.packing .bf16)
  inb_S5376x512_S224x512_2912_0 : ∀ a, (![2912, 0] : Fin 2 → Nat) a + S224x512.size a ≤ S5376x512.size a
  packedbf16_S5376x512_S224x512_2912_0 : (Rect.unit (s := S5376x512) ![2912, 0] S224x512.size inb_S5376x512_S224x512_2912_0).PackedRows (EltTy.packing .bf16)
  slices_S896x512_o672_0_S224x512 : S896x512.Slices ![672, 0] S224x512
  inb_S5376x512_S224x512_4032_0 : ∀ a, (![4032, 0] : Fin 2 → Nat) a + S224x512.size a ≤ S5376x512.size a
  packedbf16_S5376x512_S224x512_4032_0 : (Rect.unit (s := S5376x512) ![4032, 0] S224x512.size inb_S5376x512_S224x512_4032_0).PackedRows (EltTy.packing .bf16)
  inb_S5376x512_S224x512_4256_0 : ∀ a, (![4256, 0] : Fin 2 → Nat) a + S224x512.size a ≤ S5376x512.size a
  packedbf16_S5376x512_S224x512_4256_0 : (Rect.unit (s := S5376x512) ![4256, 0] S224x512.size inb_S5376x512_S224x512_4256_0).PackedRows (EltTy.packing .bf16)
  inb_S5376x512_S224x512_448_0 : ∀ a, (![448, 0] : Fin 2 → Nat) a + S224x512.size a ≤ S5376x512.size a
  packedbf16_S5376x512_S224x512_448_0 : (Rect.unit (s := S5376x512) ![448, 0] S224x512.size inb_S5376x512_S224x512_448_0).PackedRows (EltTy.packing .bf16)
  inb_S5376x512_S224x512_672_0 : ∀ a, (![672, 0] : Fin 2 → Nat) a + S224x512.size a ≤ S5376x512.size a
  packedbf16_S5376x512_S224x512_672_0 : (Rect.unit (s := S5376x512) ![672, 0] S224x512.size inb_S5376x512_S224x512_672_0).PackedRows (EltTy.packing .bf16)
  inb_S5376x512_S224x512_1792_0 : ∀ a, (![1792, 0] : Fin 2 → Nat) a + S224x512.size a ≤ S5376x512.size a
  packedbf16_S5376x512_S224x512_1792_0 : (Rect.unit (s := S5376x512) ![1792, 0] S224x512.size inb_S5376x512_S224x512_1792_0).PackedRows (EltTy.packing .bf16)
  inb_S5376x512_S224x512_2016_0 : ∀ a, (![2016, 0] : Fin 2 → Nat) a + S224x512.size a ≤ S5376x512.size a
  packedbf16_S5376x512_S224x512_2016_0 : (Rect.unit (s := S5376x512) ![2016, 0] S224x512.size inb_S5376x512_S224x512_2016_0).PackedRows (EltTy.packing .bf16)
  inb_S5376x512_S224x512_3136_0 : ∀ a, (![3136, 0] : Fin 2 → Nat) a + S224x512.size a ≤ S5376x512.size a
  packedbf16_S5376x512_S224x512_3136_0 : (Rect.unit (s := S5376x512) ![3136, 0] S224x512.size inb_S5376x512_S224x512_3136_0).PackedRows (EltTy.packing .bf16)
  inb_S5376x512_S224x512_3360_0 : ∀ a, (![3360, 0] : Fin 2 → Nat) a + S224x512.size a ≤ S5376x512.size a
  packedbf16_S5376x512_S224x512_3360_0 : (Rect.unit (s := S5376x512) ![3360, 0] S224x512.size inb_S5376x512_S224x512_3360_0).PackedRows (EltTy.packing .bf16)
  inb_S5376x512_S224x512_4480_0 : ∀ a, (![4480, 0] : Fin 2 → Nat) a + S224x512.size a ≤ S5376x512.size a
  packedbf16_S5376x512_S224x512_4480_0 : (Rect.unit (s := S5376x512) ![4480, 0] S224x512.size inb_S5376x512_S224x512_4480_0).PackedRows (EltTy.packing .bf16)
  inb_S5376x512_S224x512_4704_0 : ∀ a, (![4704, 0] : Fin 2 → Nat) a + S224x512.size a ≤ S5376x512.size a
  packedbf16_S5376x512_S224x512_4704_0 : (Rect.unit (s := S5376x512) ![4704, 0] S224x512.size inb_S5376x512_S224x512_4704_0).PackedRows (EltTy.packing .bf16)
  inb_S5376x512_S224x512_896_0 : ∀ a, (![896, 0] : Fin 2 → Nat) a + S224x512.size a ≤ S5376x512.size a
  packedbf16_S5376x512_S224x512_896_0 : (Rect.unit (s := S5376x512) ![896, 0] S224x512.size inb_S5376x512_S224x512_896_0).PackedRows (EltTy.packing .bf16)
  inb_S5376x512_S224x512_1120_0 : ∀ a, (![1120, 0] : Fin 2 → Nat) a + S224x512.size a ≤ S5376x512.size a
  packedbf16_S5376x512_S224x512_1120_0 : (Rect.unit (s := S5376x512) ![1120, 0] S224x512.size inb_S5376x512_S224x512_1120_0).PackedRows (EltTy.packing .bf16)
  inb_S5376x512_S224x512_2240_0 : ∀ a, (![2240, 0] : Fin 2 → Nat) a + S224x512.size a ≤ S5376x512.size a
  packedbf16_S5376x512_S224x512_2240_0 : (Rect.unit (s := S5376x512) ![2240, 0] S224x512.size inb_S5376x512_S224x512_2240_0).PackedRows (EltTy.packing .bf16)
  inb_S5376x512_S224x512_2464_0 : ∀ a, (![2464, 0] : Fin 2 → Nat) a + S224x512.size a ≤ S5376x512.size a
  packedbf16_S5376x512_S224x512_2464_0 : (Rect.unit (s := S5376x512) ![2464, 0] S224x512.size inb_S5376x512_S224x512_2464_0).PackedRows (EltTy.packing .bf16)
  inb_S5376x512_S224x512_3584_0 : ∀ a, (![3584, 0] : Fin 2 → Nat) a + S224x512.size a ≤ S5376x512.size a
  packedbf16_S5376x512_S224x512_3584_0 : (Rect.unit (s := S5376x512) ![3584, 0] S224x512.size inb_S5376x512_S224x512_3584_0).PackedRows (EltTy.packing .bf16)
  inb_S5376x512_S224x512_3808_0 : ∀ a, (![3808, 0] : Fin 2 → Nat) a + S224x512.size a ≤ S5376x512.size a
  packedbf16_S5376x512_S224x512_3808_0 : (Rect.unit (s := S5376x512) ![3808, 0] S224x512.size inb_S5376x512_S224x512_3808_0).PackedRows (EltTy.packing .bf16)
  inb_S5376x512_S224x512_4928_0 : ∀ a, (![4928, 0] : Fin 2 → Nat) a + S224x512.size a ≤ S5376x512.size a
  packedbf16_S5376x512_S224x512_4928_0 : (Rect.unit (s := S5376x512) ![4928, 0] S224x512.size inb_S5376x512_S224x512_4928_0).PackedRows (EltTy.packing .bf16)
  inb_S5376x512_S224x512_5152_0 : ∀ a, (![5152, 0] : Fin 2 → Nat) a + S224x512.size a ≤ S5376x512.size a
  packedbf16_S5376x512_S224x512_5152_0 : (Rect.unit (s := S5376x512) ![5152, 0] S224x512.size inb_S5376x512_S224x512_5152_0).PackedRows (EltTy.packing .bf16)
  inb_S5376x512_S1344x512_0_0 : ∀ a, (![0, 0] : Fin 2 → Nat) a + S1344x512.size a ≤ S5376x512.size a
  h_S1344x512 : 0 < S1344x512.numel
  h_S1x512x224 : 0 < S1x512x224.numel
  shapeCasts_S1x512x224_S512x224 : S1x512x224.ShapeCasts S512x224
  slices_S1344x224_o0_0_S224x224 : S1344x224.Slices ![0, 0] S224x224
  slices_S1344x224_o224_0_S224x224 : S1344x224.Slices ![224, 0] S224x224
  inb_S4x1x3x224x224_S1x1x1x224x224_0_0_0_0_0 : ∀ a, (![0, 0, 0, 0, 0] : Fin 5 → Nat) a + S1x1x1x224x224.size a ≤ S4x1x3x224x224.size a
  h_S1x1x1x224x224 : 0 < S1x1x1x224x224.numel
  shapeCasts_S1x1x1x224x224_S224x224 : S1x1x1x224x224.ShapeCasts S224x224
  shapeCasts_S224x224_S1x1x1x224x224 : S224x224.ShapeCasts S1x1x1x224x224
  slices_S1344x224_o448_0_S224x224 : S1344x224.Slices ![448, 0] S224x224
  slices_S1344x224_o672_0_S224x224 : S1344x224.Slices ![672, 0] S224x224
  inb_S4x1x3x224x224_S1x1x1x224x224_0_0_1_0_0 : ∀ a, (![0, 0, 1, 0, 0] : Fin 5 → Nat) a + S1x1x1x224x224.size a ≤ S4x1x3x224x224.size a
  slices_S1344x224_o896_0_S224x224 : S1344x224.Slices ![896, 0] S224x224
  slices_S1344x224_o1120_0_S224x224 : S1344x224.Slices ![1120, 0] S224x224
  inb_S4x1x3x224x224_S1x1x1x224x224_0_0_2_0_0 : ∀ a, (![0, 0, 2, 0, 0] : Fin 5 → Nat) a + S1x1x1x224x224.size a ≤ S4x1x3x224x224.size a
  inb_S5376x512_S1344x512_1344_0 : ∀ a, (![1344, 0] : Fin 2 → Nat) a + S1344x512.size a ≤ S5376x512.size a
  inb_S4x1x3x224x224_S1x1x1x224x224_1_0_0_0_0 : ∀ a, (![1, 0, 0, 0, 0] : Fin 5 → Nat) a + S1x1x1x224x224.size a ≤ S4x1x3x224x224.size a
  inb_S4x1x3x224x224_S1x1x1x224x224_1_0_1_0_0 : ∀ a, (![1, 0, 1, 0, 0] : Fin 5 → Nat) a + S1x1x1x224x224.size a ≤ S4x1x3x224x224.size a
  inb_S4x1x3x224x224_S1x1x1x224x224_1_0_2_0_0 : ∀ a, (![1, 0, 2, 0, 0] : Fin 5 → Nat) a + S1x1x1x224x224.size a ≤ S4x1x3x224x224.size a
  inb_S5376x512_S1344x512_2688_0 : ∀ a, (![2688, 0] : Fin 2 → Nat) a + S1344x512.size a ≤ S5376x512.size a
  inb_S4x1x3x224x224_S1x1x1x224x224_2_0_0_0_0 : ∀ a, (![2, 0, 0, 0, 0] : Fin 5 → Nat) a + S1x1x1x224x224.size a ≤ S4x1x3x224x224.size a
  inb_S4x1x3x224x224_S1x1x1x224x224_2_0_1_0_0 : ∀ a, (![2, 0, 1, 0, 0] : Fin 5 → Nat) a + S1x1x1x224x224.size a ≤ S4x1x3x224x224.size a
  inb_S4x1x3x224x224_S1x1x1x224x224_2_0_2_0_0 : ∀ a, (![2, 0, 2, 0, 0] : Fin 5 → Nat) a + S1x1x1x224x224.size a ≤ S4x1x3x224x224.size a
  inb_S5376x512_S1344x512_4032_0 : ∀ a, (![4032, 0] : Fin 2 → Nat) a + S1344x512.size a ≤ S5376x512.size a
  inb_S4x1x3x224x224_S1x1x1x224x224_3_0_0_0_0 : ∀ a, (![3, 0, 0, 0, 0] : Fin 5 → Nat) a + S1x1x1x224x224.size a ≤ S4x1x3x224x224.size a
  inb_S4x1x3x224x224_S1x1x1x224x224_3_0_1_0_0 : ∀ a, (![3, 0, 1, 0, 0] : Fin 5 → Nat) a + S1x1x1x224x224.size a ≤ S4x1x3x224x224.size a
  inb_S4x1x3x224x224_S1x1x1x224x224_3_0_2_0_0 : ∀ a, (![3, 0, 2, 0, 0] : Fin 5 → Nat) a + S1x1x1x224x224.size a ≤ S4x1x3x224x224.size a
  shapeCasts_S32x16x3x224x224_S512x3x224x224 : S32x16x3x224x224.ShapeCasts S512x3x224x224
  dot_S896x512_S512x512_S896x512_1_0_0_1_n_n_wf : DotDims.WF S896x512 S512x512 S896x512 [1] [0] [0] [1] [] []
  dot_S1344x512_S512x224_S1344x224_1_0_0_1_n_n_wf : DotDims.WF S1344x512 S512x224 S1344x224 [1] [0] [0] [1] [] []
  hrank0 : 0 < grid0.rank
  k0_off1_inb : ∀ i : grid0.Coords, ∀ a, (k0_off1 i) a + S1x896x512.size a ≤ S8x896x512.size a
  k0_off2_inb : ∀ i : grid0.Coords, ∀ (r : Fin 4), ∀ a, (k0_off2 i (BitVec.ofNat 32 r.val)) a + S1x512x224.size a ≤ S32x512x224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x896x512.size a ≤ S8x896x512.size a
  hwx0_1 : ∀ i : grid0.Coords, EltTy.bits .bf16 = 32 ∨ (Rect.block (s := S8x896x512) S8x896x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512x224.size a ≤ S32x512x224.size a
  hwx0_2 : ∀ i : grid0.Coords, EltTy.bits .bf16 = 32 ∨ (Rect.block (s := S32x512x224) S32x512x224.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x3x224x224.size a ≤ S32x16x3x224x224.size a
  hwx0_3 : ∀ i : grid0.Coords, EltTy.bits .f32 = 32 ∨ (Rect.block (s := S32x16x3x224x224) S4x1x3x224x224.size (cc0_transform_3 i) (hinb0_3 i)).WholeWords (EltTy.packing .f32)

variable [Facts₀]

def dot_S896x512_S512x512_S896x512_1_0_0_1_n_n : DotDims S896x512 S512x512 S896x512 where
  lhsContracting := [1]
  rhsContracting := [0]
  lhsNonContracting := [0]
  rhsNonContracting := [1]
  lhsBatch := []
  rhsBatch := []
  wf := dot_S896x512_S512x512_S896x512_1_0_0_1_n_n_wf
def dot_S1344x512_S512x224_S1344x224_1_0_0_1_n_n : DotDims S1344x512 S512x224 S1344x224 where
  lhsContracting := [1]
  rhsContracting := [0]
  lhsNonContracting := [0]
  rhsNonContracting := [1]
  lhsBatch := []
  rhsBatch := []
  wf := dot_S1344x512_S512x224_S1344x224_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8x896x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S32x512x224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S4x1x3x224x224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S32 : Shape := ⟨1, ![32]⟩
abbrev S224 : Shape := ⟨1, ![224]⟩
abbrev S32x1 : Shape := ⟨2, ![32, 1]⟩
abbrev S1x224 : Shape := ⟨2, ![1, 224]⟩
abbrev S32x224 : Shape := ⟨2, ![32, 224]⟩
abbrev S_ : Shape := ⟨0, ![]⟩
abbrev S32x224x1 : Shape := ⟨3, ![32, 224, 1]⟩
abbrev S32x1x224 : Shape := ⟨3, ![32, 1, 224]⟩
abbrev S32x224x224 : Shape := ⟨3, ![32, 224, 224]⟩
abbrev S32x224x224x1 : Shape := ⟨4, ![32, 224, 224, 1]⟩
abbrev S32x224x224x2 : Shape := ⟨4, ![32, 224, 224, 2]⟩
abbrev S16x3x32x224x224 : Shape := ⟨5, ![16, 3, 32, 224, 224]⟩
abbrev S32x16x3x224x224 : Shape := ⟨5, ![32, 16, 3, 224, 224]⟩
abbrev S512x3x224x224 : Shape := ⟨4, ![512, 3, 224, 224]⟩

abbrev nBuf : Space → Nat
  | .hbm => 81
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S224, .i32⟩
  | .hbm, ⟨5, _⟩ => ⟨S32x1, .i32⟩
  | .hbm, ⟨6, _⟩ => ⟨S1x224, .i32⟩
  | .hbm, ⟨7, _⟩ => ⟨S32x1, .i32⟩
  | .hbm, ⟨8, _⟩ => ⟨S32x224, .i32⟩
  | .hbm, ⟨9, _⟩ => ⟨S32x224, .i32⟩
  | .hbm, ⟨10, _⟩ => ⟨S32x224, .i32⟩
  | .hbm, ⟨11, _⟩ => ⟨S_, .i32⟩
  | .hbm, ⟨12, _⟩ => ⟨S_, .i32⟩
  | .hbm, ⟨13, _⟩ => ⟨S32x224, .i32⟩
  | .hbm, ⟨14, _⟩ => ⟨S32x224, .i32⟩
  | .hbm, ⟨15, _⟩ => ⟨S32x224, .i32⟩
  | .hbm, ⟨16, _⟩ => ⟨S_, .i32⟩
  | .hbm, ⟨17, _⟩ => ⟨S32x224, .i32⟩
  | .hbm, ⟨18, _⟩ => ⟨S32x224, .i1⟩
  | .hbm, ⟨19, _⟩ => ⟨S32x224, .i32⟩
  | .hbm, ⟨20, _⟩ => ⟨S32x224, .i32⟩
  | .hbm, ⟨21, _⟩ => ⟨S_, .i32⟩
  | .hbm, ⟨22, _⟩ => ⟨S32x224, .i32⟩
  | .hbm, ⟨23, _⟩ => ⟨S32x224, .i1⟩
  | .hbm, ⟨24, _⟩ => ⟨S32x224, .i1⟩
  | .hbm, ⟨25, _⟩ => ⟨S_, .i32⟩
  | .hbm, ⟨26, _⟩ => ⟨S32x224, .i32⟩
  | .hbm, ⟨27, _⟩ => ⟨S32x224, .i32⟩
  | .hbm, ⟨28, _⟩ => ⟨S32x224, .i32⟩
  | .hbm, ⟨29, _⟩ => ⟨S32x224, .i32⟩
  | .hbm, ⟨30, _⟩ => ⟨S32x224, .i32⟩
  | .hbm, ⟨31, _⟩ => ⟨S32x1, .i32⟩
  | .hbm, ⟨32, _⟩ => ⟨S1x224, .i32⟩
  | .hbm, ⟨33, _⟩ => ⟨S32x1, .i32⟩
  | .hbm, ⟨34, _⟩ => ⟨S32x224, .i32⟩
  | .hbm, ⟨35, _⟩ => ⟨S32x224, .i32⟩
  | .hbm, ⟨36, _⟩ => ⟨S32x224, .i32⟩
  | .hbm, ⟨37, _⟩ => ⟨S_, .i32⟩
  | .hbm, ⟨38, _⟩ => ⟨S_, .i32⟩
  | .hbm, ⟨39, _⟩ => ⟨S32x224, .i32⟩
  | .hbm, ⟨40, _⟩ => ⟨S32x224, .i32⟩
  | .hbm, ⟨41, _⟩ => ⟨S32x224, .i32⟩
  | .hbm, ⟨42, _⟩ => ⟨S_, .i32⟩
  | .hbm, ⟨43, _⟩ => ⟨S32x224, .i32⟩
  | .hbm, ⟨44, _⟩ => ⟨S32x224, .i1⟩
  | .hbm, ⟨45, _⟩ => ⟨S32x224, .i32⟩
  | .hbm, ⟨46, _⟩ => ⟨S32x224, .i32⟩
  | .hbm, ⟨47, _⟩ => ⟨S_, .i32⟩
  | .hbm, ⟨48, _⟩ => ⟨S32x224, .i32⟩
  | .hbm, ⟨49, _⟩ => ⟨S32x224, .i1⟩
  | .hbm, ⟨50, _⟩ => ⟨S32x224, .i1⟩
  | .hbm, ⟨51, _⟩ => ⟨S_, .i32⟩
  | .hbm, ⟨52, _⟩ => ⟨S32x224, .i32⟩
  | .hbm, ⟨53, _⟩ => ⟨S32x224, .i32⟩
  | .hbm, ⟨54, _⟩ => ⟨S32x224, .i32⟩
  | .hbm, ⟨55, _⟩ => ⟨S32x224, .i32⟩
  | .hbm, ⟨56, _⟩ => ⟨S32x224, .i32⟩
  | .hbm, ⟨57, _⟩ => ⟨S32x224x1, .i32⟩
  | .hbm, ⟨58, _⟩ => ⟨S32x1x224, .i32⟩
  | .hbm, ⟨59, _⟩ => ⟨S_, .i32⟩
  | .hbm, ⟨60, _⟩ => ⟨S32x224x1, .i32⟩
  | .hbm, ⟨61, _⟩ => ⟨S32x224x1, .i1⟩
  | .hbm, ⟨62, _⟩ => ⟨S_, .i32⟩
  | .hbm, ⟨63, _⟩ => ⟨S32x224x1, .i32⟩
  | .hbm, ⟨64, _⟩ => ⟨S32x224x1, .i32⟩
  | .hbm, ⟨65, _⟩ => ⟨S32x224x1, .i32⟩
  | .hbm, ⟨66, _⟩ => ⟨S_, .i32⟩
  | .hbm, ⟨67, _⟩ => ⟨S32x1x224, .i32⟩
  | .hbm, ⟨68, _⟩ => ⟨S32x1x224, .i1⟩
  | .hbm, ⟨69, _⟩ => ⟨S_, .i32⟩
  | .hbm, ⟨70, _⟩ => ⟨S32x1x224, .i32⟩
  | .hbm, ⟨71, _⟩ => ⟨S32x1x224, .i32⟩
  | .hbm, ⟨72, _⟩ => ⟨S32x1x224, .i32⟩
  | .hbm, ⟨73, _⟩ => ⟨S32x224x224, .i32⟩
  | .hbm, ⟨74, _⟩ => ⟨S32x224x224, .i32⟩
  | .hbm, ⟨75, _⟩ => ⟨S32x224x224x1, .i32⟩
  | .hbm, ⟨76, _⟩ => ⟨S32x224x224x1, .i32⟩
  | .hbm, ⟨77, _⟩ => ⟨S32x224x224x2, .i32⟩
  | .hbm, ⟨78, _⟩ => ⟨S16x3x32x224x224, .f32⟩
  | .hbm, ⟨79, _⟩ => ⟨S32x16x3x224x224, .f32⟩
  | .hbm, ⟨80, _⟩ => ⟨S512x3x224x224, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_1 : Ref sig .tc := ⟨.hbm, 59, rfl⟩
abbrev main_v21 : Ref sig .tc := ⟨.hbm, 60, rfl⟩
abbrev main_v22 : Ref sig .tc := ⟨.hbm, 61, rfl⟩
abbrev main_c_2 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_3 : Ref sig .tc := ⟨.hbm, 66, rfl⟩
abbrev main_v26 : Ref sig .tc := ⟨.hbm, 67, rfl⟩
abbrev main_v27 : Ref sig .tc := ⟨.hbm, 68, rfl⟩
abbrev main_c_4 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S224_S1x224_1 : S224.BroadcastsInDim S1x224 (![1] : Fin 1 → Fin S1x224.rank)
  bcast_S1x224_S32x224_0_1 : S1x224.BroadcastsInDim S32x224 (![0, 1] : Fin 2 → Fin S32x224.rank)
  bcast_S32x1_S32x224_0_1 : S32x1.BroadcastsInDim S32x224 (![0, 1] : Fin 2 → Fin S32x224.rank)
  bcast_S_S32x224 : S_.BroadcastsInDim S32x224 (![] : Fin 0 → Fin S32x224.rank)
  bcast_S32x224_S32x224x1_0_1 : S32x224.BroadcastsInDim S32x224x1 (![0, 1] : Fin 2 → Fin S32x224x1.rank)
  bcast_S32x224_S32x1x224_0_2 : S32x224.BroadcastsInDim S32x1x224 (![0, 2] : Fin 2 → Fin S32x1x224.rank)
  bcast_S_S32x224x1 : S_.BroadcastsInDim S32x224x1 (![] : Fin 0 → Fin S32x224x1.rank)
  bcast_S_S32x1x224 : S_.BroadcastsInDim S32x1x224 (![] : Fin 0 → Fin S32x1x224.rank)
  bcast_S32x224x1_S32x224x224_0_1_2 : S32x224x1.BroadcastsInDim S32x224x224 (![0, 1, 2] : Fin 3 → Fin S32x224x224.rank)
  bcast_S32x1x224_S32x224x224_0_1_2 : S32x1x224.BroadcastsInDim S32x224x224 (![0, 1, 2] : Fin 3 → Fin S32x224x224.rank)
  bcast_S32x224x224_S32x224x224x1_0_1_2 : S32x224x224.BroadcastsInDim S32x224x224x1 (![0, 1, 2] : Fin 3 → Fin S32x224x224x1.rank)
  concatenates_S32x224x224x1_S32x224x224x1_S32x224x224x2_d3 : Shape.Concatenates [S32x224x224x1, S32x224x224x1] S32x224x224x2 3
  transposes_S16x3x32x224x224_S32x16x3x224x224_2_0_1_3_4 : S16x3x32x224x224.Transposes [2, 0, 1, 3, 4] S32x16x3x224x224
  shapeCasts_S32x16x3x224x224_S512x3x224x224 : S32x16x3x224x224.ShapeCasts S512x3x224x224
  gather_S16x3x512x512_S32x224x224x2_S16x3x32x224x224_01_23_n_n_23_3_16311_wf : GatherDims.WF S16x3x512x512 S32x224x224x2 S16x3x32x224x224 [0, 1] [2, 3] [] [2, 3] [] 3 ![16, 3, 1, 1]

variable [Facts₀]

def gather_S16x3x512x512_S32x224x224x2_S16x3x32x224x224_01_23_n_n_23_3_16311 : GatherDims S16x3x512x512 S32x224x224x2 S16x3x32x224x224 where
  offsetDims := [0, 1]
  collapsedSliceDims := [2, 3]
  operandBatchingDims := []
  startIndicesBatchingDims := []
  startIndexMap := [2, 3]
  indexVectorDim := 3
  sliceSizes := ![16, 3, 1, 1]
  wf := gather_S16x3x512x512_S32x224x224x2_S16x3x32x224x224_01_23_n_n_23_3_16311_wf

class Facts : Prop extends Facts₀ where

variable [Facts]
-- ==== Proof.Spec.lean ====
/-
  The common vocabulary of the two programs, stated once over literal shapes and importing neither.

  Both programs first compute, from the crop sizes and offsets, the source row and source column of every output
  pixel: for cutout `n` and output position `i`, `offset n + (i * size n) / 224` in 32-bit integer arithmetic with
  the quotient rounded towards minus infinity (`yidx`).  Under the precondition every such index lies in
  `[0, 512)` (`InRange`), so it names a row (or a column) of the 512 x 512 image (`rowOf`).

  The result is then one function of the image array and of the two index arrays: output pixel `(i, j)` of cutout
  `n`, image `b`, channel `ch` is the image's pixel at (row index of `(n, i)`, column index of `(n, j)`)
  (`Out5`), laid out as [cutout, image, channel, 224, 224] and finally read as [cutout * 16 + image, channel, 224,
  224] (`Res`).

  The kernel computes it with two one-hot selection matrices: `RyG` has a one at (group, row within group, h)
  exactly when the row's source index is `h`, and `RxG` a one at (cutout, w, j) exactly when column `j`'s source
  index is `w`.
-/
import Idealize.ShloMosaic.PureOps
import Idealize.ShloMosaic.PureOps.Ideal
import Idealize.ShloMosaic.Lib.ValueIdx
import Mathlib.Algebra.BigOperators.Group.Finset.Basic

noncomputable section

namespace Cert.Cutout

open Idealize.ShloMosaic Idealize.ShloMosaic.ValueIdx

/-! ## Shapes -/

abbrev SX : Shape := ⟨4, ![16, 3, 512, 512]⟩
abbrev SV : Shape := ⟨1, ![32]⟩
abbrev S224 : Shape := ⟨1, ![224]⟩
abbrev S32x1 : Shape := ⟨2, ![32, 1]⟩
abbrev S1x224 : Shape := ⟨2, ![1, 224]⟩
abbrev SI : Shape := ⟨2, ![32, 224]⟩
abbrev S_ : Shape := ⟨0, ![]⟩
abbrev SRy : Shape := ⟨3, ![8, 896, 512]⟩
abbrev SRx : Shape := ⟨3, ![32, 512, 224]⟩
abbrev SO5 : Shape := ⟨5, ![32, 16, 3, 224, 224]⟩
abbrev SO : Shape := ⟨4, ![512, 3, 224, 224]⟩

theorem bc_V_32x1 : SV.BroadcastsInDim S32x1 (![0] : Fin 1 → Fin S32x1.rank) := by decide
theorem bc_224_1x224 : S224.BroadcastsInDim S1x224 (![1] : Fin 1 → Fin S1x224.rank) := by decide
theorem bc_1x224_I : S1x224.BroadcastsInDim SI (![0, 1] : Fin 2 → Fin SI.rank) := by decide
theorem bc_32x1_I : S32x1.BroadcastsInDim SI (![0, 1] : Fin 2 → Fin SI.rank) := by decide
theorem bc_s_I : S_.BroadcastsInDim SI (![] : Fin 0 → Fin SI.rank) := by decide
theorem sc_O5_O : SO5.ShapeCasts SO := by decide

/-! ## The source indices -/

/-- `a / 224` rounded towards minus infinity, on every entry: the truncated quotient, less one where the signs of
    `a` and `224` differ and the division is inexact. -/
def fdiv224 (a : IVec SI 32) : IVec SI 32 :=
  let c : IVec S_ 32 := constantI S_ 32 224#32
  let q : IVec SI 32 := Host.divsi a (broadcastInDim SI ![] bc_s_I c)
  select
    (andi (cmpi .ne (signi a) (broadcastInDim SI ![] bc_s_I (signi c)))
      (cmpi .ne (Host.remsi a (broadcastInDim SI ![] bc_s_I c)) (broadcastInDim SI ![] bc_s_I (constantI S_ 32 0#32))))
    (subi q (broadcastInDim SI ![] bc_s_I (constantI S_ 32 1#32)))
    q

/-- The source index of output position `i` of cutout `n`: `off n + (i * size n) / 224`. -/
def yidx (size off : IVec SV 32) : IVec SI 32 :=
  addi (broadcastInDim SI ![0, 1] bc_32x1_I (broadcastInDim S32x1 ![0] bc_V_32x1 off))
    (fdiv224 (muli
      (broadcastInDim SI ![0, 1] bc_1x224_I (broadcastInDim S1x224 ![1] bc_224_1x224 (iotaInDim S224 32 0)))
      (broadcastInDim SI ![0, 1] bc_32x1_I (broadcastInDim S32x1 ![0] bc_V_32x1 size))))

/-- Every source index names a row (a column) of the 512 x 512 image. -/
def InRange (Y : IVec SI 32) : Prop := ∀ p : SI.Idx, (Y p).toNat < 512

/-- The row (column) an index names; any row when it names none. -/
def rowOf (Y : IVec SI 32) (n : Fin 32) (i : Fin 224) : Fin 512 :=
  ⟨(Y (ix2 n i)).toNat % 512, Nat.mod_lt _ (by decide)⟩

theorem rowOf_val {Y : IVec SI 32} (hY : InRange Y) (n : Fin 32) (i : Fin 224) :
    (rowOf Y n i).val = (Y (ix2 n i)).toNat := Nat.mod_eq_of_lt (hY _)

/-! ## The result -/

/-- Pixel `(i, j)` of cutout `n` of image `b`, channel `ch`: the image's pixel at the source row of `(n, i)` and
    the source column of `(n, j)`. -/
def Out5 (x : SX.Idx → EReal) (Y Xi : IVec SI 32) : SO5.Idx → EReal :=
  fun j => x (ix4 (j 1) (j 2) (rowOf Y (j 0) (j 3)) (rowOf Xi (j 0) (j 4)))

/-- The same array read as [cutout * 16 + image, channel, 224, 224]. -/
def Res (x : SX.Idx → EReal) (Y Xi : IVec SI 32) : SO.Idx → EReal :=
  shapeCast SO (Out5 x Y Xi) sc_O5_O

/-! ## The kernel's selection matrices -/

/-- The row selector, four cutouts to a group: one at (group `g`, row `r`, `h`) when the source row of cutout
    `4 g + r / 224`, position `r % 224`, is `h`. -/
def RyG (Y : IVec SI 32) : SRy.Idx → EReal :=
  fun j =>
    if Y (ix2 (⟨(j 0).val * 4 + (j 1).val / 224, by
          have h0 : (j 0).val < 8 := (j 0).isLt
          have h1 : (j 1).val < 896 := (j 1).isLt
          omega⟩ : Fin 32)
        (⟨(j 1).val % 224, Nat.mod_lt _ (by decide)⟩ : Fin 224)) = BitVec.ofNat 32 (j 2).val
    then 1 else 0

/-- The column selector: one at (cutout `n`, `w`, `j`) when the source column of cutout `n`, position `j`, is `w`. -/
def RxG (Xi : IVec SI 32) : SRx.Idx → EReal :=
  fun j => if Xi (ix2 (j 0) (j 2)) = BitVec.ofNat 32 (j 1).val then 1 else 0

/-! ## One grid point of the kernel

At grid point (image `b`, group `g`) the kernel holds image `b` split into a high part (the image itself, read in
the narrower format, which at the ideal instance changes nothing) and a low part (the image minus its high part),
multiplies the group's row selector into each part (stage 1), and for each of the group's four cutouts multiplies
the stacked results by the cutout's column selector and adds the high and the low products (stage 2). -/

abbrev SXb : Shape := ⟨4, ![1, 3, 512, 512]⟩
abbrev SS : Shape := ⟨3, ![3, 512, 512]⟩
abbrev SOb : Shape := ⟨5, ![4, 1, 3, 224, 224]⟩

/-- Image `b` of the batch, as the block the kernel is handed. -/
def xblk (x : SX.Idx → EReal) (b : Fin 16) : SXb.Idx → EReal := fun p => x (ix4 b (p 1) (p 2) (p 3))

/-- The high part of an image block: the block itself. -/
def hiOf (xb : SXb.Idx → EReal) : SS.Idx → EReal := fun j => xb (ix4 0 (j 0) (j 1) (j 2))

/-- The low part: the block minus its high part. -/
def loOf (xb : SXb.Idx → EReal) : SS.Idx → EReal :=
  fun j => xb (ix4 0 (j 0) (j 1) (j 2)) - xb (ix4 0 (j 0) (j 1) (j 2))

/-- Row `gi * 224 + i` of a group's row selector. -/
def selRow (gi : Fin 4) (i : Fin 224) : Fin 896 := ⟨gi.val * 224 + i.val, by have := gi.isLt; have := i.isLt; omega⟩

/-- Cutout `4 g + gi`. -/
def cutOf (g : Fin 8) (gi : Fin 4) : Fin 32 := ⟨g.val * 4 + gi.val, by have := g.isLt; have := gi.isLt; omega⟩

/-- What grid point (·, `g`) writes to its output block from the row selector `ry`, the column selector `rx` and
    the two parts `xs0`, `xs1` of the image: entry `(gi, 0, ch, i, j)` is
    `Σ_w (Σ_h ry[g, gi·224+i, h] · xs0[ch, h, w]) · rx[4g+gi, w, j] + Σ_w (Σ_h ry[g, gi·224+i, h] · xs1[ch, h, w]) · rx[4g+gi, w, j]`. -/
def OutBlk (g : Fin 8) (ry : SRy.Idx → EReal) (rx : SRx.Idx → EReal) (xs0 xs1 : SS.Idx → EReal) : SOb.Idx → EReal :=
  fun j =>
    (∑ w : Fin 512, (∑ h : Fin 512, ry (ix3 g (selRow (j 0) (j 3)) h) * xs0 (ix3 (j 2) h w)) * rx (ix3 (cutOf g (j 0)) w (j 4)))
    + (∑ w : Fin 512, (∑ h : Fin 512, ry (ix3 g (selRow (j 0) (j 3)) h) * xs1 (ix3 (j 2) h w)) * rx (ix3 (cutOf g (j 0)) w (j 4)))

/-- The same block as a selection: entry `(gi, 0, ch, i, j)` is the image's pixel at the source row of
    `(4g+gi, i)` and the source column of `(4g+gi, j)`. -/
def SelBlk (g : Fin 8) (Y Xi : IVec SI 32) (xb : SXb.Idx → EReal) : SOb.Idx → EReal :=
  fun j => xb (ix4 0 (j 2) (rowOf Y (cutOf g (j 0)) (j 3)) (rowOf Xi (cutOf g (j 0)) (j 4)))

end Cert.Cutout

end
-- ==== Proof.KHost.lean ====
/-
  What the kernel program's host operations leave in the two selector arrays its call is handed.

  Before the call the program computes, with the same integer operations the reference uses, the source row of
  every (cutout, output row) and the source column of every (cutout, output column); compares each against
  0, 1, …, 511 and reads the resulting bit as a number; and lays the row comparison out four cutouts to a group.
  At the ideal instance a bit read as a number is the extended real one or zero, so the two arrays are exactly
  the one-hot selection matrices of the common vocabulary: the row selector has a one at (group g, row r, h) when
  the source row of cutout 4 g + r / 224 at position r % 224 is h, and the column selector a one at (cutout n, w, j)
  when the source column of cutout n at position j is w.
-/
import proofs.«424226_j75823352644348_3_alg».proof.Proof.Gen.KernelIdeal.Frame
import proofs.«424226_j75823352644348_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.StableHlo

/-! ## A bit read as a number -/

/-- A one-bit word read as an unsigned number is, as an extended real, one when the bit is set and zero when it
    is clear. -/
private theorem uitofp_ofBool (b : Bool) :
    (FloatOps.uitofp (F := Ideal) .bf16 (BitVec.ofBool b) : EReal) = if b = true then 1 else 0 := by
  cases b
  · show (((0 : ℕ) : ℝ) : EReal) = 0
    simp
  · show (((1 : ℕ) : ℝ) : EReal) = 1
    simp

/-- Comparing two words for equality and reading the bit as a number gives one when they are equal, zero otherwise. -/
private theorem uitofp_cmpi_eq (a b : BitVec 32) :
    (FloatOps.uitofp (F := Ideal) .bf16 (IntOp.cmpi .eq a b) : EReal) = if a = b then 1 else 0 := by
  show (FloatOps.uitofp (F := Ideal) .bf16 (BitVec.ofBool (a == b)) : EReal) = _
  rw [uitofp_ofBool]
  by_cases h : a = b
  · rw [if_pos h, if_pos (by rw [h]; exact beq_self_eq_true b)]
  · rw [if_neg h, if_neg (by simpa using h)]

/-! ## The two selectors over an arbitrary index array -/

/-- The row comparison, laid out four cutouts to a group, read at (group `g`, row `r`, `h`): row `r` of group `g` is
    position `r % 224` of cutout `4 g + r / 224`, since both arrays list the same entries in row-major order. -/
private theorem ry_apply (Y : IVec S32x224 32) (g : Fin 8) (r : Fin 896) (h : Fin 512) :
    shapeCast S8x896x512
        (uitofp (F := Ideal) .bf16
          (cmpi .eq
            (broadcastInDim S32x224x512 ![0, 1, 2] bcast_S32x224x1_S32x224x512_0_1_2
              (broadcastInDim S32x224x1 ![0, 1] bcast_S32x224_S32x224x1_0_1 Y))
            (broadcastInDim S32x224x512 ![0, 1, 2] bcast_S1x1x512_S32x224x512_0_1_2
              (broadcastInDim S1x1x512 ![2] bcast_S512_S1x1x512_2 (iotaInDim S512 32 0)))))
        shapeCasts_S32x224x512_S8x896x512 (ix3 g r h)
      = if Y (ix2 (⟨g.val * 4 + r.val / 224, by have := g.isLt; have := r.isLt; omega⟩ : Fin 32)
              (⟨r.val % 224, Nat.mod_lt _ (by decide)⟩ : Fin 224)) = BitVec.ofNat 32 h.val
        then 1 else 0 := by
  have hg : g.val < 8 := g.isLt
  have hr : r.val < 896 := r.isLt
  have hh : h.val < 512 := h.isLt
  rw [shapeCast_apply _ shapeCasts_S32x224x512_S8x896x512 (ix3 g r h)
    (ix3 (⟨g.val * 4 + r.val / 224, by omega⟩ : Fin 32) (⟨r.val % 224, Nat.mod_lt _ (by decide)⟩ : Fin 224) h) (by
      rw [Shape.rowMajor_val_three, Shape.rowMajor_val_three]
      show ((g.val * 4 + r.val / 224) * 224 + r.val % 224) * 512 + h.val = (g.val * 896 + r.val) * 512 + h.val
      omega)]
  show (FloatOps.uitofp (F := Ideal) .bf16 (IntOp.cmpi .eq _ _) : EReal) = _
  rw [uitofp_cmpi_eq]
  rw [broadcastInDim_apply ![0, 1, 2] bcast_S32x224x1_S32x224x512_0_1_2 _ _
      (ix3 (⟨g.val * 4 + r.val / 224, by omega⟩ : Fin 32) (⟨r.val % 224, Nat.mod_lt _ (by decide)⟩ : Fin 224) (0 : Fin 1)) (by
        intro a
        match a with
        | ⟨0, _⟩ => rfl
        | ⟨1, _⟩ => rfl
        | ⟨2, _⟩ => rfl),
    broadcastInDim_apply ![0, 1] bcast_S32x224_S32x224x1_0_1 Y _
      (ix2 (⟨g.val * 4 + r.val / 224, by omega⟩ : Fin 32) (⟨r.val % 224, Nat.mod_lt _ (by decide)⟩ : Fin 224)) (by
        intro a
        match a with
        | ⟨0, _⟩ => rfl
        | ⟨1, _⟩ => rfl),
    broadcastInDim_apply ![0, 1, 2] bcast_S1x1x512_S32x224x512_0_1_2 _ _
      (ix3 (0 : Fin 1) (0 : Fin 1) h) (by
        intro a
        match a with
        | ⟨0, _⟩ => rfl
        | ⟨1, _⟩ => rfl
        | ⟨2, _⟩ => rfl),
    broadcastInDim_apply ![2] bcast_S512_S1x1x512_2 _ _ (ix1 h) (by
        intro a
        match a with
        | ⟨0, _⟩ => rfl)]
  rfl

/-- The column comparison read at (cutout `n`, `w`, position `j`). -/
private theorem rx_apply (X : IVec S32x224 32) (n : Fin 32) (w : Fin 512) (j : Fin 224) :
    uitofp (F := Ideal) .bf16
        (cmpi .eq
          (broadcastInDim S32x512x224 ![0, 1, 2] bcast_S32x1x224_S32x512x224_0_1_2
            (broadcastInDim S32x1x224 ![0, 2] bcast_S32x224_S32x1x224_0_2 X))
          (broadcastInDim S32x512x224 ![0, 1, 2] bcast_S1x512x1_S32x512x224_0_1_2
            (broadcastInDim S1x512x1 ![1] bcast_S512_S1x512x1_1 (iotaInDim S512 32 0))))
        (ix3 n w j)
      = if X (ix2 n j) = BitVec.ofNat 32 w.val then 1 else 0 := by
  show (FloatOps.uitofp (F := Ideal) .bf16 (IntOp.cmpi .eq _ _) : EReal) = _
  rw [uitofp_cmpi_eq]
  rw [broadcastInDim_apply ![0, 1, 2] bcast_S32x1x224_S32x512x224_0_1_2 _ _ (ix3 n (0 : Fin 1) j) (by
        intro a
        match a with
        | ⟨0, _⟩ => rfl
        | ⟨1, _⟩ => rfl
        | ⟨2, _⟩ => rfl),
    broadcastInDim_apply ![0, 2] bcast_S32x224_S32x1x224_0_2 X _ (ix2 n j) (by
        intro a
        match a with
        | ⟨0, _⟩ => rfl
        | ⟨1, _⟩ => rfl),
    broadcastInDim_apply ![0, 1, 2] bcast_S1x512x1_S32x512x224_0_1_2 _ _ (ix3 (0 : Fin 1) w (0 : Fin 1)) (by
        intro a
        match a with
        | ⟨0, _⟩ => rfl
        | ⟨1, _⟩ => rfl
        | ⟨2, _⟩ => rfl),
    broadcastInDim_apply ![1] bcast_S512_S1x512x1_1 _ _ (ix1 w) (by
        intro a
        match a with
        | ⟨0, _⟩ => rfl)]
  rfl

/-- The row comparison, grouped, is the row selector of the index array. -/
private theorem ry_eq (Y : IVec S32x224 32) :
    shapeCast S8x896x512
        (uitofp (F := Ideal) .bf16
          (cmpi .eq
            (broadcastInDim S32x224x512 ![0, 1, 2] bcast_S32x224x1_S32x224x512_0_1_2
              (broadcastInDim S32x224x1 ![0, 1] bcast_S32x224_S32x224x1_0_1 Y))
            (broadcastInDim S32x224x512 ![0, 1, 2] bcast_S1x1x512_S32x224x512_0_1_2
              (broadcastInDim S1x1x512 ![2] bcast_S512_S1x1x512_2 (iotaInDim S512 32 0)))))
        shapeCasts_S32x224x512_S8x896x512
      = Cert.Cutout.RyG Y := by
  funext j
  obtain ⟨g, r, h, rfl⟩ : ∃ (g : Fin 8) (r : Fin 896) (h : Fin 512), j = ix3 g r h := ⟨j 0, j 1, j 2, eq_ix3 j⟩
  exact ry_apply Y g r h

/-- The column comparison is the column selector of the index array. -/
private theorem rx_eq (X : IVec S32x224 32) :
    uitofp (F := Ideal) .bf16
        (cmpi .eq
          (broadcastInDim S32x512x224 ![0, 1, 2] bcast_S32x1x224_S32x512x224_0_1_2
            (broadcastInDim S32x1x224 ![0, 2] bcast_S32x224_S32x1x224_0_2 X))
          (broadcastInDim S32x512x224 ![0, 1, 2] bcast_S1x512x1_S32x512x224_0_1_2
            (broadcastInDim S1x512x1 ![1] bcast_S512_S1x512x1_1 (iotaInDim S512 32 0))))
      = Cert.Cutout.RxG X := by
  funext j
  obtain ⟨n, w, k, rfl⟩ : ∃ (n : Fin 32) (w : Fin 512) (k : Fin 224), j = ix3 n w k := ⟨j 0, j 1, j 2, eq_ix3 j⟩
  exact rx_apply X n w k

/-! ## The arrays the call is handed -/

variable (m : (ℓ : Loc nD τ sig) → Buf (Elt Ideal) ℓ)

/-- The row selector the call is handed: the host operations compute the source rows from the sizes and the row
    offsets exactly as the common vocabulary does, compare them with 0 … 511, and group the result. -/
theorem V_ry (c : Dev nD) : (V m c main_v33 : Cert.KernelIdeal.S8x896x512.Idx → EReal)
    = Cert.Cutout.RyG (Cert.Cutout.yidx (m ((c : Thread nD τ).loc main_arg1)) (m ((c : Thread nD τ).loc main_arg3))) := by
  refine Eq.trans ?_ (ry_eq (Cert.Cutout.yidx (m ((c : Thread nD τ).loc main_arg1)) (m ((c : Thread nD τ).loc main_arg3))))
  dsimp only [V, V0]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

/-- The column selector the call is handed: the source columns, from the sizes and the column offsets, compared
    with 0 … 511. -/
theorem V_rx (c : Dev nD) : (V m c main_v32 : Cert.KernelIdeal.S32x512x224.Idx → EReal)
    = Cert.Cutout.RxG (Cert.Cutout.yidx (m ((c : Thread nD τ).loc main_arg1)) (m ((c : Thread nD τ).loc main_arg2))) := by
  refine Eq.trans ?_ (rx_eq (Cert.Cutout.yidx (m ((c : Thread nD τ).loc main_arg1)) (m ((c : Thread nD τ).loc main_arg2))))
  dsimp only [V, V0]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

end Cert.KernelIdeal.Gen

end
-- ==== Proof.KBodyA.lean ====
/-
  What the kernel's body leaves at one grid point whose group coordinate is zero, at the ideal instance.

  At such a point the body first splits the image block into a high part (the block read in the narrower format)
  and a low part (the block minus the high part read back in the wider format) and stores both whole into the two
  scratches it carries to the following points; then it multiplies the group's row selector into each part, stacks
  the products, and multiplies each cutout's slab of the stack by the cutout's column selector, adding the product
  of the high part and the product of the low part.  Over the extended reals a change of format is the identity and
  a product accumulated into zero is the plain sum over the contracted index, so the scratches end holding the
  block and the block minus itself, and the output block is the double sum the specification calls `OutBlk`.
-/
import proofs.«424226_j75823352644348_3_alg».proof.Proof.Gen.KernelIdeal.Frame
import proofs.«424226_j75823352644348_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL.Sem

/-! ## The two parts of the image block

In the case where the group coordinate is zero the body first reads the three channels of the image block and
stores each channel, read in the narrower format, into the first carried scratch, and the channel minus that
reading into the second.  At the ideal instance a change of format is the identity, so the first scratch ends
holding the block itself and the second the block minus itself. -/

/-- Channel `ch` of the image block, as the body loads it: at `(u, v, h, w)` the block's entry `(0, ch, h, w)`. -/
theorem ld_channel (X : Vec Ideal S1x3x512x512 .f32) (ch : Fin 3) (o : Fin 4 → Nat) (ho : o = ![0, ch.val, 0, 0])
    (inb : ∀ a, o a + S1x1x512x512.size a ≤ S1x3x512x512.size a) (u v : Fin 1) (h w : Fin 512) :
    View.ld X (Rect.unit o S1x1x512x512.size inb) (ix4 u v h w) = X (ix4 0 ch h w) := by
  subst ho
  show X _ = X _
  congr 1
  funext a
  apply Fin.ext
  have hu : u.val = 0 := by omega
  have hv : v.val = 0 := by omega
  match a with
  | ⟨0, _⟩ => show 0 + 1 * u.val = 0; omega
  | ⟨1, _⟩ => show ch.val + 1 * v.val = ch.val; omega
  | ⟨2, _⟩ => show 0 + 1 * h.val = h.val; omega
  | ⟨3, _⟩ => show 0 + 1 * w.val = w.val; omega

/-- A `[1, 1, a, b]` array read as `[a, b]`: at `(i, j)` the operand's entry `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The stored high part of a channel, at an index: the channel itself. -/
theorem pay_hi_apply (v : Vec Ideal S1x1x512x512 .f32) (u : Fin 1) (h w : Fin 512) :
    k0_pay3 (F := Ideal) v (ix3 u h w) = v (ix4 0 0 h w) := by
  unfold k0_pay3 k0_pay2
  refine (shapeCast_ab_1ab_apply _ _ u h w).trans ?_
  show shapeCast S512x512 v shapeCasts_S1x1x512x512_S512x512 (ix2 h w) = _
  exact shapeCast_11ab_ab_apply _ _ h w

/-- The stored low part of a channel, at an index: the channel minus itself. -/
theorem pay_lo_apply (v : Vec Ideal S1x1x512x512 .f32) (u : Fin 1) (h w : Fin 512) :
    k0_pay4 (F := Ideal) v (ix3 u h w) = v (ix4 0 0 h w) - v (ix4 0 0 h w) := by
  unfold k0_pay4 k0_pay2
  refine (shapeCast_ab_1ab_apply _ _ u h w).trans ?_
  show shapeCast S512x512 v shapeCasts_S1x1x512x512_S512x512 (ix2 h w)
    - shapeCast S512x512 v shapeCasts_S1x1x512x512_S512x512 (ix2 h w) = _
  rw [shapeCast_11ab_ab_apply _ _ h w]

/-- Where slab `ch` of a `[3, 512, 512]` scratch puts its entry `(u, h, w)`: at `(ch, h, w)`. -/
theorem emb_slab (ch : Fin 3) (o : Fin 3 → Nat) (ho : o = ![ch.val, 0, 0])
    (inb : ∀ a, o a + S1x512x512.size a ≤ S3x512x512.size a) (u : Fin 1) (h w : Fin 512) :
    (Rect.unit (s := S3x512x512) o S1x512x512.size inb).emb (ix3 u h w) = ix3 ch h w := by
  subst ho
  funext a
  apply Fin.ext
  have hu : u.val = 0 := by omega
  match a with
  | ⟨0, _⟩ => show ch.val + 1 * u.val = ch.val; omega
  | ⟨1, _⟩ => show 0 + 1 * h.val = h.val; omega
  | ⟨2, _⟩ => show 0 + 1 * w.val = w.val; omega

/-- The piece the body stores into slab `ch` of the first scratch is the high part there. -/
theorem piece_hi (X : Vec Ideal S1x3x512x512 .f32) (ch : Fin 3) (o4 : Fin 4 → Nat) (ho4 : o4 = ![0, ch.val, 0, 0])
    (inb4 : ∀ a, o4 a + S1x1x512x512.size a ≤ S1x3x512x512.size a) (o3 : Fin 3 → Nat) (ho3 : o3 = ![ch.val, 0, 0])
    (inb3 : ∀ a, o3 a + S1x512x512.size a ≤ S3x512x512.size a)
    (x : (Rect.unit (s := S3x512x512) o3 S1x512x512.size inb3).shape.Idx) :
    k0_pay3 (F := Ideal) (View.ld X (Rect.unit o4 S1x1x512x512.size inb4)) x
      = Cert.Cutout.hiOf X ((Rect.unit (s := S3x512x512) o3 S1x512x512.size inb3).emb x) := by
  obtain ⟨u, h, w, rfl⟩ : ∃ (u : Fin 1) (h w : Fin 512), x = ix3 u h w := ⟨x 0, x 1, x 2, eq_ix3 x⟩
  rw [emb_slab ch o3 ho3 inb3 u h w]
  refine (pay_hi_apply _ u h w).trans ?_
  exact ld_channel X ch o4 ho4 inb4 0 0 h w

/-- The piece the body stores into slab `ch` of the second scratch is the low part there. -/
theorem piece_lo (X : Vec Ideal S1x3x512x512 .f32) (ch : Fin 3) (o4 : Fin 4 → Nat) (ho4 : o4 = ![0, ch.val, 0, 0])
    (inb4 : ∀ a, o4 a + S1x1x512x512.size a ≤ S1x3x512x512.size a) (o3 : Fin 3 → Nat) (ho3 : o3 = ![ch.val, 0, 0])
    (inb3 : ∀ a, o3 a + S1x512x512.size a ≤ S3x512x512.size a)
    (x : (Rect.unit (s := S3x512x512) o3 S1x512x512.size inb3).shape.Idx) :
    k0_pay4 (F := Ideal) (View.ld X (Rect.unit o4 S1x1x512x512.size inb4)) x
      = Cert.Cutout.loOf X ((Rect.unit (s := S3x512x512) o3 S1x512x512.size inb3).emb x) := by
  obtain ⟨u, h, w, rfl⟩ : ∃ (u : Fin 1) (h w : Fin 512), x = ix3 u h w := ⟨x 0, x 1, x 2, eq_ix3 x⟩
  rw [emb_slab ch o3 ho3 inb3 u h w]
  refine (pay_lo_apply _ u h w).trans ?_
  rw [ld_channel X ch o4 ho4 inb4 0 0 h w]
  rfl

/-- The other channels' stores compute the same functions of the channel they load. -/
theorem pay6_eq (v : Vec Ideal S1x1x512x512 .f32) : k0_pay6 (F := Ideal) v = k0_pay3 v := rfl
theorem pay10_eq (v : Vec Ideal S1x1x512x512 .f32) : k0_pay10 (F := Ideal) (k0_pay9 v) = k0_pay3 v := rfl
theorem pay7_eq (v : Vec Ideal S1x1x512x512 .f32) : k0_pay7 (F := Ideal) v = k0_pay4 v := rfl
theorem pay11_eq (v : Vec Ideal S1x1x512x512 .f32) : k0_pay11 (F := Ideal) (k0_pay8 v) = k0_pay4 v := rfl

/-- What the first carried scratch holds after the body in this case: the high part of the image block. -/
theorem sout0_A_0_eq (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : cond0_0 i) (x0 : Vec Ideal S1x3x512x512 .f32) (x1 : Vec Ideal S8x896x512 .bf16) (x2 : Vec Ideal S32x512x224 .bf16) :
    sout0_A_0 (F := Ideal) c i arg2 harg2 arg3 harg3 arg4 harg4 arg5 harg5 arg6 harg6 arg7 harg7 arg8 harg8 hc0 x0 x1 x2 = Cert.Cutout.hiOf x0 := by
  unfold sout0_A_0
  rw [View.read_writes_eq_canon _ _ _ (scover0_A_0 c i arg2 harg2 arg3 harg3 arg4 harg4 arg5 harg5 arg6 harg6 arg7 harg7 arg8 harg8 hc0 x0 x1 x2)]
  funext y
  refine View.canon_apply_of_pieces (Cert.Cutout.hiOf x0) _ ?_ y (scover0_A_0 c i arg2 harg2 arg3 harg3 arg4 harg4 arg5 harg5 arg6 harg6 arg7 harg7 arg8 harg8 hc0 x0 x1 x2 y)
  unfold kernelRun0_A
  dsimp only
  sl_unfold_words
  simp only [View.readAt_eq_ld, harg2.read_unread, pay6_eq, pay10_eq]
  intro p hp
  simp only [List.mem_cons, List.not_mem_nil, or_false] at hp
  rcases hp with rfl | rfl | rfl
  · intro x; exact piece_hi x0 2 _ (by rfl) inb_S1x3x512x512_S1x1x512x512_0_2_0_0 _ (by rfl) inb_S3x512x512_S1x512x512_2_0_0 x
  · intro x; exact piece_hi x0 1 _ (by rfl) inb_S1x3x512x512_S1x1x512x512_0_1_0_0 _ (by rfl) inb_S3x512x512_S1x512x512_1_0_0 x
  · intro x; exact piece_hi x0 0 _ (by rfl) inb_S1x3x512x512_S1x1x512x512_0_0_0_0 _ (by rfl) inb_S3x512x512_S1x512x512_0_0_0 x

/-- What the second carried scratch holds after the body in this case: the low part of the image block. -/
theorem sout0_A_1_eq (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : cond0_0 i) (x0 : Vec Ideal S1x3x512x512 .f32) (x1 : Vec Ideal S8x896x512 .bf16) (x2 : Vec Ideal S32x512x224 .bf16) :
    sout0_A_1 (F := Ideal) c i arg2 harg2 arg3 harg3 arg4 harg4 arg5 harg5 arg6 harg6 arg7 harg7 arg8 harg8 hc0 x0 x1 x2 = Cert.Cutout.loOf x0 := by
  unfold sout0_A_1
  rw [View.read_writes_eq_canon _ _ _ (scover0_A_1 c i arg2 harg2 arg3 harg3 arg4 harg4 arg5 harg5 arg6 harg6 arg7 harg7 arg8 harg8 hc0 x0 x1 x2)]
  funext y
  refine View.canon_apply_of_pieces (Cert.Cutout.loOf x0) _ ?_ y (scover0_A_1 c i arg2 harg2 arg3 harg3 arg4 harg4 arg5 harg5 arg6 harg6 arg7 harg7 arg8 harg8 hc0 x0 x1 x2 y)
  unfold kernelRun0_A
  dsimp only
  sl_unfold_words
  simp only [View.readAt_eq_ld, harg2.read_unread, pay7_eq, pay11_eq]
  intro p hp
  simp only [List.mem_cons, List.not_mem_nil, or_false] at hp
  rcases hp with rfl | rfl | rfl
  · intro x; exact piece_lo x0 2 _ (by rfl) inb_S1x3x512x512_S1x1x512x512_0_2_0_0 _ (by rfl) inb_S3x512x512_S1x512x512_2_0_0 x
  · intro x; exact piece_lo x0 1 _ (by rfl) inb_S1x3x512x512_S1x1x512x512_0_1_0_0 _ (by rfl) inb_S3x512x512_S1x512x512_1_0_0 x
  · intro x; exact piece_lo x0 0 _ (by rfl) inb_S1x3x512x512_S1x1x512x512_0_0_0_0 _ (by rfl) inb_S3x512x512_S1x512x512_0_0_0 x

/-- The pieces the first scratch ends with, read as one function: the high part. -/
theorem canon_scratch0 (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : cond0_0 i) (x0 : Vec Ideal S1x3x512x512 .f32) (x1 : Vec Ideal S8x896x512 .bf16) (x2 : Vec Ideal S32x512x224 .bf16) :
    View.canon (kernelRun0_A (F := Ideal) c i arg2 harg2 arg3 harg3 arg4 harg4 arg5 harg5 arg6 harg6 arg7 harg7 arg8 harg8 hc0 x0 x1 x2).2.1 = Cert.Cutout.hiOf x0 := by
  rw [← View.read_writes_eq_canon VS0_0 VS0_0.junk _ (scover0_A_0 c i arg2 harg2 arg3 harg3 arg4 harg4 arg5 harg5 arg6 harg6 arg7 harg7 arg8 harg8 hc0 x0 x1 x2)]
  exact sout0_A_0_eq c i arg2 harg2 arg3 harg3 arg4 harg4 arg5 harg5 arg6 harg6 arg7 harg7 arg8 harg8 hc0 x0 x1 x2

/-- The pieces the second scratch ends with, read as one function: the low part. -/
theorem canon_scratch1 (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : cond0_0 i) (x0 : Vec Ideal S1x3x512x512 .f32) (x1 : Vec Ideal S8x896x512 .bf16) (x2 : Vec Ideal S32x512x224 .bf16) :
    View.canon (kernelRun0_A (F := Ideal) c i arg2 harg2 arg3 harg3 arg4 harg4 arg5 harg5 arg6 harg6 arg7 harg7 arg8 harg8 hc0 x0 x1 x2).2.2.1 = Cert.Cutout.loOf x0 := by
  rw [← View.read_writes_eq_canon VS0_1 VS0_1.junk _ (scover0_A_1 c i arg2 harg2 arg3 harg3 arg4 harg4 arg5 harg5 arg6 harg6 arg7 harg7 arg8 harg8 hc0 x0 x1 x2)]
  exact sout0_A_1_eq c i arg2 harg2 arg3 harg3 arg4 harg4 arg5 harg5 arg6 harg6 arg7 harg7 arg8 harg8 hc0 x0 x1 x2

/-! ## The body's arithmetic in one vocabulary

The body's values are cut into many small functions by where its loads and stores fall; each of them is one of four
operations: the row selector times one slab of a scratch (`stage1`), 224 rows of such a product (`rows`), a slab
of the stack times a column selector (`stage2`), and the sum of two 224-row tiles of that product laid out as an
output tile (`outTile`). -/

/-- The row selector `A` times slab `B` of a scratch, accumulated from zero and read in the narrower format. -/
def stage1 (A : FVec Ideal S896x512 .bf16) (B : Vec Ideal S1x512x512 .bf16) : FVec Ideal S896x512 .bf16 :=
  have B' : FVec Ideal S512x512 .bf16 := shapeCast S512x512 B shapeCasts_S1x512x512_S512x512
  have z : FVec Ideal S896x512 .f32 := constant S896x512 .f32 0x00000000#32
  have P : FVec Ideal S896x512 .f32 := matmul dot_S896x512_S512x512_S896x512_1_0_0_1_n_n none A B' z
  truncf .bf16 P bitsLt_bf16_f32

/-- Rows `[o, o + 224)` of a stage-one product. -/
def rows (o : ℕ) (hs : S896x512.Slices ![o, 0] S224x512) (T : FVec Ideal S896x512 .bf16) : FVec Ideal S224x512 .bf16 :=
  shapeCast S224x512 (extractStridedSlice S224x512 ![o, 0] T hs) shapeCasts_S224x512_S224x512

/-- A slab of the stack times a cutout's column selector, accumulated from zero. -/
def stage2 (slab : Vec Ideal S1344x512 .bf16) (rxv : Vec Ideal S1x512x224 .bf16) : FVec Ideal S1344x224 .f32 :=
  have R : FVec Ideal S512x224 .bf16 := shapeCast S512x224 rxv shapeCasts_S1x512x224_S512x224
  have z : FVec Ideal S1344x224 .f32 := constant S1344x224 .f32 0x00000000#32
  have slab' : FVec Ideal S1344x512 .bf16 := slab
  matmul dot_S1344x512_S512x224_S1344x224_1_0_0_1_n_n none slab' R z

/-- Rows `[o1, o1 + 224)` plus rows `[o2, o2 + 224)` of a stage-two product, as an output tile. -/
def outTile (o1 o2 : ℕ) (h1 : S1344x224.Slices ![o1, 0] S224x224) (h2 : S1344x224.Slices ![o2, 0] S224x224)
    (O : FVec Ideal S1344x224 .f32) : FVec Ideal S1x1x1x224x224 .f32 :=
  shapeCast S1x1x1x224x224 (addf (extractStridedSlice S224x224 ![o1, 0] O h1) (extractStridedSlice S224x224 ![o2, 0] O h2))
    shapeCasts_S224x224_S1x1x1x224x224

theorem pay13_eq (v4 : Vec Ideal S1x896x512 .bf16) (v6 : Vec Ideal S1x512x512 .bf16) :
    k0_pay13 (F := Ideal) v4 v6 = stage1 (k0_pay12 v4) v6 := rfl
theorem pay14_eq (v4 : Vec Ideal S1x896x512 .bf16) (v8 : Vec Ideal S1x512x512 .bf16) :
    k0_pay14 (F := Ideal) v4 v8 = stage1 (k0_pay12 v4) v8 := rfl
theorem pay24_eq (v5 : FVec Ideal S896x512 .bf16) (v : Vec Ideal S1x512x512 .bf16) :
    k0_pay24 (F := Ideal) v5 v = stage1 v5 v := rfl
theorem pay25_eq (v5 : FVec Ideal S896x512 .bf16) (v : Vec Ideal S1x512x512 .bf16) :
    k0_pay25 (F := Ideal) v5 v = stage1 v5 v := rfl
theorem pay35_eq (v5 : FVec Ideal S896x512 .bf16) (v : Vec Ideal S1x512x512 .bf16) :
    k0_pay35 (F := Ideal) v5 v = stage1 v5 v := rfl
theorem pay36_eq (v5 : FVec Ideal S896x512 .bf16) (v : Vec Ideal S1x512x512 .bf16) :
    k0_pay36 (F := Ideal) v5 v = stage1 v5 v := rfl
theorem pay15_eq (v4 : Vec Ideal S1x896x512 .bf16) (v6 : Vec Ideal S1x512x512 .bf16) :
    k0_pay15 (F := Ideal) v4 v6 = rows 0 slices_S896x512_o0_0_S224x512 (stage1 (k0_pay12 v4) v6) := rfl
theorem pay16_eq (v4 : Vec Ideal S1x896x512 .bf16) (v8 : Vec Ideal S1x512x512 .bf16) :
    k0_pay16 (F := Ideal) v4 v8 = rows 0 slices_S896x512_o0_0_S224x512 (stage1 (k0_pay12 v4) v8) := rfl
theorem pay17_eq (v4 : Vec Ideal S1x896x512 .bf16) (v6 : Vec Ideal S1x512x512 .bf16) :
    k0_pay17 (F := Ideal) v4 v6 = rows 224 slices_S896x512_o224_0_S224x512 (stage1 (k0_pay12 v4) v6) := rfl
theorem pay18_eq (v4 : Vec Ideal S1x896x512 .bf16) (v8 : Vec Ideal S1x512x512 .bf16) :
    k0_pay18 (F := Ideal) v4 v8 = rows 224 slices_S896x512_o224_0_S224x512 (stage1 (k0_pay12 v4) v8) := rfl
theorem pay20_eq (v4 : Vec Ideal S1x896x512 .bf16) (v6 : Vec Ideal S1x512x512 .bf16) :
    k0_pay20 (F := Ideal) (k0_pay19 v4 v6) = rows 448 slices_S896x512_o448_0_S224x512 (stage1 (k0_pay12 v4) v6) := rfl
theorem pay26_eq (v5 : FVec Ideal S896x512 .bf16) (v46 : Vec Ideal S1x512x512 .bf16) :
    k0_pay26 (F := Ideal) v5 v46 = rows 0 slices_S896x512_o0_0_S224x512 (stage1 v5 v46) := rfl
theorem pay27_eq (v5 : FVec Ideal S896x512 .bf16) (v48 : Vec Ideal S1x512x512 .bf16) :
    k0_pay27 (F := Ideal) v5 v48 = rows 0 slices_S896x512_o0_0_S224x512 (stage1 v5 v48) := rfl
theorem pay29_eq (v5 : FVec Ideal S896x512 .bf16) (v46 : Vec Ideal S1x512x512 .bf16) :
    k0_pay29 (F := Ideal) (k0_pay28 v5 v46) = rows 224 slices_S896x512_o224_0_S224x512 (stage1 v5 v46) := rfl
theorem pay37_eq (v5 : FVec Ideal S896x512 .bf16) (v86 : Vec Ideal S1x512x512 .bf16) :
    k0_pay37 (F := Ideal) v5 v86 = rows 0 slices_S896x512_o0_0_S224x512 (stage1 v5 v86) := rfl
theorem pay21_eq (T : FVec Ideal S896x512 .bf16) :
    k0_pay21 (F := Ideal) T = rows 448 slices_S896x512_o448_0_S224x512 T := rfl
theorem pay22_eq (T : FVec Ideal S896x512 .bf16) :
    k0_pay22 (F := Ideal) T = rows 672 slices_S896x512_o672_0_S224x512 T := rfl
theorem pay23_eq (T : FVec Ideal S896x512 .bf16) :
    k0_pay23 (F := Ideal) T = rows 672 slices_S896x512_o672_0_S224x512 T := rfl
theorem pay30_eq (T : FVec Ideal S896x512 .bf16) :
    k0_pay30 (F := Ideal) T = rows 224 slices_S896x512_o224_0_S224x512 T := rfl
theorem pay31_eq (T : FVec Ideal S896x512 .bf16) :
    k0_pay31 (F := Ideal) T = rows 448 slices_S896x512_o448_0_S224x512 T := rfl
theorem pay32_eq (T : FVec Ideal S896x512 .bf16) :
    k0_pay32 (F := Ideal) T = rows 448 slices_S896x512_o448_0_S224x512 T := rfl
theorem pay33_eq (T : FVec Ideal S896x512 .bf16) :
    k0_pay33 (F := Ideal) T = rows 672 slices_S896x512_o672_0_S224x512 T := rfl
theorem pay34_eq (T : FVec Ideal S896x512 .bf16) :
    k0_pay34 (F := Ideal) T = rows 672 slices_S896x512_o672_0_S224x512 T := rfl
theorem pay38_eq (T : FVec Ideal S896x512 .bf16) :
    k0_pay38 (F := Ideal) T = rows 0 slices_S896x512_o0_0_S224x512 T := rfl
theorem pay39_eq (T : FVec Ideal S896x512 .bf16) :
    k0_pay39 (F := Ideal) T = rows 224 slices_S896x512_o224_0_S224x512 T := rfl
theorem pay40_eq (T : FVec Ideal S896x512 .bf16) :
    k0_pay40 (F := Ideal) T = rows 224 slices_S896x512_o224_0_S224x512 T := rfl
theorem pay41_eq (T : FVec Ideal S896x512 .bf16) :
    k0_pay41 (F := Ideal) T = rows 448 slices_S896x512_o448_0_S224x512 T := rfl
theorem pay42_eq (T : FVec Ideal S896x512 .bf16) :
    k0_pay42 (F := Ideal) T = rows 448 slices_S896x512_o448_0_S224x512 T := rfl
theorem pay43_eq (T : FVec Ideal S896x512 .bf16) :
    k0_pay43 (F := Ideal) T = rows 672 slices_S896x512_o672_0_S224x512 T := rfl
theorem pay44_eq (T : FVec Ideal S896x512 .bf16) :
    k0_pay44 (F := Ideal) T = rows 672 slices_S896x512_o672_0_S224x512 T := rfl
theorem pay45_eq (slab : Vec Ideal S1344x512 .bf16) (rxv : Vec Ideal S1x512x224 .bf16) :
    k0_pay45 (F := Ideal) slab rxv = stage2 slab rxv := rfl
theorem pay49_eq (slab : Vec Ideal S1344x512 .bf16) (rxv : Vec Ideal S1x512x224 .bf16) :
    k0_pay49 (F := Ideal) slab rxv = stage2 slab rxv := rfl
theorem pay54_eq (slab : Vec Ideal S1344x512 .bf16) (rxv : Vec Ideal S1x512x224 .bf16) :
    k0_pay54 (F := Ideal) slab rxv = stage2 slab rxv := rfl
theorem pay59_eq (slab : Vec Ideal S1344x512 .bf16) (rxv : Vec Ideal S1x512x224 .bf16) :
    k0_pay59 (F := Ideal) slab rxv = stage2 slab rxv := rfl
theorem pay46_eq (slab : Vec Ideal S1344x512 .bf16) (rxv : Vec Ideal S1x512x224 .bf16) :
    k0_pay46 (F := Ideal) slab rxv = outTile 0 224 slices_S1344x224_o0_0_S224x224 slices_S1344x224_o224_0_S224x224 (stage2 slab rxv) := rfl
theorem pay47_eq (slab : Vec Ideal S1344x512 .bf16) (rxv : Vec Ideal S1x512x224 .bf16) :
    k0_pay47 (F := Ideal) slab rxv = outTile 448 672 slices_S1344x224_o448_0_S224x224 slices_S1344x224_o672_0_S224x224 (stage2 slab rxv) := rfl
theorem pay48_eq (slab : Vec Ideal S1344x512 .bf16) (rxv : Vec Ideal S1x512x224 .bf16) :
    k0_pay48 (F := Ideal) slab rxv = outTile 896 1120 slices_S1344x224_o896_0_S224x224 slices_S1344x224_o1120_0_S224x224 (stage2 slab rxv) := rfl
theorem pay51_eq (slab : Vec Ideal S1344x512 .bf16) (rxv : Vec Ideal S1x512x224 .bf16) :
    k0_pay51 (F := Ideal) (k0_pay50 slab rxv) = outTile 0 224 slices_S1344x224_o0_0_S224x224 slices_S1344x224_o224_0_S224x224 (stage2 slab rxv) := rfl
theorem pay52_eq (O : FVec Ideal S1344x224 .f32) :
    k0_pay52 (F := Ideal) O = outTile 448 672 slices_S1344x224_o448_0_S224x224 slices_S1344x224_o672_0_S224x224 (O) := rfl
theorem pay53_eq (O : FVec Ideal S1344x224 .f32) :
    k0_pay53 (F := Ideal) O = outTile 896 1120 slices_S1344x224_o896_0_S224x224 slices_S1344x224_o1120_0_S224x224 (O) := rfl
theorem pay55_eq (slab : Vec Ideal S1344x512 .bf16) (rxv : Vec Ideal S1x512x224 .bf16) :
    k0_pay55 (F := Ideal) slab rxv = outTile 0 224 slices_S1344x224_o0_0_S224x224 slices_S1344x224_o224_0_S224x224 (stage2 slab rxv) := rfl
theorem pay57_eq (slab : Vec Ideal S1344x512 .bf16) (rxv : Vec Ideal S1x512x224 .bf16) :
    k0_pay57 (F := Ideal) (k0_pay56 slab rxv) = outTile 448 672 slices_S1344x224_o448_0_S224x224 slices_S1344x224_o672_0_S224x224 (stage2 slab rxv) := rfl
theorem pay58_eq (O : FVec Ideal S1344x224 .f32) :
    k0_pay58 (F := Ideal) O = outTile 896 1120 slices_S1344x224_o896_0_S224x224 slices_S1344x224_o1120_0_S224x224 (O) := rfl
theorem pay60_eq (slab : Vec Ideal S1344x512 .bf16) (rxv : Vec Ideal S1x512x224 .bf16) :
    k0_pay60 (F := Ideal) slab rxv = outTile 0 224 slices_S1344x224_o0_0_S224x224 slices_S1344x224_o224_0_S224x224 (stage2 slab rxv) := rfl
theorem pay61_eq (slab : Vec Ideal S1344x512 .bf16) (rxv : Vec Ideal S1x512x224 .bf16) :
    k0_pay61 (F := Ideal) slab rxv = outTile 448 672 slices_S1344x224_o448_0_S224x224 slices_S1344x224_o672_0_S224x224 (stage2 slab rxv) := rfl
theorem pay1_eq (slab : Vec Ideal S1344x512 .bf16) (rxv : Vec Ideal S1x512x224 .bf16) :
    k0_pay1 (F := Ideal) (k0_pay62 slab rxv) = outTile 896 1120 slices_S1344x224_o896_0_S224x224 slices_S1344x224_o1120_0_S224x224 (stage2 slab rxv) := rfl

/-! ## The four operations at an index -/

/-- A product of an `M × K` by a `K × N` matrix accumulated from zero, read at an index: the sum over the contracted
    coordinate of the products of the entries. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    FloatOps.matmul (⟨[1], [0], [0], [1], [], [], w⟩ : DotDims _ _ _) prec A B (constant ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Stage one at an index: row `m` of the selector against column `w` of the slab. -/
theorem stage1_apply (A : FVec Ideal S896x512 .bf16) (B : Vec Ideal S1x512x512 .bf16) (m : Fin 896) (w : Fin 512) :
    stage1 A B (ix2 m w) = ∑ h : Fin 512, A (ix2 m h) * B (ix3 0 h w) := by
  unfold stage1
  show FloatOps.matmul (⟨[1], [0], [0], [1], [], [], dot_S896x512_S512x512_S896x512_1_0_0_1_n_n_wf⟩ : DotDims S896x512 S512x512 S896x512)
      none A (shapeCast S512x512 B shapeCasts_S1x512x512_S512x512 : FVec Ideal S512x512 .bf16)
      (constant S896x512 .f32 0x00000000#32) (ix2 m w) = _
  refine (matmul_zero_apply _ none A _ m w).trans ?_
  refine Finset.sum_congr rfl fun h _ => ?_
  rw [shapeCast_1ab_ab_apply B shapeCasts_S1x512x512_S512x512 h w]

/-- Rows `[o, o + 224)` at an index. -/
theorem rows_apply (o : ℕ) (hs : S896x512.Slices ![o, 0] S224x512) (T : FVec Ideal S896x512 .bf16)
    (r : Fin 224) (w : Fin 512) (k : Fin 896) (hk : k.val = o + r.val) :
    rows o hs T (ix2 r w) = T (ix2 k w) := by
  unfold rows
  rw [shapeCast_self]
  exact slice2_axis0_apply o T hs r w k hk

/-- Stage two at an index: row `m` of the slab against column `q` of the column selector. -/
theorem stage2_apply (slab : Vec Ideal S1344x512 .bf16) (rxv : Vec Ideal S1x512x224 .bf16) (m : Fin 1344) (q : Fin 224) :
    stage2 slab rxv (ix2 m q) = ∑ w : Fin 512, slab (ix2 m w) * rxv (ix3 0 w q) := by
  unfold stage2
  show FloatOps.matmul (⟨[1], [0], [0], [1], [], [], dot_S1344x512_S512x224_S1344x224_1_0_0_1_n_n_wf⟩ : DotDims S1344x512 S512x224 S1344x224)
      none (slab : FVec Ideal S1344x512 .bf16) (shapeCast S512x224 rxv shapeCasts_S1x512x224_S512x224 : FVec Ideal S512x224 .bf16)
      (constant S1344x224 .f32 0x00000000#32) (ix2 m q) = _
  refine (matmul_zero_apply _ none _ _ m q).trans ?_
  refine Finset.sum_congr rfl fun w _ => ?_
  rw [shapeCast_1ab_ab_apply rxv shapeCasts_S1x512x224_S512x224 w q]

/-- A `[a, b]` array read as `[1, 1, 1, a, b]`: at `(u, v, t, i, j)` the operand's entry `(i, j)`. -/
theorem shapeCast_ab_111ab_apply {α : Type} {a b : ℕ} (x : (⟨2, ![a, b]⟩ : Shape).Idx → α)
    (h : (⟨2, ![a, b]⟩ : Shape).ShapeCasts ⟨5, ![1, 1, 1, a, b]⟩) (u v t : Fin 1) (i : Fin a) (j : Fin b) :
    shapeCast ⟨5, ![1, 1, 1, a, b]⟩ x h (ix5 u v t i j) = x (ix2 i j) :=
  shapeCast_apply x h _ _ (by
    have hu : u.val = 0 := by omega
    have hv : v.val = 0 := by omega
    have ht : t.val = 0 := by omega
    rw [Shape.rowMajor_val_five, Shape.rowMajor_val_two]
    show i.val * b + j.val = ((((u.val * 1 + v.val) * 1 + t.val) * a + i.val) * b + j.val)
    rw [hu, hv, ht]
    simp only [Nat.zero_mul, Nat.zero_add, Nat.add_zero])

/-- An output tile at an index: the sum of the two rows it adds. -/
theorem outTile_apply (o1 o2 : ℕ) (h1 : S1344x224.Slices ![o1, 0] S224x224) (h2 : S1344x224.Slices ![o2, 0] S224x224)
    (O : FVec Ideal S1344x224 .f32) (u v t : Fin 1) (r q : Fin 224) (k1 k2 : Fin 1344)
    (hk1 : k1.val = o1 + r.val) (hk2 : k2.val = o2 + r.val) :
    outTile o1 o2 h1 h2 O (ix5 u v t r q) = O (ix2 k1 q) + O (ix2 k2 q) := by
  unfold outTile
  refine (shapeCast_ab_111ab_apply _ _ u v t r q).trans ?_
  refine (addf_apply _ _ _).trans ?_
  rw [slice2_axis0_apply o1 O h1 r q k1 hk1, slice2_axis0_apply o2 O h2 r q k2 hk2]

/-! ## The stack

Row `gi * 1344 + ch * 448 + p * 224 + r` of the stack holds row `gi * 224 + r` of the stage-one product for channel
`ch` of the high part (`p = 0`) or of the low part (`p = 1`). -/

/-- A stage-one entry: row `m` of group `g`'s row selector against column `w` of channel `ch` of a part. -/
def T1 (g : Fin 8) (ry : Cert.Cutout.SRy.Idx → EReal) (xs : Cert.Cutout.SS.Idx → EReal) (ch : Fin 3) (m : Fin 896)
    (w : Fin 512) : EReal :=
  ∑ h : Fin 512, ry (ix3 g m h) * xs (ix3 ch h w)

/-- The channel a row of the stack belongs to. -/
def stackCh (R : ℕ) (hR : R < 5376) : Fin 3 := ⟨R % 1344 / 448, by omega⟩

/-- The row of the stage-one product a row of the stack holds. -/
def stackRow (R : ℕ) (hR : R < 5376) : Fin 896 := ⟨R / 1344 * 224 + R % 224, by omega⟩

/-- The stack as one function of its index. -/
def Stack (g : Fin 8) (ry : Cert.Cutout.SRy.Idx → EReal) (hi lo : Cert.Cutout.SS.Idx → EReal) :
    S5376x512.Idx → EReal := fun j =>
  T1 g ry (if (j 0).val % 448 / 224 = 0 then hi else lo) (stackCh (j 0).val (j 0).isLt) (stackRow (j 0).val (j 0).isLt) (j 1)

/-- The stack at a row written by its four coordinates. -/
theorem Stack_at (g : Fin 8) (ry : Cert.Cutout.SRy.Idx → EReal) (hi lo : Cert.Cutout.SS.Idx → EReal)
    (gi : Fin 4) (ch : Fin 3) (p : ℕ) (hp : p < 2) (r : Fin 224) (w : Fin 512) (R : Fin 5376)
    (hR : R.val = gi.val * 1344 + ch.val * 448 + p * 224 + r.val) :
    Stack g ry hi lo (ix2 R w) = T1 g ry (if p = 0 then hi else lo) ch (Cert.Cutout.selRow gi r) w := by
  have hgi : gi.val < 4 := gi.isLt
  have hch : ch.val < 3 := ch.isLt
  have hr : r.val < 224 := r.isLt
  show T1 g ry (if R.val % 448 / 224 = 0 then hi else lo) (stackCh R.val R.isLt) (stackRow R.val R.isLt) w = _
  have e1 : stackCh R.val R.isLt = ch := Fin.ext (by show R.val % 1344 / 448 = ch.val; omega)
  have e2 : stackRow R.val R.isLt = Cert.Cutout.selRow gi r :=
    Fin.ext (by show R.val / 1344 * 224 + R.val % 224 = gi.val * 224 + r.val; omega)
  have e3 : (R.val % 448 / 224 = 0) ↔ (p = 0) := by omega
  rw [e1, e2]
  by_cases h0 : p = 0
  · rw [if_pos h0, if_pos (e3.mpr h0)]
  · rw [if_neg h0, if_neg (fun h => h0 (e3.mp h))]

/-- The group's row selector as the body reads it: entry `(m, h)` is the selector block's `(g, m, h)`. -/
theorem ry_read (X1 : Vec Ideal S8x896x512 .bf16) (g : Fin 8) (off : Fin 3 → ℕ) (h0 : off 0 = g.val) (h1 : off 1 = 0)
    (h2 : off 2 = 0) (inb : ∀ a, off a + S1x896x512.size a ≤ S8x896x512.size a) (m : Fin 896) (h : Fin 512) :
    k0_pay12 (F := Ideal) (View.ld X1 (Rect.unit off S1x896x512.size inb)) (ix2 m h) = X1 (ix3 g m h) := by
  unfold k0_pay12
  refine (shapeCast_1ab_ab_apply _ _ m h).trans ?_
  show X1 _ = X1 _
  congr 1
  funext a
  apply Fin.ext
  match a with
  | ⟨0, _⟩ => show off 0 + 1 * 0 = g.val; omega
  | ⟨1, _⟩ => show off 1 + 1 * m.val = m.val; omega
  | ⟨2, _⟩ => show off 2 + 1 * h.val = h.val; omega

/-- A cutout's column selector as the body reads it: entry `(w, q)` is the selector block's `(4 g + gi, w, q)`. -/
theorem rx_read (X2 : Vec Ideal S32x512x224 .bf16) (g : Fin 8) (gi : Fin 4) (off : Fin 3 → ℕ)
    (h0 : off 0 = g.val * 4 + gi.val) (h1 : off 1 = 0) (h2 : off 2 = 0)
    (inb : ∀ a, off a + S1x512x224.size a ≤ S32x512x224.size a) (u : Fin 1) (w : Fin 512) (q : Fin 224) :
    View.ld X2 (Rect.unit off S1x512x224.size inb) (ix3 u w q) = X2 (ix3 (Cert.Cutout.cutOf g gi) w q) := by
  show X2 _ = X2 _
  congr 1
  funext a
  apply Fin.ext
  have hu : u.val = 0 := by omega
  match a with
  | ⟨0, _⟩ => show off 0 + 1 * u.val = g.val * 4 + gi.val; omega
  | ⟨1, _⟩ => show off 1 + 1 * w.val = w.val; omega
  | ⟨2, _⟩ => show off 2 + 1 * q.val = q.val; omega

/-- The word the body computes for a group index below eight is the index. -/
theorem word_group (n : ℕ) (hn : n < 8) : BitVec.toNat (Scalar.indexCast (BitVec.ofNat 32 n)) = n := by
  show (BitVec.ofNat 32 n).toNat = n
  rw [BitVec.toNat_ofNat]
  omega

/-- The word the body computes for a cutout index `4 n + k` is that index. -/
theorem word_cutout (n : ℕ) (hn : n < 8) (k : ℕ) (hk : k < 4) :
    BitVec.toNat (Scalar.indexCast (Scalar.addi (Scalar.muli (BitVec.ofNat 32 n) 4#32) (BitVec.ofNat 32 k))) = n * 4 + k := by
  show (BitVec.ofNat 32 n * 4#32 + BitVec.ofNat 32 k).toNat = n * 4 + k
  rw [BitVec.toNat_add, BitVec.toNat_mul, BitVec.toNat_ofNat, BitVec.toNat_ofNat, BitVec.toNat_ofNat]
  omega

/-- Slab `ch` of a part read back through its rectangle: entry `(u, h, w)` is the part's `(ch, h, w)`. -/
theorem slab_read (xs : Cert.Cutout.SS.Idx → EReal) (ch : Fin 3) (o : Fin 3 → Nat) (ho : o = ![ch.val, 0, 0])
    (inb : ∀ a, o a + S1x512x512.size a ≤ S3x512x512.size a) (u : Fin 1) (h w : Fin 512) :
    xs ((Rect.unit (s := S3x512x512) o S1x512x512.size inb).toLoadRect.idx (ix3 u h w)) = xs (ix3 ch h w) :=
  congrArg xs (emb_slab ch o ho inb u h w)

/-- Where a 224-row piece of the stack puts its entry `(r, w)`. -/
theorem emb_stack (off : Fin 2 → ℕ) (inb : ∀ a, off a + S224x512.size a ≤ S5376x512.size a) (h1 : off 1 = 0)
    (r : Fin 224) (w : Fin 512) (R : Fin 5376) (hR : R.val = off 0 + r.val) :
    (Rect.unit (s := S5376x512) off S224x512.size inb).emb (ix2 r w) = ix2 R w := by
  funext a
  apply Fin.ext
  match a with
  | ⟨0, _⟩ => show off 0 + 1 * r.val = R.val; omega
  | ⟨1, _⟩ => show off 1 + 1 * w.val = w.val; omega

/-- A piece the body stores into the stack is the stack there: 224 rows of the stage-one product of the group's row
    selector with one slab of a part. -/
theorem stack_piece (g : Fin 8) (X1 : Vec Ideal S8x896x512 .bf16) (hi lo : Cert.Cutout.SS.Idx → EReal)
    (A : FVec Ideal S896x512 .bf16) (hA : ∀ m h, A (ix2 m h) = X1 (ix3 g m h))
    (B : Vec Ideal S1x512x512 .bf16) (ch : Fin 3) (p : ℕ) (hp : p < 2)
    (xs : Cert.Cutout.SS.Idx → EReal) (hxs : (if p = 0 then hi else lo) = xs)
    (hB : ∀ h w, B (ix3 0 h w) = xs (ix3 ch h w))
    (gi : Fin 4) (o : ℕ) (ho : o = gi.val * 224) (hs : S896x512.Slices ![o, 0] S224x512)
    (off : Fin 2 → ℕ) (hoff : off = ![gi.val * 1344 + ch.val * 448 + p * 224, 0])
    (inb : ∀ a, off a + S224x512.size a ≤ S5376x512.size a)
    (x : (Rect.unit (s := S5376x512) off S224x512.size inb).shape.Idx) :
    rows o hs (stage1 A B) x = Stack g X1 hi lo ((Rect.unit (s := S5376x512) off S224x512.size inb).emb x) := by
  obtain ⟨r, w, rfl⟩ : ∃ (r : Fin 224) (w : Fin 512), x = ix2 r w := ⟨x 0, x 1, eq_ix2 x⟩
  subst hoff ho hxs
  have hgi : gi.val < 4 := gi.isLt
  have hch : ch.val < 3 := ch.isLt
  have hr : r.val < 224 := r.isLt
  rw [emb_stack _ inb rfl r w ⟨gi.val * 1344 + ch.val * 448 + p * 224 + r.val, by omega⟩ rfl,
    Stack_at g X1 hi lo gi ch p hp r w _ rfl,
    rows_apply _ hs _ r w (Cert.Cutout.selRow gi r) rfl, stage1_apply]
  unfold T1
  refine Finset.sum_congr rfl fun h _ => ?_
  rw [hA, hB]

/-! ## The output block -/

/-- Where a slab of the stack is read: entry `(m, w)` of slab `gi` is the stack's `(gi * 1344 + m, w)`. -/
theorem slab_idx (gi : Fin 4) (off : Fin 2 → ℕ) (hoff : off = ![gi.val * 1344, 0])
    (inb : ∀ a, off a + S1344x512.size a ≤ S5376x512.size a) (m : Fin 1344) (w : Fin 512) (R : Fin 5376)
    (hR : R.val = gi.val * 1344 + m.val) :
    (Rect.unit (s := S5376x512) off S1344x512.size inb).toLoadRect.idx (ix2 m w) = ix2 R w := by
  subst hoff
  funext a
  apply Fin.ext
  match a with
  | ⟨0, _⟩ => show gi.val * 1344 + 1 * m.val = R.val; omega
  | ⟨1, _⟩ => show 0 + 1 * w.val = w.val; omega

/-- Where an output tile puts its entry `(u, v, t, r, q)`: at `(gi, 0, ch, r, q)`. -/
theorem emb_tile (gi : Fin 4) (ch : Fin 3) (off : Fin 5 → ℕ) (hoff : off = ![gi.val, 0, ch.val, 0, 0])
    (inb : ∀ a, off a + S1x1x1x224x224.size a ≤ S4x1x3x224x224.size a) (u v t : Fin 1) (r q : Fin 224) :
    (Rect.unit (s := S4x1x3x224x224) off S1x1x1x224x224.size inb).emb (ix5 u v t r q) = ix5 gi (0 : Fin 1) ch r q := by
  subst hoff
  funext a
  apply Fin.ext
  have hu : u.val = 0 := by omega
  have hv : v.val = 0 := by omega
  have ht : t.val = 0 := by omega
  match a with
  | ⟨0, _⟩ => show gi.val + 1 * u.val = gi.val; omega
  | ⟨1, _⟩ => show 0 + 1 * v.val = 0; omega
  | ⟨2, _⟩ => show ch.val + 1 * t.val = ch.val; omega
  | ⟨3, _⟩ => show 0 + 1 * r.val = r.val; omega
  | ⟨4, _⟩ => show 0 + 1 * q.val = q.val; omega

/-- A tile the body stores into the output block is the specification's block there: slab `gi` of the stack times
    the column selector of cutout `4 g + gi`, the rows of channel `ch`'s high part plus those of its low part. -/
theorem out_piece (g : Fin 8) (X1 : Vec Ideal S8x896x512 .bf16) (X2 : Vec Ideal S32x512x224 .bf16)
    (hi lo : Cert.Cutout.SS.Idx → EReal) (gi : Fin 4) (ch : Fin 3)
    (slab : Vec Ideal S1344x512 .bf16)
    (hslab : ∀ (m : Fin 1344) (w : Fin 512) (R : Fin 5376), R.val = gi.val * 1344 + m.val →
      slab (ix2 m w) = Stack g X1 hi lo (ix2 R w))
    (rxv : Vec Ideal S1x512x224 .bf16) (hrx : ∀ w q, rxv (ix3 0 w q) = X2 (ix3 (Cert.Cutout.cutOf g gi) w q))
    (o1 o2 : ℕ) (ho1 : o1 = ch.val * 448) (ho2 : o2 = ch.val * 448 + 224)
    (h1 : S1344x224.Slices ![o1, 0] S224x224) (h2 : S1344x224.Slices ![o2, 0] S224x224)
    (off : Fin 5 → ℕ) (hoff : off = ![gi.val, 0, ch.val, 0, 0])
    (inb : ∀ a, off a + S1x1x1x224x224.size a ≤ S4x1x3x224x224.size a)
    (x : (Rect.unit (s := S4x1x3x224x224) off S1x1x1x224x224.size inb).shape.Idx) :
    outTile o1 o2 h1 h2 (stage2 slab rxv) x
      = Cert.Cutout.OutBlk g X1 X2 hi lo ((Rect.unit (s := S4x1x3x224x224) off S1x1x1x224x224.size inb).emb x) := by
  obtain ⟨u, v, t, r, q, rfl⟩ : ∃ (u v t : Fin 1) (r q : Fin 224), x = ix5 u v t r q :=
    ⟨x 0, x 1, x 2, x 3, x 4, eq_ix5 x⟩
  subst ho1 ho2
  have hgi : gi.val < 4 := gi.isLt
  have hch : ch.val < 3 := ch.isLt
  have hr : r.val < 224 := r.isLt
  rw [emb_tile gi ch off hoff inb u v t r q,
    outTile_apply _ _ h1 h2 _ u v t r q ⟨ch.val * 448 + r.val, by omega⟩ ⟨ch.val * 448 + 224 + r.val, by omega⟩ rfl rfl,
    stage2_apply, stage2_apply]
  show _ = (∑ w : Fin 512, T1 g X1 hi ch (Cert.Cutout.selRow gi r) w * X2 (ix3 (Cert.Cutout.cutOf g gi) w q))
    + (∑ w : Fin 512, T1 g X1 lo ch (Cert.Cutout.selRow gi r) w * X2 (ix3 (Cert.Cutout.cutOf g gi) w q))
  congr 1
  · refine Finset.sum_congr rfl fun w _ => ?_
    rw [hslab _ w ⟨gi.val * 1344 + ch.val * 448 + 0 * 224 + r.val, by omega⟩ (by dsimp only; omega),
      Stack_at g X1 hi lo gi ch 0 (by omega) r w _ rfl, hrx, if_pos rfl]
  · refine Finset.sum_congr rfl fun w _ => ?_
    rw [hslab _ w ⟨gi.val * 1344 + ch.val * 448 + 1 * 224 + r.val, by omega⟩ (by dsimp only; omega),
      Stack_at g X1 hi lo gi ch 1 (by omega) r w _ rfl, hrx, if_neg (by omega)]

/-- Pieces that all restrict one function, and cover, read as that function. -/
theorem canon_eq_fun {S : Shape} {e : EltTy} (G : S.Idx → Elt Ideal e) (L : List (View.Piece (Elt Ideal) S e))
    (hp : ∀ p ∈ L, ∀ x : p.1.shape.Idx, p.2 x = G (p.1.emb x)) (hc : ∀ y, ∃ p ∈ L, y ∈ p.1.set) :
    View.canon L = G :=
  funext fun y => View.canon_apply_of_pieces G L hp y (hc y)

/-- What the output block holds after the body in this case: the specification's block for group `i 1`, from the
    two selector blocks and the two parts of the image block. -/
theorem out0_A_3_eq (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : cond0_0 i) (x0 : Vec Ideal S1x3x512x512 .f32) (x1 : Vec Ideal S8x896x512 .bf16) (x2 : Vec Ideal S32x512x224 .bf16) :
    out0_A_3 (F := Ideal) c i arg2 harg2 arg3 harg3 arg4 harg4 arg5 harg5 arg6 harg6 arg7 harg7 arg8 harg8 hc0 x0 x1 x2
      = Cert.Cutout.OutBlk (i 1) x1 x2 (Cert.Cutout.hiOf x0) (Cert.Cutout.loOf x0) := by
  have hg : (i 1).val < 8 := (i 1).isLt
  unfold out0_A_3
  rw [View.read_writes_eq_canon _ _ _ (cover0_A_3 c i arg2 harg2 arg3 harg3 arg4 harg4 arg5 harg5 arg6 harg6 arg7 harg7 arg8 harg8 hc0 x0 x1 x2)]
  funext y
  refine View.canon_apply_of_pieces (Cert.Cutout.OutBlk (i 1) x1 x2 (Cert.Cutout.hiOf x0) (Cert.Cutout.loOf x0)) _ ?_ y
    (cover0_A_3 c i arg2 harg2 arg3 harg3 arg4 harg4 arg5 harg5 arg6 harg6 arg7 harg7 arg8 harg8 hc0 x0 x1 x2 y)
  have h6 := canon_scratch0 c i arg2 harg2 arg3 harg3 arg4 harg4 arg5 harg5 arg6 harg6 arg7 harg7 arg8 harg8 hc0 x0 x1 x2
  have h7 := canon_scratch1 c i arg2 harg2 arg3 harg3 arg4 harg4 arg5 harg5 arg6 harg6 arg7 harg7 arg8 harg8 hc0 x0 x1 x2
  revert h6 h7
  unfold kernelRun0_A
  dsimp only
  sl_unfold_words
  intro h6 h7
  simp only [View.readAt_eq_ld, harg2.read_unread] at h6 h7
  simp only [View.readAt_eq_ld, harg2.read_unread, harg3.read_unread, harg4.read_unread, View.readCov_eq_canon', h6, h7,
    pay13_eq, pay14_eq, pay24_eq, pay25_eq, pay35_eq, pay36_eq, pay15_eq, pay16_eq, pay17_eq, pay18_eq, pay20_eq, pay26_eq, pay27_eq, pay29_eq, pay37_eq, pay21_eq, pay22_eq, pay23_eq, pay30_eq, pay31_eq, pay32_eq, pay33_eq, pay34_eq, pay38_eq, pay39_eq, pay40_eq, pay41_eq, pay42_eq, pay43_eq, pay44_eq, pay45_eq, pay49_eq, pay54_eq, pay59_eq, pay46_eq, pay47_eq, pay48_eq, pay51_eq, pay52_eq, pay53_eq, pay55_eq, pay57_eq, pay58_eq, pay60_eq, pay61_eq, pay1_eq]
  rw [canon_eq_fun (Stack (i 1) x1 (Cert.Cutout.hiOf x0) (Cert.Cutout.loOf x0))]
  rotate_left
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 1 (by decide) (Cert.Cutout.loOf x0) (if_neg (by decide))
        (by intro h w; exact slab_read (Cert.Cutout.loOf x0) (2 : Fin 3) _ (by rfl) inb_S3x512x512_S1x512x512_2_0_0 0 h w)
        (3 : Fin 4) 672 (by rfl) slices_S896x512_o672_0_S224x512 _ (by rfl) inb_S5376x512_S224x512_5152_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 0 (by decide) (Cert.Cutout.hiOf x0) (if_pos rfl)
        (by intro h w; exact slab_read (Cert.Cutout.hiOf x0) (2 : Fin 3) _ (by rfl) inb_S3x512x512_S1x512x512_2_0_0 0 h w)
        (3 : Fin 4) 672 (by rfl) slices_S896x512_o672_0_S224x512 _ (by rfl) inb_S5376x512_S224x512_4928_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 1 (by decide) (Cert.Cutout.loOf x0) (if_neg (by decide))
        (by intro h w; exact slab_read (Cert.Cutout.loOf x0) (2 : Fin 3) _ (by rfl) inb_S3x512x512_S1x512x512_2_0_0 0 h w)
        (2 : Fin 4) 448 (by rfl) slices_S896x512_o448_0_S224x512 _ (by rfl) inb_S5376x512_S224x512_3808_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 0 (by decide) (Cert.Cutout.hiOf x0) (if_pos rfl)
        (by intro h w; exact slab_read (Cert.Cutout.hiOf x0) (2 : Fin 3) _ (by rfl) inb_S3x512x512_S1x512x512_2_0_0 0 h w)
        (2 : Fin 4) 448 (by rfl) slices_S896x512_o448_0_S224x512 _ (by rfl) inb_S5376x512_S224x512_3584_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 1 (by decide) (Cert.Cutout.loOf x0) (if_neg (by decide))
        (by intro h w; exact slab_read (Cert.Cutout.loOf x0) (2 : Fin 3) _ (by rfl) inb_S3x512x512_S1x512x512_2_0_0 0 h w)
        (1 : Fin 4) 224 (by rfl) slices_S896x512_o224_0_S224x512 _ (by rfl) inb_S5376x512_S224x512_2464_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 0 (by decide) (Cert.Cutout.hiOf x0) (if_pos rfl)
        (by intro h w; exact slab_read (Cert.Cutout.hiOf x0) (2 : Fin 3) _ (by rfl) inb_S3x512x512_S1x512x512_2_0_0 0 h w)
        (1 : Fin 4) 224 (by rfl) slices_S896x512_o224_0_S224x512 _ (by rfl) inb_S5376x512_S224x512_2240_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 1 (by decide) (Cert.Cutout.loOf x0) (if_neg (by decide))
        (by intro h w; exact slab_read (Cert.Cutout.loOf x0) (2 : Fin 3) _ (by rfl) inb_S3x512x512_S1x512x512_2_0_0 0 h w)
        (0 : Fin 4) 0 (by rfl) slices_S896x512_o0_0_S224x512 _ (by rfl) inb_S5376x512_S224x512_1120_0 x
    · intro x
      exact stack_piece (i 1) x1 (Cert.Cutout.hiOf x0) (Cert.Cutout.loOf x0) _
        (by intro m h; exact ry_read x1 (i 1) _ (by exact word_group _ hg) (by rfl) (by rfl) _ m h)
        _ (2 : Fin 3) 0 (by decide) (Cert.Cutout.hiOf x0) (if_pos rfl)
        (by intro h w; exact slab_read (Cert.Cutout.hiOf x0) (2 : Fin 3) _ (by rfl) inb_S3x512x512_S1x512x512_2_0_0 0 h w)
        (0 : Fin 4) 0 (by rfl) slices_S896x512_o0_0_S224x512 _ (by rfl) inb_S5376x512_S224x512_896_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 1 (by decide) (Cert.Cutout.loOf x0) (if_neg (by decide))
        (by intro h w; exact slab_read (Cert.Cutout.loOf x0) (1 : Fin 3) _ (by rfl) inb_S3x512x512_S1x512x512_1_0_0 0 h w)
        (3 : Fin 4) 672 (by rfl) slices_S896x512_o672_0_S224x512 _ (by rfl) inb_S5376x512_S224x512_4704_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 0 (by decide) (Cert.Cutout.hiOf x0) (if_pos rfl)
        (by intro h w; exact slab_read (Cert.Cutout.hiOf x0) (1 : Fin 3) _ (by rfl) inb_S3x512x512_S1x512x512_1_0_0 0 h w)
        (3 : Fin 4) 672 (by rfl) slices_S896x512_o672_0_S224x512 _ (by rfl) inb_S5376x512_S224x512_4480_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 1 (by decide) (Cert.Cutout.loOf x0) (if_neg (by decide))
        (by intro h w; exact slab_read (Cert.Cutout.loOf x0) (1 : Fin 3) _ (by rfl) inb_S3x512x512_S1x512x512_1_0_0 0 h w)
        (2 : Fin 4) 448 (by rfl) slices_S896x512_o448_0_S224x512 _ (by rfl) inb_S5376x512_S224x512_3360_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 0 (by decide) (Cert.Cutout.hiOf x0) (if_pos rfl)
        (by intro h w; exact slab_read (Cert.Cutout.hiOf x0) (1 : Fin 3) _ (by rfl) inb_S3x512x512_S1x512x512_1_0_0 0 h w)
        (2 : Fin 4) 448 (by rfl) slices_S896x512_o448_0_S224x512 _ (by rfl) inb_S5376x512_S224x512_3136_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 1 (by decide) (Cert.Cutout.loOf x0) (if_neg (by decide))
        (by intro h w; exact slab_read (Cert.Cutout.loOf x0) (1 : Fin 3) _ (by rfl) inb_S3x512x512_S1x512x512_1_0_0 0 h w)
        (1 : Fin 4) 224 (by rfl) slices_S896x512_o224_0_S224x512 _ (by rfl) inb_S5376x512_S224x512_2016_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 0 (by decide) (Cert.Cutout.hiOf x0) (if_pos rfl)
        (by intro h w; exact slab_read (Cert.Cutout.hiOf x0) (1 : Fin 3) _ (by rfl) inb_S3x512x512_S1x512x512_1_0_0 0 h w)
        (1 : Fin 4) 224 (by rfl) slices_S896x512_o224_0_S224x512 _ (by rfl) inb_S5376x512_S224x512_1792_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 1 (by decide) (Cert.Cutout.loOf x0) (if_neg (by decide))
        (by intro h w; exact slab_read (Cert.Cutout.loOf x0) (1 : Fin 3) _ (by rfl) inb_S3x512x512_S1x512x512_1_0_0 0 h w)
        (0 : Fin 4) 0 (by rfl) slices_S896x512_o0_0_S224x512 _ (by rfl) inb_S5376x512_S224x512_672_0 x
    · intro x
      exact stack_piece (i 1) x1 (Cert.Cutout.hiOf x0) (Cert.Cutout.loOf x0) _
        (by intro m h; exact ry_read x1 (i 1) _ (by exact word_group _ hg) (by rfl) (by rfl) _ m h)
        _ (1 : Fin 3) 0 (by decide) (Cert.Cutout.hiOf x0) (if_pos rfl)
        (by intro h w; exact slab_read (Cert.Cutout.hiOf x0) (1 : Fin 3) _ (by rfl) inb_S3x512x512_S1x512x512_1_0_0 0 h w)
        (0 : Fin 4) 0 (by rfl) slices_S896x512_o0_0_S224x512 _ (by rfl) inb_S5376x512_S224x512_448_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 1 (by decide) (Cert.Cutout.loOf x0) (if_neg (by decide))
        (by intro h w; exact slab_read (Cert.Cutout.loOf x0) (0 : Fin 3) _ (by rfl) inb_S3x512x512_S1x512x512_0_0_0 0 h w)
        (3 : Fin 4) 672 (by rfl) slices_S896x512_o672_0_S224x512 _ (by rfl) inb_S5376x512_S224x512_4256_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 0 (by decide) (Cert.Cutout.hiOf x0) (if_pos rfl)
        (by intro h w; exact slab_read (Cert.Cutout.hiOf x0) (0 : Fin 3) _ (by rfl) inb_S3x512x512_S1x512x512_0_0_0 0 h w)
        (3 : Fin 4) 672 (by rfl) slices_S896x512_o672_0_S224x512 _ (by rfl) inb_S5376x512_S224x512_4032_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 1 (by decide) (Cert.Cutout.loOf x0) (if_neg (by decide))
        (by intro h w; exact slab_read (Cert.Cutout.loOf x0) (0 : Fin 3) _ (by rfl) inb_S3x512x512_S1x512x512_0_0_0 0 h w)
        (2 : Fin 4) 448 (by rfl) slices_S896x512_o448_0_S224x512 _ (by rfl) inb_S5376x512_S224x512_2912_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 0 (by decide) (Cert.Cutout.hiOf x0) (if_pos rfl)
        (by intro h w; exact slab_read (Cert.Cutout.hiOf x0) (0 : Fin 3) _ (by rfl) inb_S3x512x512_S1x512x512_0_0_0 0 h w)
        (2 : Fin 4) 448 (by rfl) slices_S896x512_o448_0_S224x512 _ (by rfl) inb_S5376x512_S224x512_2688_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 1 (by decide) (Cert.Cutout.loOf x0) (if_neg (by decide))
        (by intro h w; exact slab_read (Cert.Cutout.loOf x0) (0 : Fin 3) _ (by rfl) inb_S3x512x512_S1x512x512_0_0_0 0 h w)
        (1 : Fin 4) 224 (by rfl) slices_S896x512_o224_0_S224x512 _ (by rfl) inb_S5376x512_S224x512_1568_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 0 (by decide) (Cert.Cutout.hiOf x0) (if_pos rfl)
        (by intro h w; exact slab_read (Cert.Cutout.hiOf x0) (0 : Fin 3) _ (by rfl) inb_S3x512x512_S1x512x512_0_0_0 0 h w)
        (1 : Fin 4) 224 (by rfl) slices_S896x512_o224_0_S224x512 _ (by rfl) inb_S5376x512_S224x512_1344_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 1 (by decide) (Cert.Cutout.loOf x0) (if_neg (by decide))
        (by intro h w; exact slab_read (Cert.Cutout.loOf x0) (0 : Fin 3) _ (by rfl) inb_S3x512x512_S1x512x512_0_0_0 0 h w)
        (0 : Fin 4) 0 (by rfl) slices_S896x512_o0_0_S224x512 _ (by rfl) inb_S5376x512_S224x512_224_0 x
    · intro x
      exact stack_piece (i 1) x1 (Cert.Cutout.hiOf x0) (Cert.Cutout.loOf x0) _
        (by intro m h; exact ry_read x1 (i 1) _ (by exact word_group _ hg) (by rfl) (by rfl) _ m h)
        _ (0 : Fin 3) 0 (by decide) (Cert.Cutout.hiOf x0) (if_pos rfl)
        (by intro h w; exact slab_read (Cert.Cutout.hiOf x0) (0 : Fin 3) _ (by rfl) inb_S3x512x512_S1x512x512_0_0_0 0 h w)
        (0 : Fin 4) 0 (by rfl) slices_S896x512_o0_0_S224x512 _ (by rfl) inb_S5376x512_S224x512_0_0 x
  · exact View.cover_of_tiledL _ S224x512.size (by sl_kernel_rfl)
  intro p hp
  simp only [List.mem_cons, List.not_mem_nil, or_false] at hp
  rcases hp with rfl | rfl | rfl | rfl | rfl | rfl | rfl | rfl | rfl | rfl | rfl | rfl
  · intro x
    exact out_piece (i 1) x1 x2 (Cert.Cutout.hiOf x0) (Cert.Cutout.loOf x0) (3 : Fin 4) (2 : Fin 3) _
      (by intro m w R hR; exact congrArg (Stack (i 1) x1 (Cert.Cutout.hiOf x0) (Cert.Cutout.loOf x0))
            (slab_idx (3 : Fin 4) _ (by rfl) inb_S5376x512_S1344x512_4032_0 m w R hR))
      _ (by intro w q; exact rx_read x2 (i 1) (3 : Fin 4) _ (by exact word_cutout _ hg _ (by decide)) (by rfl) (by rfl) _ 0 w q)
      896 1120 (by rfl) (by rfl) slices_S1344x224_o896_0_S224x224 slices_S1344x224_o1120_0_S224x224
      _ (by rfl) inb_S4x1x3x224x224_S1x1x1x224x224_3_0_2_0_0 x
  · intro x
    exact out_piece (i 1) x1 x2 (Cert.Cutout.hiOf x0) (Cert.Cutout.loOf x0) (3 : Fin 4) (1 : Fin 3) _
      (by intro m w R hR; exact congrArg (Stack (i 1) x1 (Cert.Cutout.hiOf x0) (Cert.Cutout.loOf x0))
            (slab_idx (3 : Fin 4) _ (by rfl) inb_S5376x512_S1344x512_4032_0 m w R hR))
      _ (by intro w q; exact rx_read x2 (i 1) (3 : Fin 4) _ (by exact word_cutout _ hg _ (by decide)) (by rfl) (by rfl) _ 0 w q)
      448 672 (by rfl) (by rfl) slices_S1344x224_o448_0_S224x224 slices_S1344x224_o672_0_S224x224
      _ (by rfl) inb_S4x1x3x224x224_S1x1x1x224x224_3_0_1_0_0 x
  · intro x
    exact out_piece (i 1) x1 x2 (Cert.Cutout.hiOf x0) (Cert.Cutout.loOf x0) (3 : Fin 4) (0 : Fin 3) _
      (by intro m w R hR; exact congrArg (Stack (i 1) x1 (Cert.Cutout.hiOf x0) (Cert.Cutout.loOf x0))
            (slab_idx (3 : Fin 4) _ (by rfl) inb_S5376x512_S1344x512_4032_0 m w R hR))
      _ (by intro w q; exact rx_read x2 (i 1) (3 : Fin 4) _ (by exact word_cutout _ hg _ (by decide)) (by rfl) (by rfl) _ 0 w q)
      0 224 (by rfl) (by rfl) slices_S1344x224_o0_0_S224x224 slices_S1344x224_o224_0_S224x224
      _ (by rfl) inb_S4x1x3x224x224_S1x1x1x224x224_3_0_0_0_0 x
  · intro x
    exact out_piece (i 1) x1 x2 (Cert.Cutout.hiOf x0) (Cert.Cutout.loOf x0) (2 : Fin 4) (2 : Fin 3) _
      (by intro m w R hR; exact congrArg (Stack (i 1) x1 (Cert.Cutout.hiOf x0) (Cert.Cutout.loOf x0))
            (slab_idx (2 : Fin 4) _ (by rfl) inb_S5376x512_S1344x512_2688_0 m w R hR))
      _ (by intro w q; exact rx_read x2 (i 1) (2 : Fin 4) _ (by exact word_cutout _ hg _ (by decide)) (by rfl) (by rfl) _ 0 w q)
      896 1120 (by rfl) (by rfl) slices_S1344x224_o896_0_S224x224 slices_S1344x224_o1120_0_S224x224
      _ (by rfl) inb_S4x1x3x224x224_S1x1x1x224x224_2_0_2_0_0 x
  · intro x
    exact out_piece (i 1) x1 x2 (Cert.Cutout.hiOf x0) (Cert.Cutout.loOf x0) (2 : Fin 4) (1 : Fin 3) _
      (by intro m w R hR; exact congrArg (Stack (i 1) x1 (Cert.Cutout.hiOf x0) (Cert.Cutout.loOf x0))
            (slab_idx (2 : Fin 4) _ (by rfl) inb_S5376x512_S1344x512_2688_0 m w R hR))
      _ (by intro w q; exact rx_read x2 (i 1) (2 : Fin 4) _ (by exact word_cutout _ hg _ (by decide)) (by rfl) (by rfl) _ 0 w q)
      448 672 (by rfl) (by rfl) slices_S1344x224_o448_0_S224x224 slices_S1344x224_o672_0_S224x224
      _ (by rfl) inb_S4x1x3x224x224_S1x1x1x224x224_2_0_1_0_0 x
  · intro x
    exact out_piece (i 1) x1 x2 (Cert.Cutout.hiOf x0) (Cert.Cutout.loOf x0) (2 : Fin 4) (0 : Fin 3) _
      (by intro m w R hR; exact congrArg (Stack (i 1) x1 (Cert.Cutout.hiOf x0) (Cert.Cutout.loOf x0))
            (slab_idx (2 : Fin 4) _ (by rfl) inb_S5376x512_S1344x512_2688_0 m w R hR))
      _ (by intro w q; exact rx_read x2 (i 1) (2 : Fin 4) _ (by exact word_cutout _ hg _ (by decide)) (by rfl) (by rfl) _ 0 w q)
      0 224 (by rfl) (by rfl) slices_S1344x224_o0_0_S224x224 slices_S1344x224_o224_0_S224x224
      _ (by rfl) inb_S4x1x3x224x224_S1x1x1x224x224_2_0_0_0_0 x
  · intro x
    exact out_piece (i 1) x1 x2 (Cert.Cutout.hiOf x0) (Cert.Cutout.loOf x0) (1 : Fin 4) (2 : Fin 3) _
      (by intro m w R hR; exact congrArg (Stack (i 1) x1 (Cert.Cutout.hiOf x0) (Cert.Cutout.loOf x0))
            (slab_idx (1 : Fin 4) _ (by rfl) inb_S5376x512_S1344x512_1344_0 m w R hR))
      _ (by intro w q; exact rx_read x2 (i 1) (1 : Fin 4) _ (by exact word_cutout _ hg _ (by decide)) (by rfl) (by rfl) _ 0 w q)
      896 1120 (by rfl) (by rfl) slices_S1344x224_o896_0_S224x224 slices_S1344x224_o1120_0_S224x224
      _ (by rfl) inb_S4x1x3x224x224_S1x1x1x224x224_1_0_2_0_0 x
  · intro x
    exact out_piece (i 1) x1 x2 (Cert.Cutout.hiOf x0) (Cert.Cutout.loOf x0) (1 : Fin 4) (1 : Fin 3) _
      (by intro m w R hR; exact congrArg (Stack (i 1) x1 (Cert.Cutout.hiOf x0) (Cert.Cutout.loOf x0))
            (slab_idx (1 : Fin 4) _ (by rfl) inb_S5376x512_S1344x512_1344_0 m w R hR))
      _ (by intro w q; exact rx_read x2 (i 1) (1 : Fin 4) _ (by exact word_cutout _ hg _ (by decide)) (by rfl) (by rfl) _ 0 w q)
      448 672 (by rfl) (by rfl) slices_S1344x224_o448_0_S224x224 slices_S1344x224_o672_0_S224x224
      _ (by rfl) inb_S4x1x3x224x224_S1x1x1x224x224_1_0_1_0_0 x
  · intro x
    exact out_piece (i 1) x1 x2 (Cert.Cutout.hiOf x0) (Cert.Cutout.loOf x0) (1 : Fin 4) (0 : Fin 3) _
      (by intro m w R hR; exact congrArg (Stack (i 1) x1 (Cert.Cutout.hiOf x0) (Cert.Cutout.loOf x0))
            (slab_idx (1 : Fin 4) _ (by rfl) inb_S5376x512_S1344x512_1344_0 m w R hR))
      _ (by intro w q; exact rx_read x2 (i 1) (1 : Fin 4) _ (by exact word_cutout _ hg _ (by decide)) (by rfl) (by rfl) _ 0 w q)
      0 224 (by rfl) (by rfl) slices_S1344x224_o0_0_S224x224 slices_S1344x224_o224_0_S224x224
      _ (by rfl) inb_S4x1x3x224x224_S1x1x1x224x224_1_0_0_0_0 x
  · intro x
    exact out_piece (i 1) x1 x2 (Cert.Cutout.hiOf x0) (Cert.Cutout.loOf x0) (0 : Fin 4) (2 : Fin 3) _
      (by intro m w R hR; exact congrArg (Stack (i 1) x1 (Cert.Cutout.hiOf x0) (Cert.Cutout.loOf x0))
            (slab_idx (0 : Fin 4) _ (by rfl) inb_S5376x512_S1344x512_0_0 m w R hR))
      _ (by intro w q; exact rx_read x2 (i 1) (0 : Fin 4) _ (by exact word_cutout _ hg _ (by decide)) (by rfl) (by rfl) _ 0 w q)
      896 1120 (by rfl) (by rfl) slices_S1344x224_o896_0_S224x224 slices_S1344x224_o1120_0_S224x224
      _ (by rfl) inb_S4x1x3x224x224_S1x1x1x224x224_0_0_2_0_0 x
  · intro x
    exact out_piece (i 1) x1 x2 (Cert.Cutout.hiOf x0) (Cert.Cutout.loOf x0) (0 : Fin 4) (1 : Fin 3) _
      (by intro m w R hR; exact congrArg (Stack (i 1) x1 (Cert.Cutout.hiOf x0) (Cert.Cutout.loOf x0))
            (slab_idx (0 : Fin 4) _ (by rfl) inb_S5376x512_S1344x512_0_0 m w R hR))
      _ (by intro w q; exact rx_read x2 (i 1) (0 : Fin 4) _ (by exact word_cutout _ hg _ (by decide)) (by rfl) (by rfl) _ 0 w q)
      448 672 (by rfl) (by rfl) slices_S1344x224_o448_0_S224x224 slices_S1344x224_o672_0_S224x224
      _ (by rfl) inb_S4x1x3x224x224_S1x1x1x224x224_0_0_1_0_0 x
  · intro x
    exact out_piece (i 1) x1 x2 (Cert.Cutout.hiOf x0) (Cert.Cutout.loOf x0) (0 : Fin 4) (0 : Fin 3) _
      (by intro m w R hR; exact congrArg (Stack (i 1) x1 (Cert.Cutout.hiOf x0) (Cert.Cutout.loOf x0))
            (slab_idx (0 : Fin 4) _ (by rfl) inb_S5376x512_S1344x512_0_0 m w R hR))
      _ (by intro w q; exact rx_read x2 (i 1) (0 : Fin 4) _ (by exact word_cutout _ hg _ (by decide)) (by rfl) (by rfl) _ 0 w q)
      0 224 (by rfl) (by rfl) slices_S1344x224_o0_0_S224x224 slices_S1344x224_o224_0_S224x224
      _ (by rfl) inb_S4x1x3x224x224_S1x1x1x224x224_0_0_0_0_0 x

end Cert.KernelIdeal.Gen
end
-- ==== Proof.KBodyB.lean ====
/-
  The kernel body at a grid point whose group coordinate is not 0, at the ideal instance, as one explicit function
  of the blocks it is handed.

  At such a point the two carried parts of the image (`xs0` high, `xs1` low: [3, 512, 512] each) hold what an
  earlier point left, and the body only computes.  With `g` the group coordinate:

    stage 1  for each channel `ch` and each part `k`, the group's row selector [896, 512] times channel `ch` of
             part `k` [512, 512]; the 224 rows belonging to cutout `gi` of the group are stored in the stack buffer
             [5376, 512] at rows `gi * 1344 + ch * 448 + k * 224 ..` — 24 slabs that tile the buffer, so the buffer
             is ONE function of its index (`stackAt`);
    stage 2  for each cutout `gi`, rows `gi * 1344 .. + 1344` of the stack times the cutout's column selector
             [512, 224]; output tile `(gi, 0, ch)` is rows `ch * 448 ..` (high) plus rows `ch * 448 + 224 ..` (low)
             of that product.

  Over the extended reals a change of format is the identity and a product into the zero block is the plain sum
  over the contracted index, so tile `(gi, 0, ch)` at `(p, q)` is
  `Σ_w (Σ_h ry[g, gi·224+p, h] · xs0[ch, h, w]) · rx[4g+gi, w, q] + Σ_w (Σ_h ry[g, gi·224+p, h] · xs1[ch, h, w]) · rx[4g+gi, w, q]`,
  which is `Cert.Cutout.OutBlk`.  The 12 output tiles tile the output block, so the block is that function.
-/
import proofs.«424226_j75823352644348_3_alg».proof.Proof.Gen.KernelIdeal.Frame
import proofs.«424226_j75823352644348_3_alg».proof.Proof.Spec
import Idealize.ShloMosaic.Lib.ValueIdx
import Idealize.ShloMosaic.Lib.ValueLayout
import Idealize.ShloMosaic.Lib.Pipeline.Value
import Idealize.ShloMosaic.PureOps.Ideal.Laws

-- membership of an index in a rectangle of these extents recurses once per coordinate of the long axes
set_option maxRecDepth 16384

noncomputable section

namespace Cert.KernelIdeal.Gen

open Idealize.ShloMosaic Idealize.ShloMosaic.TcCoe Idealize.ShloMosaic.Tactic Idealize.SL.Sem
open Idealize.ShloMosaic.ValueIdx
open Cert.Cutout (SRy SRx SS SOb OutBlk selRow cutOf)

namespace KBodyB

/-! ## A product into a zero accumulator, read at an index

At the ideal instance a matrix product into the zero block is, at output index `(r, c)`, the plain sum over the
contracted index of the operands' products.  The four coordinate facts of each product record are stated once,
at the literal axes. -/

theorem lhs_rowsel_0 (j : S896x512.Idx) (q : dot_S896x512_S512x512_S896x512_1_0_0_1_n_n.contr.Idx) :
    (dot_S896x512_S512x512_S896x512_1_0_0_1_n_n.lhsIdx j q 0).val = (j 0).val := by
  unfold DotDims.lhsIdx
  rw [dif_neg (show ¬(0 : Fin S896x512.rank) ∈ dot_S896x512_S512x512_S896x512_1_0_0_1_n_n.lhsBatch by decide),
    dif_pos (show (0 : Fin S896x512.rank) ∈ dot_S896x512_S512x512_S896x512_1_0_0_1_n_n.lhsNonContracting by decide)]
  rfl

theorem lhs_rowsel_1 (j : S896x512.Idx) (q : dot_S896x512_S512x512_S896x512_1_0_0_1_n_n.contr.Idx) :
    (dot_S896x512_S512x512_S896x512_1_0_0_1_n_n.lhsIdx j q 1).val = (q ⟨0, by decide⟩).val :=
  dot_S896x512_S512x512_S896x512_1_0_0_1_n_n.lhsIdx_val_of_single rfl j q

theorem rhs_rowsel_0 (j : S896x512.Idx) (q : dot_S896x512_S512x512_S896x512_1_0_0_1_n_n.contr.Idx) :
    (dot_S896x512_S512x512_S896x512_1_0_0_1_n_n.rhsIdx j q 0).val = (q ⟨0, by decide⟩).val :=
  dot_S896x512_S512x512_S896x512_1_0_0_1_n_n.rhsIdx_val_of_single rfl j q

theorem rhs_rowsel_1 (j : S896x512.Idx) (q : dot_S896x512_S512x512_S896x512_1_0_0_1_n_n.contr.Idx) :
    (dot_S896x512_S512x512_S896x512_1_0_0_1_n_n.rhsIdx j q 1).val = (j 1).val := by
  unfold DotDims.rhsIdx
  rw [dif_neg (show ¬(1 : Fin S512x512.rank) ∈ dot_S896x512_S512x512_S896x512_1_0_0_1_n_n.rhsBatch by decide),
    dif_pos (show (1 : Fin S512x512.rank) ∈ dot_S896x512_S512x512_S896x512_1_0_0_1_n_n.rhsNonContracting by decide)]
  rfl

/-- Stage 1's product: rows of the selector against one channel of a part of the image. -/
theorem rowsel_apply (A : FVec Ideal S896x512 .bf16) (B : FVec Ideal S512x512 .bf16) (r : Fin 896) (w : Fin 512) :
    matmul dot_S896x512_S512x512_S896x512_1_0_0_1_n_n none A B (constant S896x512 .f32 0x00000000#32) (ix2 r w)
      = ∑ h : Fin 512, A (ix2 r h) * B (ix2 h w) := by
  simp only [matmul]
  rw [Ideal.matmul_constant_zero_apply,
    ← Equiv.sum_comp (contrEquiv1 dot_S896x512_S512x512_S896x512_1_0_0_1_n_n 512 rfl rfl).symm]
  refine Finset.sum_congr rfl fun k _ => ?_
  have hk := contrEquiv1_symm_val dot_S896x512_S512x512_S896x512_1_0_0_1_n_n 512 rfl rfl k
  have el : dot_S896x512_S512x512_S896x512_1_0_0_1_n_n.lhsIdx (ix2 r w)
      ((contrEquiv1 dot_S896x512_S512x512_S896x512_1_0_0_1_n_n 512 rfl rfl).symm k) = ix2 r k :=
    funext fun a => Fin.ext (by
      match a with
      | ⟨0, _⟩ => exact lhs_rowsel_0 _ _
      | ⟨1, _⟩ => exact (lhs_rowsel_1 _ _).trans hk)
  have er : dot_S896x512_S512x512_S896x512_1_0_0_1_n_n.rhsIdx (ix2 r w)
      ((contrEquiv1 dot_S896x512_S512x512_S896x512_1_0_0_1_n_n 512 rfl rfl).symm k) = ix2 k w :=
    funext fun a => Fin.ext (by
      match a with
      | ⟨0, _⟩ => exact (rhs_rowsel_0 _ _).trans hk
      | ⟨1, _⟩ => exact rhs_rowsel_1 _ _)
  rw [el, er]

theorem lhs_colsel_0 (j : S1344x224.Idx) (q : dot_S1344x512_S512x224_S1344x224_1_0_0_1_n_n.contr.Idx) :
    (dot_S1344x512_S512x224_S1344x224_1_0_0_1_n_n.lhsIdx j q 0).val = (j 0).val := by
  unfold DotDims.lhsIdx
  rw [dif_neg (show ¬(0 : Fin S1344x512.rank) ∈ dot_S1344x512_S512x224_S1344x224_1_0_0_1_n_n.lhsBatch by decide),
    dif_pos (show (0 : Fin S1344x512.rank) ∈ dot_S1344x512_S512x224_S1344x224_1_0_0_1_n_n.lhsNonContracting by decide)]
  rfl

theorem lhs_colsel_1 (j : S1344x224.Idx) (q : dot_S1344x512_S512x224_S1344x224_1_0_0_1_n_n.contr.Idx) :
    (dot_S1344x512_S512x224_S1344x224_1_0_0_1_n_n.lhsIdx j q 1).val = (q ⟨0, by decide⟩).val :=
  dot_S1344x512_S512x224_S1344x224_1_0_0_1_n_n.lhsIdx_val_of_single rfl j q

theorem rhs_colsel_0 (j : S1344x224.Idx) (q : dot_S1344x512_S512x224_S1344x224_1_0_0_1_n_n.contr.Idx) :
    (dot_S1344x512_S512x224_S1344x224_1_0_0_1_n_n.rhsIdx j q 0).val = (q ⟨0, by decide⟩).val :=
  dot_S1344x512_S512x224_S1344x224_1_0_0_1_n_n.rhsIdx_val_of_single rfl j q

theorem rhs_colsel_1 (j : S1344x224.Idx) (q : dot_S1344x512_S512x224_S1344x224_1_0_0_1_n_n.contr.Idx) :
    (dot_S1344x512_S512x224_S1344x224_1_0_0_1_n_n.rhsIdx j q 1).val = (j 1).val := by
  unfold DotDims.rhsIdx
  rw [dif_neg (show ¬(1 : Fin S512x224.rank) ∈ dot_S1344x512_S512x224_S1344x224_1_0_0_1_n_n.rhsBatch by decide),
    dif_pos (show (1 : Fin S512x224.rank) ∈ dot_S1344x512_S512x224_S1344x224_1_0_0_1_n_n.rhsNonContracting by decide)]
  rfl

/-- Stage 2's product: the stacked rows against one cutout's column selector. -/
theorem colsel_apply (A : FVec Ideal S1344x512 .bf16) (B : FVec Ideal S512x224 .bf16) (r : Fin 1344) (q : Fin 224) :
    matmul dot_S1344x512_S512x224_S1344x224_1_0_0_1_n_n none A B (constant S1344x224 .f32 0x00000000#32) (ix2 r q)
      = ∑ w : Fin 512, A (ix2 r w) * B (ix2 w q) := by
  simp only [matmul]
  rw [Ideal.matmul_constant_zero_apply,
    ← Equiv.sum_comp (contrEquiv1 dot_S1344x512_S512x224_S1344x224_1_0_0_1_n_n 512 rfl rfl).symm]
  refine Finset.sum_congr rfl fun k _ => ?_
  have hk := contrEquiv1_symm_val dot_S1344x512_S512x224_S1344x224_1_0_0_1_n_n 512 rfl rfl k
  have el : dot_S1344x512_S512x224_S1344x224_1_0_0_1_n_n.lhsIdx (ix2 r q)
      ((contrEquiv1 dot_S1344x512_S512x224_S1344x224_1_0_0_1_n_n 512 rfl rfl).symm k) = ix2 r k :=
    funext fun a => Fin.ext (by
      match a with
      | ⟨0, _⟩ => exact lhs_colsel_0 _ _
      | ⟨1, _⟩ => exact (lhs_colsel_1 _ _).trans hk)
  have er : dot_S1344x512_S512x224_S1344x224_1_0_0_1_n_n.rhsIdx (ix2 r q)
      ((contrEquiv1 dot_S1344x512_S512x224_S1344x224_1_0_0_1_n_n 512 rfl rfl).symm k) = ix2 k q :=
    funext fun a => Fin.ext (by
      match a with
      | ⟨0, _⟩ => exact (rhs_colsel_0 _ _).trans hk
      | ⟨1, _⟩ => exact rhs_colsel_1 _ _)
  rw [el, er]

/-! ## Stage 1: the rows the selector picks, stacked

`rowProd g ry xs ch r w` is entry `(r, w)` of the group's row selector times channel `ch` of a part `xs` of the
image.  The stack buffer holds, for cutout `gi` of the group, channel `ch` and part `k` (`0` the high part,
`1` the low part), the 224 rows `gi * 224 + a` of that product at rows `gi * 1344 + ch * 448 + k * 224 + a`. -/

/-- Entry `(r, w)` of (group `g`'s row selector) x (channel `ch` of `xs`). -/
def rowProd (g : Fin 8) (ry : SRy.Idx → EReal) (xs : SS.Idx → EReal) (ch : Fin 3) (r : Fin 896) (w : Fin 512) : EReal :=
  ∑ h : Fin 512, ry (ix3 g r h) * xs (ix3 ch h w)

/-- What the stack buffer holds once stage 1 has stored its 24 slabs, as one function of the buffer's index. -/
def stackAt (g : Fin 8) (ry : SRy.Idx → EReal) (xs0 xs1 : SS.Idx → EReal) : S5376x512.Idx → EReal := fun y =>
  rowProd g ry (if (y 0).val % 448 / 224 = 0 then xs0 else xs1)
    ⟨(y 0).val % 1344 / 448, by omega⟩
    ⟨(y 0).val / 1344 * 224 + (y 0).val % 224, by have h : (y 0).val < 5376 := (y 0).isLt; omega⟩
    (y 1)

/-- The stack at row `gi * 1344 + ch * 448 + k * 224 + a`. -/
theorem stackAt_row (g : Fin 8) (ry : SRy.Idx → EReal) (xs0 xs1 : SS.Idx → EReal) (gi : Fin 4) (ch : Fin 3) (k : Fin 2)
    (a : Fin 224) (w : Fin 512) (R : Fin 5376) (hR : R.val = gi.val * 1344 + ch.val * 448 + k.val * 224 + a.val) :
    stackAt g ry xs0 xs1 (ix2 R w)
      = rowProd g ry (if k.val = 0 then xs0 else xs1) ch ⟨gi.val * 224 + a.val, by have := gi.isLt; have := a.isLt; omega⟩ w := by
  have hgi := gi.isLt; have hch := ch.isLt; have hk := k.isLt; have ha := a.isLt
  have e1 : R.val % 448 / 224 = k.val := by omega
  have e2 : R.val % 1344 / 448 = ch.val := by omega
  have e3 : R.val / 1344 * 224 + R.val % 224 = gi.val * 224 + a.val := by omega
  show rowProd g ry (if R.val % 448 / 224 = 0 then xs0 else xs1) ⟨R.val % 1344 / 448, _⟩ ⟨R.val / 1344 * 224 + R.val % 224, _⟩ w = _
  congr 1
  · rw [e1]
  · exact Fin.ext e2
  · exact Fin.ext e3

/-- One product of stage 1 as the body computes it: the selector block and one channel block, each under the cast
    that drops its leading unit axis, multiplied into the zero block and read in the narrower format. -/
theorem stage1_apply (v4 : Vec Ideal S1x896x512 .bf16) (v6 : Vec Ideal S1x512x512 .bf16) (r : Fin 896) (w : Fin 512) :
    (truncf .bf16 (matmul dot_S896x512_S512x512_S896x512_1_0_0_1_n_n none
        (shapeCast S896x512 v4 shapeCasts_S1x896x512_S896x512 : FVec Ideal S896x512 .bf16)
        (shapeCast S512x512 v6 shapeCasts_S1x512x512_S512x512 : FVec Ideal S512x512 .bf16)
        (constant S896x512 .f32 0x00000000#32)) bitsLt_bf16_f32 : FVec Ideal S896x512 .bf16) (ix2 r w)
      = ∑ h : Fin 512, v4 (ix3 (0 : Fin 1) r h) * v6 (ix3 (0 : Fin 1) h w) := by
  refine (rowsel_apply _ _ r w).trans ?_
  refine Finset.sum_congr rfl fun h _ => ?_
  rw [shapeCast_1ab_ab_apply, shapeCast_1ab_ab_apply]

/-- The selector block the body loads is group `i 1`'s rows of the row selector. -/
theorem ld_rowsel (i : grid0.Coords) (x1 : Vec Ideal S8x896x512 .bf16)
    (inb : ∀ a, (k0_off1 i) a + S1x896x512.size a ≤ S8x896x512.size a) (r : Fin 896) (h : Fin 512) :
    View.ld x1 (Rect.unit (s := S8x896x512) (k0_off1 i) S1x896x512.size inb) (ix3 (0 : Fin 1) r h) = x1 (ix3 (i 1) r h) := by
  refine congrArg x1 (funext fun a => Fin.ext ?_)
  have e := k0_off1_eq i
  match a with
  | ⟨0, _⟩ => show k0_off1 i 0 + 1 * 0 = (i 1).val; rw [e]; rfl
  | ⟨1, _⟩ => show k0_off1 i 1 + 1 * r.val = r.val; rw [e]; show 0 + 1 * r.val = r.val; omega
  | ⟨2, _⟩ => show k0_off1 i 2 + 1 * h.val = h.val; rw [e]; show 0 + 1 * h.val = h.val; omega

/-- A channel block of a part of the image is that channel of the part. -/
theorem ld_part (xs : Vec Ideal S3x512x512 .bf16) (ch : Fin 3) (off : Fin 3 → ℕ) (hoff : off = ![ch.val, 0, 0])
    (inb : ∀ a, off a + S1x512x512.size a ≤ S3x512x512.size a) (h w : Fin 512) :
    View.ld xs (Rect.unit (s := S3x512x512) off S1x512x512.size inb) (ix3 (0 : Fin 1) h w) = xs (ix3 ch h w) := by
  subst hoff
  refine congrArg xs (funext fun a => Fin.ext ?_)
  match a with
  | ⟨0, _⟩ => show ch.val + 1 * 0 = ch.val; omega
  | ⟨1, _⟩ => show 0 + 1 * h.val = h.val; omega
  | ⟨2, _⟩ => show 0 + 1 * w.val = w.val; omega

/-- One slab of the stack: rows `gi * 224 ..` of the product of the selector block with channel `ch` of part `k`,
    stored at rows `gi * 1344 + ch * 448 + k * 224 ..`, is the stack function on its rectangle. -/
theorem stack_piece (i : grid0.Coords) (x1 : Vec Ideal S8x896x512 .bf16) (xs0 xs1 : Vec Ideal S3x512x512 .bf16)
    (gi : Fin 4) (ch : Fin 3) (k : Fin 2) (xs : Vec Ideal S3x512x512 .bf16) (hxs : xs = if k.val = 0 then xs0 else xs1)
    (o : ℕ) (ho : o = gi.val * 1344 + ch.val * 448 + k.val * 224)
    (inb : ∀ a, (![o, 0] : Fin 2 → ℕ) a + S224x512.size a ≤ S5376x512.size a)
    (s : ℕ) (hs : s = gi.val * 224) (hsl : S896x512.Slices ![s, 0] S224x512)
    (inb1 : ∀ a, (k0_off1 i) a + S1x896x512.size a ≤ S8x896x512.size a)
    (off : Fin 3 → ℕ) (hoff : off = ![ch.val, 0, 0]) (inbc : ∀ a, off a + S1x512x512.size a ≤ S3x512x512.size a)
    (x : (Rect.unit (s := S5376x512) ![o, 0] S224x512.size inb).shape.Idx) :
    (shapeCast S224x512 (extractStridedSlice S224x512 ![s, 0]
        (truncf .bf16 (matmul dot_S896x512_S512x512_S896x512_1_0_0_1_n_n none
          (shapeCast S896x512 (View.ld x1 (Rect.unit (s := S8x896x512) (k0_off1 i) S1x896x512.size inb1))
            shapeCasts_S1x896x512_S896x512 : FVec Ideal S896x512 .bf16)
          (shapeCast S512x512 (View.ld xs (Rect.unit (s := S3x512x512) off S1x512x512.size inbc))
            shapeCasts_S1x512x512_S512x512 : FVec Ideal S512x512 .bf16)
          (constant S896x512 .f32 0x00000000#32)) bitsLt_bf16_f32 : FVec Ideal S896x512 .bf16) hsl)
        shapeCasts_S224x512_S224x512 : FVec Ideal S224x512 .bf16) x
      = stackAt (i 1) x1 xs0 xs1 ((Rect.unit (s := S5376x512) ![o, 0] S224x512.size inb).emb x) := by
  obtain ⟨a, w, rfl⟩ : ∃ (a : Fin 224) (w : Fin 512), x = ix2 a w := ⟨x 0, x 1, eq_ix2 (n0 := 224) (n1 := 512) x⟩
  have hgi := gi.isLt; have hch := ch.isLt; have hk := k.isLt; have ha := a.isLt
  have hemb : (Rect.unit (s := S5376x512) ![o, 0] S224x512.size inb).emb (ix2 a w)
      = ix2 (⟨o + a.val, by omega⟩ : Fin 5376) w := funext fun ax => Fin.ext (by
    match ax with
    | ⟨0, _⟩ => show o + 1 * a.val = o + a.val; omega
    | ⟨1, _⟩ => show 0 + 1 * w.val = w.val; omega)
  rw [hemb, stackAt_row (i 1) x1 xs0 xs1 gi ch k a w ⟨o + a.val, by omega⟩ (by show o + a.val = _; omega), ← hxs,
    shapeCast_self]
  refine (slice2_axis0_eq s _ hsl a w).trans ?_
  refine (stage1_apply _ _ _ w).trans ?_
  unfold rowProd
  refine Finset.sum_congr rfl fun h _ => ?_
  rw [ld_rowsel, ld_part xs ch off hoff]
  congr 3
  exact Fin.ext (by show s + a.val = gi.val * 224 + a.val; omega)

/-- What a load of the stack reads after the 24 slabs are stored: the stack function at the box's indices. -/
theorem stack_load (i : grid0.Coords) (x1 : Vec Ideal S8x896x512 .bf16) (xs0 xs1 : Vec Ideal S3x512x512 .bf16)
    (arg8 : Memref sig .tc .vmem S5376x512 .bf16) (L : List (View.Piece (Elt Ideal) S5376x512 .bf16))
    (hL : ∀ p ∈ L, ∀ x : p.1.shape.Idx, p.2 x = stackAt (i 1) x1 xs0 xs1 (p.1.emb x))
    (hcov : ∀ y : S5376x512.Idx, ∃ p ∈ L, y ∈ p.1.set) (B : LoadRect S5376x512) :
    arg8.view.readCov L B = fun j => stackAt (i 1) x1 xs0 xs1 (B.idx j) := by
  rw [View.readCov_eq_canon']
  funext j
  exact View.canon_apply_of_pieces (stackAt (i 1) x1 xs0 xs1) L hL _ (hcov _)

/-! ## Stage 2: the stacked rows against a cutout's column selector, high plus low -/

/-- A 224 x 224 tile read as a block of the output: entry `(·, ·, ·, p, q)` is the tile's `(p, q)`. -/
theorem tile_cast_apply (v : FVec Ideal S224x224 .f32) (u0 u1 u2 : Fin 1) (p q : Fin 224) :
    (shapeCast S1x1x1x224x224 v shapeCasts_S224x224_S1x1x1x224x224 : FVec Ideal S1x1x1x224x224 .f32) (ix5 u0 u1 u2 p q)
      = v (ix2 p q) := by
  refine shapeCast_apply v _ (ix5 u0 u1 u2 p q) (ix2 p q) ?_
  rw [Shape.rowMajor_val_two, Shape.rowMajor_val_five]
  have h0 : u0.val = 0 := by omega
  have h1 : u1.val = 0 := by omega
  have h2 : u2.val = 0 := by omega
  show p.val * 224 + q.val = (((u0.val * 1 + u1.val) * 1 + u2.val) * 224 + p.val) * 224 + q.val
  rw [h0, h1, h2]
  omega

/-- The column-selector block the body loads for cutout `gi` of the group is cutout `4 g + gi` of the column
    selector. -/
theorem ld_colsel (i : grid0.Coords) (x2 : Vec Ideal S32x512x224 .bf16) (gi : Fin 4) (off : Fin 3 → ℕ)
    (hoff : off = ![4 * (i 1).val + gi.val, 0, 0]) (inb : ∀ a, off a + S1x512x224.size a ≤ S32x512x224.size a)
    (w : Fin 512) (q : Fin 224) :
    View.ld x2 (Rect.unit (s := S32x512x224) off S1x512x224.size inb) (ix3 (0 : Fin 1) w q)
      = x2 (ix3 (cutOf (i 1) gi) w q) := by
  subst hoff
  refine congrArg x2 (funext fun a => Fin.ext ?_)
  match a with
  | ⟨0, _⟩ => show 4 * (i 1).val + gi.val + 1 * 0 = (i 1).val * 4 + gi.val; omega
  | ⟨1, _⟩ => show 0 + 1 * w.val = w.val; omega
  | ⟨2, _⟩ => show 0 + 1 * q.val = q.val; omega

/-- One output tile: for cutout `gi` of the group and channel `ch`, rows `ch * 448 ..` (high) plus rows
    `ch * 448 + 224 ..` (low) of (the stack's rows `gi * 1344 ..`) x (the cutout's column selector) is the block
    `OutBlk` on the tile's rectangle. -/
theorem out_piece (i : grid0.Coords) (x1 : Vec Ideal S8x896x512 .bf16) (x2 : Vec Ideal S32x512x224 .bf16)
    (xs0 xs1 : Vec Ideal S3x512x512 .bf16) (gi : Fin 4) (ch : Fin 3)
    (o : ℕ) (ho : o = gi.val * 1344) (inbs : ∀ a, (![o, 0] : Fin 2 → ℕ) a + S1344x512.size a ≤ S5376x512.size a)
    (slab : Vec Ideal S1344x512 .bf16)
    (hslab : slab = fun j => stackAt (i 1) x1 xs0 xs1
      ((Rect.unit (s := S5376x512) ![o, 0] S1344x512.size inbs).toLoadRect.idx j))
    (off : Fin 3 → ℕ) (hoff : off = ![4 * (i 1).val + gi.val, 0, 0])
    (inb2 : ∀ a, off a + S1x512x224.size a ≤ S32x512x224.size a)
    (a b : ℕ) (ha : a = ch.val * 448) (hb : b = ch.val * 448 + 224)
    (h1 : S1344x224.Slices ![a, 0] S224x224) (h2 : S1344x224.Slices ![b, 0] S224x224)
    (offo : Fin 5 → ℕ) (hoffo : offo = ![gi.val, 0, ch.val, 0, 0])
    (inbo : ∀ a, offo a + S1x1x1x224x224.size a ≤ S4x1x3x224x224.size a)
    (x : (Rect.unit (s := S4x1x3x224x224) offo S1x1x1x224x224.size inbo).shape.Idx) :
    (shapeCast S1x1x1x224x224
        (addf
          (extractStridedSlice S224x224 ![a, 0]
            (matmul (φ₁ := .bf16) (φ₂ := .bf16) dot_S1344x512_S512x224_S1344x224_1_0_0_1_n_n none slab
              (shapeCast S512x224 (View.ld x2 (Rect.unit (s := S32x512x224) off S1x512x224.size inb2))
                shapeCasts_S1x512x224_S512x224 : FVec Ideal S512x224 .bf16)
              (constant S1344x224 .f32 0x00000000#32) : FVec Ideal S1344x224 .f32) h1 : FVec Ideal S224x224 .f32)
          (extractStridedSlice S224x224 ![b, 0]
            (matmul (φ₁ := .bf16) (φ₂ := .bf16) dot_S1344x512_S512x224_S1344x224_1_0_0_1_n_n none slab
              (shapeCast S512x224 (View.ld x2 (Rect.unit (s := S32x512x224) off S1x512x224.size inb2))
                shapeCasts_S1x512x224_S512x224 : FVec Ideal S512x224 .bf16)
              (constant S1344x224 .f32 0x00000000#32) : FVec Ideal S1344x224 .f32) h2 : FVec Ideal S224x224 .f32))
        shapeCasts_S224x224_S1x1x1x224x224 : FVec Ideal S1x1x1x224x224 .f32) x
      = OutBlk (i 1) x1 x2 xs0 xs1 ((Rect.unit (s := S4x1x3x224x224) offo S1x1x1x224x224.size inbo).emb x) := by
  subst hoffo
  obtain ⟨u0, u1, u2, p, q, rfl⟩ : ∃ (u0 u1 u2 : Fin 1) (p q : Fin 224), x = ix5 u0 u1 u2 p q :=
    ⟨x 0, x 1, x 2, x 3, x 4, eq_ix5 (n0 := 1) (n1 := 1) (n2 := 1) (n3 := 224) (n4 := 224) x⟩
  have hgi := gi.isLt; have hch := ch.isLt; have hp := p.isLt
  have hemb : (Rect.unit (s := S4x1x3x224x224) ![gi.val, 0, ch.val, 0, 0] S1x1x1x224x224.size inbo).emb (ix5 u0 u1 u2 p q)
      = ix5 gi (0 : Fin 1) ch p q := funext fun ax => Fin.ext (by
    match ax with
    | ⟨0, _⟩ => show gi.val + 1 * u0.val = gi.val; omega
    | ⟨1, _⟩ => show 0 + 1 * u1.val = 0; omega
    | ⟨2, _⟩ => show ch.val + 1 * u2.val = ch.val; omega
    | ⟨3, _⟩ => show 0 + 1 * p.val = p.val; omega
    | ⟨4, _⟩ => show 0 + 1 * q.val = q.val; omega)
  rw [hemb, tile_cast_apply, addf_apply, slice2_axis0_eq a _ h1 p q, slice2_axis0_eq b _ h2 p q, colsel_apply, colsel_apply]
  show _
    = (∑ w : Fin 512, (∑ h : Fin 512, x1 (ix3 (i 1) (selRow gi p) h) * xs0 (ix3 ch h w)) * x2 (ix3 (cutOf (i 1) gi) w q))
      + (∑ w : Fin 512, (∑ h : Fin 512, x1 (ix3 (i 1) (selRow gi p) h) * xs1 (ix3 ch h w)) * x2 (ix3 (cutOf (i 1) gi) w q))
  have hrow : ∀ (k : Fin 2) (c : ℕ) (hc : c = ch.val * 448 + k.val * 224) (hlt : c + p.val < 1344) (w : Fin 512),
      slab (ix2 (⟨c + p.val, hlt⟩ : Fin 1344) w)
        = ∑ h : Fin 512, x1 (ix3 (i 1) (selRow gi p) h) * (if k.val = 0 then xs0 else xs1) (ix3 ch h w) := by
    intro k c hc hlt w
    have hk := k.isLt
    rw [hslab]
    have hidx : (Rect.unit (s := S5376x512) ![o, 0] S1344x512.size inbs).toLoadRect.idx (ix2 (⟨c + p.val, hlt⟩ : Fin 1344) w)
        = ix2 (⟨o + (c + p.val), by omega⟩ : Fin 5376) w := funext fun ax => Fin.ext (by
      match ax with
      | ⟨0, _⟩ => show o + 1 * (c + p.val) = o + (c + p.val); omega
      | ⟨1, _⟩ => show 0 + 1 * w.val = w.val; omega)
    show stackAt (i 1) x1 xs0 xs1 _ = _
    rw [hidx, stackAt_row (i 1) x1 xs0 xs1 gi ch k p w ⟨o + (c + p.val), by omega⟩ (by show o + (c + p.val) = _; omega)]
    rfl
  congr 1
  · refine Finset.sum_congr rfl fun w _ => ?_
    rw [shapeCast_1ab_ab_apply, ld_colsel i x2 gi off hoff,
      hrow 0 a (by show a = ch.val * 448 + 0 * 224; omega) _ w]
    rfl
  · refine Finset.sum_congr rfl fun w _ => ?_
    rw [shapeCast_1ab_ab_apply, ld_colsel i x2 gi off hoff,
      hrow 1 b (by show b = ch.val * 448 + 1 * 224; omega) _ w]
    rfl

/-- The four loads of the stack (one per cutout of the group), after the same 24 stores. -/
theorem stack_loads (i : grid0.Coords) (x1 : Vec Ideal S8x896x512 .bf16) (xs0 xs1 : Vec Ideal S3x512x512 .bf16)
    (arg8 : Memref sig .tc .vmem S5376x512 .bf16) (L : List (View.Piece (Elt Ideal) S5376x512 .bf16))
    (hL : ∀ p ∈ L, ∀ x : p.1.shape.Idx, p.2 x = stackAt (i 1) x1 xs0 xs1 (p.1.emb x))
    (hcov : ∀ y : S5376x512.Idx, ∃ p ∈ L, y ∈ p.1.set) (B0 B1 B2 B3 : LoadRect S5376x512)
    (s0 : B0.shape.Idx → Elt Ideal .bf16) (s1 : B1.shape.Idx → Elt Ideal .bf16)
    (s2 : B2.shape.Idx → Elt Ideal .bf16) (s3 : B3.shape.Idx → Elt Ideal .bf16)
    (h0 : arg8.view.readCov L B0 = s0) (h1 : arg8.view.readCov L B1 = s1)
    (h2 : arg8.view.readCov L B2 = s2) (h3 : arg8.view.readCov L B3 = s3) :
    (s0 = fun j => stackAt (i 1) x1 xs0 xs1 (B0.idx j)) ∧ (s1 = fun j => stackAt (i 1) x1 xs0 xs1 (B1.idx j))
      ∧ (s2 = fun j => stackAt (i 1) x1 xs0 xs1 (B2.idx j)) ∧ (s3 = fun j => stackAt (i 1) x1 xs0 xs1 (B3.idx j)) :=
  ⟨h0.symm.trans (stack_load i x1 xs0 xs1 arg8 L hL hcov B0), h1.symm.trans (stack_load i x1 xs0 xs1 arg8 L hL hcov B1),
    h2.symm.trans (stack_load i x1 xs0 xs1 arg8 L hL hcov B2), h3.symm.trans (stack_load i x1 xs0 xs1 arg8 L hL hcov B3)⟩

end KBodyB

/-! ## The body at a grid point whose group coordinate is not 0 -/

/-- With the two parts of the image as an earlier point left them, the body leaves `OutBlk` in the output block. -/
theorem out0_B_3_eq (c : Dev nD) (i : grid0.Coords) (arg2 : Memref sig .tc .vmem S1x3x512x512 .f32) (harg2 : arg2.IsWhole) (arg3 : Memref sig .tc .vmem S8x896x512 .bf16) (harg3 : arg3.IsWhole) (arg4 : Memref sig .tc .vmem S32x512x224 .bf16) (harg4 : arg4.IsWhole) (arg5 : Memref sig .tc .vmem S4x1x3x224x224 .f32) (harg5 : arg5.IsWhole) (arg6 : Memref sig .tc .vmem S3x512x512 .bf16) (harg6 : arg6.IsWhole) (arg7 : Memref sig .tc .vmem S3x512x512 .bf16) (harg7 : arg7.IsWhole) (arg8 : Memref sig .tc .vmem S5376x512 .bf16) (harg8 : arg8.IsWhole) (hc0 : ¬cond0_0 i) (x0 : Vec Ideal S1x3x512x512 .f32) (x1 : Vec Ideal S8x896x512 .bf16) (x2 : Vec Ideal S32x512x224 .bf16) (xs0 xs1 : Vec Ideal S3x512x512 .bf16) :
    out0_B_3 (F := Ideal) c i arg2 harg2 arg3 harg3 arg4 harg4 arg5 harg5 arg6 harg6 arg7 harg7 arg8 harg8 hc0 x0 x1 x2 xs0 xs1 = Cert.Cutout.OutBlk (i 1) x1 x2 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  funext y
  refine View.canon_apply_of_pieces (Val := Elt Ideal) (S := S4x1x3x224x224) (e := .f32) (OutBlk (i 1) x1 x2 xs0 xs1) _ ?_ y (cover0_B_3 c i arg2 harg2 arg3 harg3 arg4 harg4 arg5 harg5 arg6 harg6 arg7 harg7 arg8 harg8 hc0 x0 x1 x2 xs0 xs1 y)
  unfold kernelRun0_B
  dsimp only
  sl_unfold_run_names
  simp only [View.readAt_eq_ld, harg3.read_unread, harg4.read_unread, harg6.read_unread, harg7.read_unread]
  generalize hs3 : arg8.view.readCov (Val := Elt Ideal) _ (Rect.unit ![4032, 0] _ _).toLoadRect = s3
  generalize hs2 : arg8.view.readCov (Val := Elt Ideal) _ (Rect.unit ![2688, 0] _ _).toLoadRect = s2
  generalize hs1 : arg8.view.readCov (Val := Elt Ideal) _ (Rect.unit ![1344, 0] _ _).toLoadRect = s1
  generalize hs0 : arg8.view.readCov (Val := Elt Ideal) _ (Rect.unit ![0, 0] _ _).toLoadRect = s0
  have H := KBodyB.stack_loads i x1 xs0 xs1 arg8 _
    (by
      intro p hp x
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl
      · exact KBodyB.stack_piece i x1 xs0 xs1 3 2 1 xs1 rfl 5152 rfl (by decide) 672 rfl (by decide) (k0_off1_inb i) ![2, 0, 0] rfl (by decide) x
      · exact KBodyB.stack_piece i x1 xs0 xs1 3 2 0 xs0 rfl 4928 rfl (by decide) 672 rfl (by decide) (k0_off1_inb i) ![2, 0, 0] rfl (by decide) x
      · exact KBodyB.stack_piece i x1 xs0 xs1 2 2 1 xs1 rfl 3808 rfl (by decide) 448 rfl (by decide) (k0_off1_inb i) ![2, 0, 0] rfl (by decide) x
      · exact KBodyB.stack_piece i x1 xs0 xs1 2 2 0 xs0 rfl 3584 rfl (by decide) 448 rfl (by decide) (k0_off1_inb i) ![2, 0, 0] rfl (by decide) x
      · exact KBodyB.stack_piece i x1 xs0 xs1 1 2 1 xs1 rfl 2464 rfl (by decide) 224 rfl (by decide) (k0_off1_inb i) ![2, 0, 0] rfl (by decide) x
      · exact KBodyB.stack_piece i x1 xs0 xs1 1 2 0 xs0 rfl 2240 rfl (by decide) 224 rfl (by decide) (k0_off1_inb i) ![2, 0, 0] rfl (by decide) x
      · exact KBodyB.stack_piece i x1 xs0 xs1 0 2 1 xs1 rfl 1120 rfl (by decide) 0 rfl (by decide) (k0_off1_inb i) ![2, 0, 0] rfl (by decide) x
      · exact KBodyB.stack_piece i x1 xs0 xs1 0 2 0 xs0 rfl 896 rfl (by decide) 0 rfl (by decide) (k0_off1_inb i) ![2, 0, 0] rfl (by decide) x
      · exact KBodyB.stack_piece i x1 xs0 xs1 3 1 1 xs1 rfl 4704 rfl (by decide) 672 rfl (by decide) (k0_off1_inb i) ![1, 0, 0] rfl (by decide) x
      · exact KBodyB.stack_piece i x1 xs0 xs1 3 1 0 xs0 rfl 4480 rfl (by decide) 672 rfl (by decide) (k0_off1_inb i) ![1, 0, 0] rfl (by decide) x
      · exact KBodyB.stack_piece i x1 xs0 xs1 2 1 1 xs1 rfl 3360 rfl (by decide) 448 rfl (by decide) (k0_off1_inb i) ![1, 0, 0] rfl (by decide) x
      · exact KBodyB.stack_piece i x1 xs0 xs1 2 1 0 xs0 rfl 3136 rfl (by decide) 448 rfl (by decide) (k0_off1_inb i) ![1, 0, 0] rfl (by decide) x
      · exact KBodyB.stack_piece i x1 xs0 xs1 1 1 1 xs1 rfl 2016 rfl (by decide) 224 rfl (by decide) (k0_off1_inb i) ![1, 0, 0] rfl (by decide) x
      · exact KBodyB.stack_piece i x1 xs0 xs1 1 1 0 xs0 rfl 1792 rfl (by decide) 224 rfl (by decide) (k0_off1_inb i) ![1, 0, 0] rfl (by decide) x
      · exact KBodyB.stack_piece i x1 xs0 xs1 0 1 1 xs1 rfl 672 rfl (by decide) 0 rfl (by decide) (k0_off1_inb i) ![1, 0, 0] rfl (by decide) x
      · exact KBodyB.stack_piece i x1 xs0 xs1 0 1 0 xs0 rfl 448 rfl (by decide) 0 rfl (by decide) (k0_off1_inb i) ![1, 0, 0] rfl (by decide) x
      · exact KBodyB.stack_piece i x1 xs0 xs1 3 0 1 xs1 rfl 4256 rfl (by decide) 672 rfl (by decide) (k0_off1_inb i) ![0, 0, 0] rfl (by decide) x
      · exact KBodyB.stack_piece i x1 xs0 xs1 3 0 0 xs0 rfl 4032 rfl (by decide) 672 rfl (by decide) (k0_off1_inb i) ![0, 0, 0] rfl (by decide) x
      · exact KBodyB.stack_piece i x1 xs0 xs1 2 0 1 xs1 rfl 2912 rfl (by decide) 448 rfl (by decide) (k0_off1_inb i) ![0, 0, 0] rfl (by decide) x
      · exact KBodyB.stack_piece i x1 xs0 xs1 2 0 0 xs0 rfl 2688 rfl (by decide) 448 rfl (by decide) (k0_off1_inb i) ![0, 0, 0] rfl (by decide) x
      · exact KBodyB.stack_piece i x1 xs0 xs1 1 0 1 xs1 rfl 1568 rfl (by decide) 224 rfl (by decide) (k0_off1_inb i) ![0, 0, 0] rfl (by decide) x
      · exact KBodyB.stack_piece i x1 xs0 xs1 1 0 0 xs0 rfl 1344 rfl (by decide) 224 rfl (by decide) (k0_off1_inb i) ![0, 0, 0] rfl (by decide) x
      · exact KBodyB.stack_piece i x1 xs0 xs1 0 0 1 xs1 rfl 224 rfl (by decide) 0 rfl (by decide) (k0_off1_inb i) ![0, 0, 0] rfl (by decide) x
      · exact KBodyB.stack_piece i x1 xs0 xs1 0 0 0 xs0 rfl 0 rfl (by decide) 0 rfl (by decide) (k0_off1_inb i) ![0, 0, 0] rfl (by decide) x)
    (View.cover_of_tiledL _ S224x512.size (by sl_kernel_rfl))
    _ _ _ _ _ _ _ _ hs0 hs1 hs2 hs3
  obtain ⟨e0, e1, e2, e3⟩ := H
  intro p hp x
  simp only [List.mem_cons, List.not_mem_nil, or_false] at hp
  rcases hp with rfl | rfl | rfl | rfl | rfl | rfl | rfl | rfl | rfl | rfl | rfl | rfl
  · exact KBodyB.out_piece i x1 x2 xs0 xs1 3 2 4032 rfl (by decide) s3 e3 _ (k0_off2_eq i 3) (k0_off2_inb i 3) 896 1120 rfl rfl (by decide) (by decide) ![3, 0, 2, 0, 0] rfl (by decide) x
  · exact KBodyB.out_piece i x1 x2 xs0 xs1 3 1 4032 rfl (by decide) s3 e3 _ (k0_off2_eq i 3) (k0_off2_inb i 3) 448 672 rfl rfl (by decide) (by decide) ![3, 0, 1, 0, 0] rfl (by decide) x
  · exact KBodyB.out_piece i x1 x2 xs0 xs1 3 0 4032 rfl (by decide) s3 e3 _ (k0_off2_eq i 3) (k0_off2_inb i 3) 0 224 rfl rfl (by decide) (by decide) ![3, 0, 0, 0, 0] rfl (by decide) x
  · exact KBodyB.out_piece i x1 x2 xs0 xs1 2 2 2688 rfl (by decide) s2 e2 _ (k0_off2_eq i 2) (k0_off2_inb i 2) 896 1120 rfl rfl (by decide) (by decide) ![2, 0, 2, 0, 0] rfl (by decide) x
  · exact KBodyB.out_piece i x1 x2 xs0 xs1 2 1 2688 rfl (by decide) s2 e2 _ (k0_off2_eq i 2) (k0_off2_inb i 2) 448 672 rfl rfl (by decide) (by decide) ![2, 0, 1, 0, 0] rfl (by decide) x
  · exact KBodyB.out_piece i x1 x2 xs0 xs1 2 0 2688 rfl (by decide) s2 e2 _ (k0_off2_eq i 2) (k0_off2_inb i 2) 0 224 rfl rfl (by decide) (by decide) ![2, 0, 0, 0, 0] rfl (by decide) x
  · exact KBodyB.out_piece i x1 x2 xs0 xs1 1 2 1344 rfl (by decide) s1 e1 _ (k0_off2_eq i 1) (k0_off2_inb i 1) 896 1120 rfl rfl (by decide) (by decide) ![1, 0, 2, 0, 0] rfl (by decide) x
  · exact KBodyB.out_piece i x1 x2 xs0 xs1 1 1 1344 rfl (by decide) s1 e1 _ (k0_off2_eq i 1) (k0_off2_inb i 1) 448 672 rfl rfl (by decide) (by decide) ![1, 0, 1, 0, 0] rfl (by decide) x
  · exact KBodyB.out_piece i x1 x2 xs0 xs1 1 0 1344 rfl (by decide) s1 e1 _ (k0_off2_eq i 1) (k0_off2_inb i 1) 0 224 rfl rfl (by decide) (by decide) ![1, 0, 0, 0, 0] rfl (by decide) x
  · exact KBodyB.out_piece i x1 x2 xs0 xs1 0 2 0 rfl (by decide) s0 e0 _ (k0_off2_eq i 0) (k0_off2_inb i 0) 896 1120 rfl rfl (by decide) (by decide) ![0, 0, 2, 0, 0] rfl (by decide) x
  · exact KBodyB.out_piece i x1 x2 xs0 xs1 0 1 0 rfl (by decide) s0 e0 _ (k0_off2_eq i 0) (k0_off2_inb i 0) 448 672 rfl rfl (by decide) (by decide) ![0, 0, 1, 0, 0] rfl (by decide) x
  · exact KBodyB.out_piece i x1 x2 xs0 xs1 0 0 0 rfl (by decide) s0 e0 _ (k0_off2_eq i 0) (k0_off2_inb i 0) 0 224 rfl rfl (by decide) (by decide) ![0, 0, 0, 0, 0] rfl (by decide) x

end Cert.KernelIdeal.Gen

end
-- ==== Proof.OneHot.lean ====
/-
  The two one-hot contractions of one grid point select one pixel.

  Row \`gi * 224 + i\` of group \`g\` of the row selector is the indicator of the source row of cutout \`4 g + gi\` at
  position \`i\`; column \`j\` of cutout \`4 g + gi\` of the column selector is the indicator of the source column at
  position \`j\`.  A sum of (indicator of one index) times (a value) over all indices is the value at that index: in the
  extended reals \`0 * a = 0\` and \`1 * a = a\` for every \`a\`, the infinities included.  So the product with the high part
  of the image reads the image's pixel at (source row, source column), and the product with the low part reads that
  pixel minus itself, which is zero because the pixel is a real number.
-/
import proofs.«424226_j75823352644348_3_alg».proof.Proof.Spec
import Mathlib.Data.EReal.Basic
import Mathlib.Data.EReal.Operations
import Mathlib.Data.EReal.Inv
import Mathlib.Algebra.BigOperators.Group.Finset.Basic
import Idealize.ShloMosaic.Lib.ValueIdx

noncomputable section

open scoped BigOperators

namespace Cert.Cutout

open Idealize.ShloMosaic Idealize.ShloMosaic.ValueIdx

/-! ## An in-range word names exactly one row -/

/-- For an in-range index array, the word at \`(n, i)\` is the 32-bit word of \`h < 512\` exactly when \`h\` is the row the
    word names: both say the word's value is \`h\`. -/
theorem word_eq_iff {Y : IVec SI 32} (hY : InRange Y) (n : Fin 32) (i : Fin 224) (h : Fin 512) :
    Y (ix2 n i) = BitVec.ofNat 32 h.val ↔ h = rowOf Y n i := by
  have hh : h.val < 512 := h.isLt
  have hy : (Y (ix2 n i)).toNat < 512 := hY (ix2 n i)
  constructor
  · intro e
    apply Fin.ext
    rw [rowOf_val hY, e, BitVec.toNat_ofNat]
    omega
  · intro e
    apply BitVec.eq_of_toNat_eq
    rw [BitVec.toNat_ofNat, e, rowOf_val hY]
    omega

/-! ## The selectors' entries are indicators -/

/-- Row \`gi * 224 + i\` of group \`g\` of the row selector: one at \`h\` exactly when \`h\` is the source row of cutout
    \`4 g + gi\` at position \`i\`, because \`(gi * 224 + i) / 224 = gi\` and \`(gi * 224 + i) % 224 = i\`. -/
theorem RyG_apply {Y : IVec SI 32} (hY : InRange Y) (g : Fin 8) (gi : Fin 4) (i : Fin 224) (h : Fin 512) :
    RyG Y (ix3 g (selRow gi i) h) = if h = rowOf Y (cutOf g gi) i then 1 else 0 := by
  have hg : g.val < 8 := g.isLt
  have hgi : gi.val < 4 := gi.isLt
  have hi : i.val < 224 := i.isLt
  have key : ∀ (a : Fin 32) (b : Fin 224), a = cutOf g gi → b = i →
      (if Y (ix2 a b) = BitVec.ofNat 32 h.val then (1 : EReal) else 0)
        = if h = rowOf Y (cutOf g gi) i then 1 else 0 := by
    rintro _ _ rfl rfl
    simp only [word_eq_iff hY]
  refine key _ _ (Fin.ext ?_) (Fin.ext ?_)
  · show g.val * 4 + (gi.val * 224 + i.val) / 224 = g.val * 4 + gi.val
    omega
  · show (gi.val * 224 + i.val) % 224 = i.val
    omega

/-- Column \`j\` of cutout \`n\` of the column selector: one at \`w\` exactly when \`w\` is the source column of cutout \`n\` at
    position \`j\`. -/
theorem RxG_apply {Xi : IVec SI 32} (hX : InRange Xi) (n : Fin 32) (w : Fin 512) (j : Fin 224) :
    RxG Xi (ix3 n w j) = if w = rowOf Xi n j then 1 else 0 := by
  show (if Xi (ix2 n j) = BitVec.ofNat 32 w.val then (1 : EReal) else 0) = _
  simp only [word_eq_iff hX]

/-! ## A sum against an indicator is one term -/

/-- \`Σ_h [h = y] · f h = f y\` in the extended reals. -/
theorem sum_ind_mul {ι : Type} [Fintype ι] [DecidableEq ι] (y : ι) (f : ι → EReal) :
    ∑ h : ι, (if h = y then (1 : EReal) else 0) * f h = f y := by
  rw [Finset.sum_eq_single y]
  · rw [if_pos rfl, one_mul]
  · intro b _ hb
    rw [if_neg hb, zero_mul]
  · intro hn
    exact absurd (Finset.mem_univ y) hn

/-- \`Σ_w f w · [w = x] = f x\` in the extended reals. -/
theorem sum_mul_ind {ι : Type} [Fintype ι] [DecidableEq ι] (x : ι) (f : ι → EReal) :
    ∑ w : ι, f w * (if w = x then (1 : EReal) else 0) = f x := by
  rw [Finset.sum_eq_single x]
  · rw [if_pos rfl, mul_one]
  · intro b _ hb
    rw [if_neg hb, mul_zero]
  · intro hn
    exact absurd (Finset.mem_univ x) hn

/-! ## One entry of the block -/

/-- A real number minus itself is zero in the extended reals. -/
theorem sub_self_of_real {a : EReal} (ha : ∃ r : ℝ, a = (r : EReal)) : a - a = 0 := by
  obtain ⟨r, rfl⟩ := ha
  rw [← EReal.coe_sub, sub_self, EReal.coe_zero]

/-- The two selections against one part \`xs\` of the image read \`xs\` at (channel, source row, source column). -/
theorem sel_part {Y Xi : IVec SI 32} (hY : InRange Y) (hX : InRange Xi) (g : Fin 8) (gi : Fin 4) (ch : Fin 3)
    (i j : Fin 224) (xs : SS.Idx → EReal) :
    (∑ w : Fin 512, (∑ h : Fin 512, RyG Y (ix3 g (selRow gi i) h) * xs (ix3 ch h w))
        * RxG Xi (ix3 (cutOf g gi) w j))
      = xs (ix3 ch (rowOf Y (cutOf g gi) i) (rowOf Xi (cutOf g gi) j)) := by
  have h1 : ∀ w : Fin 512, (∑ h : Fin 512, RyG Y (ix3 g (selRow gi i) h) * xs (ix3 ch h w))
      = xs (ix3 ch (rowOf Y (cutOf g gi) i) w) := by
    intro w
    simp only [RyG_apply hY]
    exact sum_ind_mul (rowOf Y (cutOf g gi) i) (fun h => xs (ix3 ch h w))
  simp only [h1, RxG_apply hX]
  exact sum_mul_ind (rowOf Xi (cutOf g gi) j) (fun w => xs (ix3 ch (rowOf Y (cutOf g gi) i) w))

/-- Entry \`(gi, 0, ch, i, j)\` of the block: the high part gives the pixel, the low part gives zero. -/
theorem OutBlk_entry (g : Fin 8) {Y Xi : IVec SI 32} (hY : InRange Y) (hX : InRange Xi)
    (xb : SXb.Idx → EReal) (hfin : ∀ p, ∃ r : ℝ, xb p = (r : EReal))
    (gi : Fin 4) (z : Fin 1) (ch : Fin 3) (i j : Fin 224) :
    OutBlk g (RyG Y) (RxG Xi) (hiOf xb) (loOf xb) (ix5 gi z ch i j) = SelBlk g Y Xi xb (ix5 gi z ch i j) := by
  show (∑ w : Fin 512, (∑ h : Fin 512, RyG Y (ix3 g (selRow gi i) h) * hiOf xb (ix3 ch h w))
          * RxG Xi (ix3 (cutOf g gi) w j))
      + (∑ w : Fin 512, (∑ h : Fin 512, RyG Y (ix3 g (selRow gi i) h) * loOf xb (ix3 ch h w))
          * RxG Xi (ix3 (cutOf g gi) w j))
      = xb (ix4 0 ch (rowOf Y (cutOf g gi) i) (rowOf Xi (cutOf g gi) j))
  rw [sel_part hY hX, sel_part hY hX]
  show xb (ix4 0 ch (rowOf Y (cutOf g gi) i) (rowOf Xi (cutOf g gi) j))
      + (xb (ix4 0 ch (rowOf Y (cutOf g gi) i) (rowOf Xi (cutOf g gi) j))
          - xb (ix4 0 ch (rowOf Y (cutOf g gi) i) (rowOf Xi (cutOf g gi) j)))
      = xb (ix4 0 ch (rowOf Y (cutOf g gi) i) (rowOf Xi (cutOf g gi) j))
  rw [sub_self_of_real (hfin _), add_zero]

/-! ## The block -/

/-- What one grid point writes, from the two selectors and the two parts of a finite image, is the selection. -/
theorem OutBlk_select (g : Fin 8) (Y Xi : IVec SI 32) (hY : InRange Y) (hX : InRange Xi)
    (xb : SXb.Idx → EReal) (hfin : ∀ p, ∃ r : ℝ, xb p = (r : EReal)) :
    OutBlk g (RyG Y) (RxG Xi) (hiOf xb) (loOf xb) = SelBlk g Y Xi xb := by
  funext p
  rw [eq_ix5 p]
  exact OutBlk_entry g hY hX xb hfin (p 0) (p 1) (p 2) (p 3) (p 4)

end Cert.Cutout

end
-- ==== Proof.KValue.lean ====
/-
  What the kernel program leaves in its result array, at the ideal instance.

  Grid point t works on image t / 8 and on the group t % 8 of four cutouts.  The image block handed to it is that
  image, and the two selectors are handed whole.  By induction on the point, the two scratches the kernel carries hold
  the high and the low part of the point's image (stored when a group of eight points opens, kept otherwise), and the
  output block is the double one-hot product of the selectors with those parts, which is the selection of the image's
  pixels at the source rows and columns.  Every entry of the result array lies in exactly the block of the point
  that owns its cutout group and image, so the array ends holding the selection; the host's final reshape of it is the
  program's result.
-/
import proofs.«424226_j75823352644348_3_alg».proof.Proof.KHost
import proofs.«424226_j75823352644348_3_alg».proof.Proof.KBodyA
import proofs.«424226_j75823352644348_3_alg».proof.Proof.KBodyB
import proofs.«424226_j75823352644348_3_alg».proof.Proof.OneHot
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Cutout Idealize.ShloMosaic.ValueIdx

variable (m : (ℓ : Loc nD τ sig) → Buf (Elt Ideal) ℓ) (ρ : Dev nD → PrngReg)

/-- The image array, and the two source-index arrays, as the program's arguments give them. -/
abbrev xA (c : Dev nD) : SX.Idx → EReal := m ((c : Thread nD τ).loc main_arg0)
abbrev yA (c : Dev nD) : IVec SI 32 := yidx (m ((c : Thread nD τ).loc main_arg1)) (m ((c : Thread nD τ).loc main_arg3))
abbrev xiA (c : Dev nD) : IVec SI 32 := yidx (m ((c : Thread nD τ).loc main_arg1)) (m ((c : Thread nD τ).loc main_arg2))

theorem hN : cfg0.N = 128 := N_0

/-- Grid point `t` is image `t / 8`, group `t % 8`. -/
def bOf (t : Fin cfg0.N) : Fin 16 := ⟨t.val / 8, by have : t.val < 128 := lt_of_lt_of_eq t.isLt hN; omega⟩
def gOf (t : Fin cfg0.N) : Fin 8 := ⟨t.val % 8, Nat.mod_lt _ (by decide)⟩

theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

theorem idx_facts0 : ∀ t : Fin cfg0.N, win0_0.index t 0 = t.val / 8 ∧ win0_0.index t 1 = 0 ∧ win0_0.index t 2 = 0 ∧ win0_0.index t 3 = 0 :=
  (by decide +kernel : ∀ t : Fin grid0.N, win0_0.index t 0 = t.val / 8 ∧ win0_0.index t 1 = 0 ∧ win0_0.index t 2 = 0 ∧ win0_0.index t 3 = 0)
theorem idx_facts1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx_facts2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx_facts3 : ∀ t : Fin cfg0.N, win0_3.index t 0 = t.val % 8 ∧ win0_3.index t 1 = t.val / 8 ∧ win0_3.index t 2 = 0 ∧ win0_3.index t 3 = 0 ∧ win0_3.index t 4 = 0 :=
  (by decide +kernel : ∀ t : Fin grid0.N, win0_3.index t 0 = t.val % 8 ∧ win0_3.index t 1 = t.val / 8 ∧ win0_3.index t 2 = 0 ∧ win0_3.index t 3 = 0 ∧ win0_3.index t 4 = 0)

/-- The image block handed to point `t` is image `t / 8`. -/
theorem iblk0_eq (c : Dev nD) (t : Fin cfg0.N) : (iblk m c 0 t : SXb.Idx → EReal) = xblk (xA m c) (bOf t) := by
  funext j
  unfold iblk
  rw [View.read_apply]
  show V m c main_arg0 _ = m ((c : Thread nD τ).loc main_arg0) _
  rw [V_main_arg0]
  congr 1
  funext a
  apply Fin.ext
  have h0 : (j 0).val < 1 := (j 0).isLt
  match a with
  | ⟨0, _⟩ => show win0_0.index t 0 * 1 + 1 * (j 0).val = t.val / 8; rw [(idx_facts0 t).1]; omega
  | ⟨1, _⟩ => show win0_0.index t 1 * 3 + 1 * (j 1).val = (j 1).val; rw [(idx_facts0 t).2.1]; omega
  | ⟨2, _⟩ => show win0_0.index t 2 * 512 + 1 * (j 2).val = (j 2).val; rw [(idx_facts0 t).2.2.1]; omega
  | ⟨3, _⟩ => show win0_0.index t 3 * 512 + 1 * (j 3).val = (j 3).val; rw [(idx_facts0 t).2.2.2]; omega

/-- The row selector is handed whole to every point. -/
theorem iblk1_eq (c : Dev nD) (t : Fin cfg0.N) : (iblk m c 1 t : SRy.Idx → EReal) = RyG (yA m c) := by
  rw [← V_ry m c]
  funext j
  unfold iblk
  rw [View.read_apply]
  show V m c main_v33 _ = V m c main_v33 j
  congr 1
  funext a
  apply Fin.ext
  match a with
  | ⟨0, _⟩ => show win0_1.index t 0 * 8 + 1 * (j 0).val = (j 0).val; rw [(idx_facts1 t).1]; omega
  | ⟨1, _⟩ => show win0_1.index t 1 * 896 + 1 * (j 1).val = (j 1).val; rw [(idx_facts1 t).2.1]; omega
  | ⟨2, _⟩ => show win0_1.index t 2 * 512 + 1 * (j 2).val = (j 2).val; rw [(idx_facts1 t).2.2]; omega

/-- The column selector is handed whole to every point. -/
theorem iblk2_eq (c : Dev nD) (t : Fin cfg0.N) : (iblk m c 2 t : SRx.Idx → EReal) = RxG (xiA m c) := by
  rw [← V_rx m c]
  funext j
  unfold iblk
  rw [View.read_apply]
  show V m c main_v32 _ = V m c main_v32 j
  congr 1
  funext a
  apply Fin.ext
  match a with
  | ⟨0, _⟩ => show win0_2.index t 0 * 32 + 1 * (j 0).val = (j 0).val; rw [(idx_facts2 t).1]; omega
  | ⟨1, _⟩ => show win0_2.index t 1 * 512 + 1 * (j 1).val = (j 1).val; rw [(idx_facts2 t).2.1]; omega
  | ⟨2, _⟩ => show win0_2.index t 2 * 224 + 1 * (j 2).val = (j 2).val; rw [(idx_facts2 t).2.2]; omega

/-- The group coordinate the body sees at point `t`. -/
theorem coord1_eq (t : Fin cfg0.N) : ((grid0.coords t) 1 : Fin 8) = gOf t := Fin.ext (coords_facts t).2

/-- The two parts of image `t / 8`, and what point `t` computes from them. -/
abbrev hiAt (c : Dev nD) (t : Fin cfg0.N) : SS.Idx → EReal := hiOf (xblk (xA m c) (bOf t))
abbrev loAt (c : Dev nD) (t : Fin cfg0.N) : SS.Idx → EReal := loOf (xblk (xA m c) (bOf t))
abbrev outAt (c : Dev nD) (t : Fin cfg0.N) : SOb.Idx → EReal :=
  OutBlk (gOf t) (RyG (yA m c)) (RxG (xiA m c)) (hiAt m c t) (loAt m c t)

/-- A point that does not open a group works on the same image as the point before it. -/
theorem bOf_pred (n : ℕ) (h : n + 1 < cfg0.N) (h0 : ¬(n + 1) % 8 = 0) :
    bOf ⟨n + 1, h⟩ = bOf ⟨n, Nat.lt_of_succ_lt h⟩ := by
  apply Fin.ext
  show (n + 1) / 8 = n / 8
  omega

/-- After point `n` the output's staging block holds that point's block, and the two carried scratches the two parts
    of the point's image: at a point that opens a group the body stores the parts and computes from them, at any other
    point it computes from the parts the point before left, which are those of the same image. -/
theorem outsAt_eq (c : Dev nD) : ∀ (n : ℕ) (h : n < cfg0.N),
    outsAt0 m c n h = ((outAt m c ⟨n, h⟩ : Vec Ideal S4x1x3x224x224 .f32), (hiAt m c ⟨n, h⟩ : Vec Ideal S3x512x512 .bf16), (loAt m c ⟨n, h⟩ : Vec Ideal S3x512x512 .bf16))
  | 0, h => by
    have h0 : (⟨0, h⟩ : Fin cfg0.N).val % 8 = 0 := rfl
    rw [outsAt0_A m c ⟨0, h⟩ h0]
    refine congrArg₂ Prod.mk ?_ (congrArg₂ Prod.mk ?_ ?_)
    · refine (out0_A_3_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (iblk m c 0 ⟨0, h⟩) (iblk m c 1 ⟨0, h⟩) (iblk m c 2 ⟨0, h⟩)).trans ?_
      rw [coord1_eq, iblk0_eq, iblk1_eq, iblk2_eq]
    · refine (sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (iblk m c 0 ⟨0, h⟩) (iblk m c 1 ⟨0, h⟩) (iblk m c 2 ⟨0, h⟩)).trans ?_
      rw [iblk0_eq]
    · refine (sout0_A_1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr h0) (iblk m c 0 ⟨0, h⟩) (iblk m c 1 ⟨0, h⟩) (iblk m c 2 ⟨0, h⟩)).trans ?_
      rw [iblk0_eq]
  | n + 1, h => by
    by_cases h0 : (⟨n + 1, h⟩ : Fin cfg0.N).val % 8 = 0
    · rw [outsAt0_A m c ⟨n + 1, h⟩ h0]
      refine congrArg₂ Prod.mk ?_ (congrArg₂ Prod.mk ?_ ?_)
      · refine (out0_A_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩)).trans ?_
        rw [coord1_eq, iblk0_eq, iblk1_eq, iblk2_eq]
      · refine (sout0_A_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩)).trans ?_
        rw [iblk0_eq]
      · refine (sout0_A_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩)).trans ?_
        rw [iblk0_eq]
    · have ih := outsAt_eq c n (Nat.lt_of_succ_lt h)
      have ih1 : (outsAt0 m c n (Nat.lt_of_succ_lt h)).2.1 = (hiAt m c ⟨n + 1, h⟩ : Vec Ideal S3x512x512 .bf16) := by
        rw [ih]; show hiAt m c ⟨n, _⟩ = hiAt m c ⟨n + 1, h⟩; unfold hiAt; rw [bOf_pred n h h0]
      have ih2 : (outsAt0 m c n (Nat.lt_of_succ_lt h)).2.2 = (loAt m c ⟨n + 1, h⟩ : Vec Ideal S3x512x512 .bf16) := by
        rw [ih]; show loAt m c ⟨n, _⟩ = loAt m c ⟨n + 1, h⟩; unfold loAt; rw [bOf_pred n h h0]
      rw [outsAt0_B m c ⟨n + 1, h⟩ h0]
      refine congrArg₂ Prod.mk ?_ (congrArg₂ Prod.mk ?_ ?_)
      · refine (out0_B_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2).trans ?_
        rw [coord1_eq, iblk1_eq, iblk2_eq, ih1, ih2]
      · exact ih1
      · exact ih2

/-! ## From the blocks to the array -/

section Array

variable (c : Dev nD)

/-- What point `t` writes back is block `t` of the selection `Out5`: the block of cutouts `4 g .. 4 g + 3` of image
    `b`, each entry the image's pixel at the entry's source row and column (the two one-hot products select exactly
    that pixel, the low part contributing zero because the image is finite). -/
theorem flushed_eq (hfin : ∀ p, ∃ r : ℝ, xA m c p = (r : EReal)) (hY : InRange (yA m c)) (hX : InRange (xiA m c))
    (t : Fin cfg0.N) :
    (dats m 0 c).flushed 3 t = ((cfg0.win 3).blk t).view.read (Elt Ideal) (Out5 (xA m c) (yA m c) (xiA m c)) := by
  show (cfg0.win 3).cut (grid0.coords t) ((dats m 0 c).after 3 t) = _
  rw [after0_3, outsAt_eq]
  dsimp only
  have hsel : outAt m c t = SelBlk (gOf t) (yA m c) (xiA m c) (xblk (xA m c) (bOf t)) :=
    OutBlk_select (gOf t) (yA m c) (xiA m c) hY hX (xblk (xA m c) (bOf t)) (fun p => hfin _)
  rw [hsel]
  obtain ⟨e0, e1, e2, e3, e4⟩ := idx_facts3 t
  funext j
  have hj0 : (j 0).val < 4 := (j 0).isLt
  have hj1 : (j 1).val < 1 := (j 1).isLt
  have k0 : ((((cfg0.win 3).blk t).view.emb j) 0 : Fin 32) = cutOf (gOf t) (j 0) := by
    apply Fin.ext; show win0_3.index t 0 * 4 + 1 * (j 0).val = (t.val % 8) * 4 + (j 0).val; rw [e0]; omega
  have k1 : ((((cfg0.win 3).blk t).view.emb j) 1 : Fin 16) = bOf t := by
    apply Fin.ext; show win0_3.index t 1 * 1 + 1 * (j 1).val = t.val / 8; rw [e1]; omega
  have k2 : ((((cfg0.win 3).blk t).view.emb j) 2 : Fin 3) = j 2 := by
    apply Fin.ext; show win0_3.index t 2 * 3 + 1 * (j 2).val = (j 2).val; rw [e2]; omega
  have k3 : ((((cfg0.win 3).blk t).view.emb j) 3 : Fin 224) = j 3 := by
    apply Fin.ext; show win0_3.index t 3 * 224 + 1 * (j 3).val = (j 3).val; rw [e3]; omega
  have k4 : ((((cfg0.win 3).blk t).view.emb j) 4 : Fin 224) = j 4 := by
    apply Fin.ext; show win0_3.index t 4 * 224 + 1 * (j 4).val = (j 4).val; rw [e4]; omega
  show xA m c (ix4 (bOf t) (j 2) (rowOf (yA m c) (cutOf (gOf t) (j 0)) (j 3)) (rowOf (xiA m c) (cutOf (gOf t) (j 0)) (j 4)))
    = xA m c (ix4 ((((cfg0.win 3).blk t).view.emb j) 1) ((((cfg0.win 3).blk t).view.emb j) 2)
        (rowOf (yA m c) ((((cfg0.win 3).blk t).view.emb j) 0) ((((cfg0.win 3).blk t).view.emb j) 3))
        (rowOf (xiA m c) ((((cfg0.win 3).blk t).view.emb j) 0) ((((cfg0.win 3).blk t).view.emb j) 4)))
  rw [k0, k1, k2, k3, k4]

/-- An index of the array is in point `t`'s block iff each coordinate is in the block's range on its axis. -/
theorem mem_blk (t : Fin cfg0.N) (i : S32x16x3x224x224.Idx) :
    i ∈ ((cfg0.win 3).blk t).view.set ↔ ∀ a : Fin 5, win0_3.index t a * S4x1x3x224x224.size a ≤ (i a).val ∧ (i a).val < win0_3.index t a * S4x1x3x224x224.size a + S4x1x3x224x224.size a := by
  show i ∈ ((View.whole main_v34).slice (win0_3.rect t)).set ↔ _
  rw [View.set_slice_whole, Rect.mem_set_unit]
  exact Iff.rfl

/-- Every entry `(n, b, ·, ·, ·)` of the array is written back by point `8 b + n / 4`. -/
theorem cover (i : S32x16x3x224x224.Idx) :
    ∃ t : Fin cfg0.N, (cfg0.win 3).flush t = true ∧ i ∈ ((cfg0.win 3).blk t).view.set := by
  have h0 : (i 0).val < 32 := (i 0).isLt
  have h1 : (i 1).val < 16 := (i 1).isLt
  have h2 : (i 2).val < 3 := (i 2).isLt
  have h3 : (i 3).val < 224 := (i 3).isLt
  have h4 : (i 4).val < 224 := (i 4).isLt
  refine ⟨⟨(i 1).val * 8 + (i 0).val / 4, by rw [hN]; omega⟩, flush0_3 _, ?_⟩
  rw [mem_blk]
  obtain ⟨e0, e1, e2, e3, e4⟩ := idx_facts3 ⟨(i 1).val * 8 + (i 0).val / 4, by rw [hN]; omega⟩
  intro a
  match a with
  | ⟨0, _⟩ => show win0_3.index _ 0 * 4 ≤ (i 0).val ∧ (i 0).val < win0_3.index _ 0 * 4 + 4; rw [e0]; dsimp only; omega
  | ⟨1, _⟩ => show win0_3.index _ 1 * 1 ≤ (i 1).val ∧ (i 1).val < win0_3.index _ 1 * 1 + 1; rw [e1]; dsimp only; omega
  | ⟨2, _⟩ => show win0_3.index _ 2 * 3 ≤ (i 2).val ∧ (i 2).val < win0_3.index _ 2 * 3 + 3; rw [e2]; omega
  | ⟨3, _⟩ => show win0_3.index _ 3 * 224 ≤ (i 3).val ∧ (i 3).val < win0_3.index _ 3 * 224 + 224; rw [e3]; omega
  | ⟨4, _⟩ => show win0_3.index _ 4 * 224 ≤ (i 4).val ∧ (i 4).val < win0_3.index _ 4 * 224 + 224; rw [e4]; omega

/-- So the pallas_call's result array ends holding the selection. -/
theorem arr_out (hfin : ∀ p, ∃ r : ℝ, xA m c p = (r : EReal)) (hY : InRange (yA m c)) (hX : InRange (xiA m c)) :
    (dats m 0 c).arrAt 3 cfg0.N = Out5 (xA m c) (yA m c) (xiA m c) :=
  (dats m 0 c).arrAt_eq_of_cover 3 (Out5 (xA m c) (yA m c) (xiA m c)) (fun t _ => flushed_eq m c hfin hY hX t) (cover)

end Array

/-! ## The host tail and the run -/

/-- The program's result: the host's final reshape of the pallas_call's result array. -/
theorem tail_eq (c : Dev nD) (hfin : ∀ p, ∃ r : ℝ, xA m c p = (r : EReal)) (hY : InRange (yA m c)) (hX : InRange (xiA m c)) :
    Pipeline.afterTail₀ cfgs (dats m) 0 (V0 m) [hostOps1] c main_v35 = Res (xA m c) (yA m c) (xiA m c) := by
  unfold Pipeline.afterTail₀
  show StableHlo.after hostOps1 _ (Proc.devRef .tc main_v35) = _
  after_results
  have e : Pipeline.withArrays (cfgs 0).spec c (V0 m c) (fun w => (dats m 0 c).arrAt w (cfgs 0).N) (Proc.tc.devRef main_v34)
      = Out5 (xA m c) (yA m c) (xiA m c) :=
    (Pipeline.withArrays_arr spec0 launch0.win.arr_inj c _ _ 3).trans (arr_out m c hfin hY hX)
  funext i
  show shapeCast S512x3x224x224 (Pipeline.withArrays (cfgs 0).spec c (V0 m c) (fun w => (dats m 0 c).arrAt w (cfgs 0).N) (Proc.tc.devRef main_v34)) shapeCasts_S32x16x3x224x224_S512x3x224x224 i = _
  rw [e]
  rfl

/-- The kernel program's run, read: under finite image entries and in-range source indices every weakly fair
    execution ends with the result at the selection `Res` of the arguments, and the arguments unchanged. -/
theorem run (hfin : ∀ c p, ∃ r : ℝ, xA m c p = (r : EReal)) (hY : ∀ c, InRange (yA m c)) (hX : ∀ c, InRange (xiA m c)) :
    θ_run defs (onTc (τ := τ) (main (F := Ideal))) ⟨m, fun _ => 0, ρ⟩ (fun r => ∀ c : Dev nD,
      r.2.mem ((c.tc : Thread nD τ).loc main_v35) = Res (xA m c) (yA m c) (xiA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans (tail_eq m c (hfin c) (hY c) (hX c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.PreDecode.lean ====
/-
  The precondition, decoded.

  The printed precondition is the conjunction of three `all`s: every entry of the image is strictly below plus
  infinity in absolute value; every entry of the row-index array is at least 0 and below 512 as a signed 32-bit
  word; and the same for the column-index array.  Its two index arrays are built, operation by operation, exactly
  as `Cert.Cutout.yidx` builds them (from the sizes and the row offsets, and from the sizes and the column
  offsets), so the precondition is the same conjunction stated over `yidx` (`fn_eq`).

  An `all` that is one is one at every entry.  An extended real whose absolute value `max a (-a)` is strictly
  below plus infinity is neither infinity, hence a real.  A 32-bit word `w` with `0 ≤ w` and `w < 512` signed has
  its sign bit clear (a set sign bit would make it negative), so its unsigned value is its signed value, below 512.
-/
import proofs.«424226_j75823352644348_3_alg».proof.Pre_finite_inputs
import proofs.«424226_j75823352644348_3_alg».proof.Proof.Gen.Pre_finite_inputs
import proofs.«424226_j75823352644348_3_alg».proof.Proof.Spec
import Idealize.ShloMosaic.Lib.ReduceAll
import Idealize.ShloMosaic.Lib.StableHlo.Predicate

noncomputable section

namespace Cert.Cutout.Pre

open Idealize.ShloMosaic

/-- A scalar array has one index. -/
instance : Subsingleton Cert.Pre_finite_inputs.S_.Idx := ⟨fun a b => funext fun d => d.elim0⟩

/-! ## The precondition over the index arrays -/

open Cert.Pre_finite_inputs in
/-- The printed precondition is: all entries of the image finite, all row indices in [0, 512), all column indices
    in [0, 512), the index arrays being `yidx` of the sizes and of the row (column) offsets. -/
theorem fn_eq [Facts] (x : FVec Ideal S16x3x512x512 .f32) (s ox oy : IVec S32 32) :
    fn (F := Ideal) x s ox oy =
      andi
        (andi
          (Host.reduce IntOp.andi
            (cmpf .olt (Host.absf x)
              (broadcastInDim S16x3x512x512 ![] Facts.bcast_S_S16x3x512x512 (constant (F := Ideal) S_ .f32 0x7F800000#32)))
            (constantI S_ 1 1#1) Facts.reducesTo_S16x3x512x512_S_d0_1_2_3 Facts.h_S_)
          (Host.reduce IntOp.andi
            (andi (cmpi .sge (Cert.Cutout.yidx s oy) (broadcastInDim S32x224 ![] Facts.bcast_S_S32x224 (constantI S_ 32 0#32)))
                  (cmpi .slt (Cert.Cutout.yidx s oy) (broadcastInDim S32x224 ![] Facts.bcast_S_S32x224 (constantI S_ 32 512#32))))
            (constantI S_ 1 1#1) Facts.reducesTo_S32x224_S_d0_1 Facts.h_S_))
        (Host.reduce IntOp.andi
          (andi (cmpi .sge (Cert.Cutout.yidx s ox) (broadcastInDim S32x224 ![] Facts.bcast_S_S32x224 (constantI S_ 32 0#32)))
                (cmpi .slt (Cert.Cutout.yidx s ox) (broadcastInDim S32x224 ![] Facts.bcast_S_S32x224 (constantI S_ 32 512#32))))
          (constantI S_ 1 1#1) Facts.reducesTo_S32x224_S_d0_1 Facts.h_S_) := rfl

/-! ## One entry -/

/-- An extended real whose absolute value is strictly below the value of the bit pattern of plus infinity is a
    real. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- A word in [0, 512) signed is below 512 unsigned. -/
theorem toNat_lt_512 (w : BitVec 32)
    (h : IntOp.andi (IntOp.cmpi .sge w 0#32) (IntOp.cmpi .slt w 512#32) = 1#1) : w.toNat < 512 := by
  obtain ⟨h0, h1⟩ := IntOp.andi_eq_one.1 h
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e512 : (512#32 : BitVec 32).toInt = 512 := by decide
  rw [e0] at h0
  rw [e512] at h1
  have hw := w.isLt
  by_cases hc : 2 * w.toNat < 2 ^ 32
  · rw [BitVec.toInt_eq_toNat_cond, if_pos hc] at h1
    omega
  · rw [BitVec.toInt_eq_toNat_cond, if_neg hc] at h0
    omega

/-! ## The three conjuncts -/

open Cert.Pre_finite_inputs in
/-- All entries finite: every entry is a real. -/
theorem real_of_all [Facts] (x : FVec Ideal S16x3x512x512 .f32)
    (h : Host.reduce IntOp.andi
          (cmpf .olt (Host.absf x)
            (broadcastInDim S16x3x512x512 ![] Facts.bcast_S_S16x3x512x512 (constant (F := Ideal) S_ .f32 0x7F800000#32)))
          (constantI S_ 1 1#1) Facts.reducesTo_S16x3x512x512_S_d0_1_2_3 Facts.h_S_ ValueIdx.ix0 = 1#1)
    (p : S16x3x512x512.Idx) : ∃ r : ℝ, x p = (r : EReal) :=
  real_of_abs_lt (x p) (Host.reduce_andi_all _ _ _ _ _ h p)

open Cert.Pre_finite_inputs in
/-- All entries of an index array in [0, 512) signed: the array is in range. -/
theorem inRange_of_all [Facts] (Y : IVec S32x224 32)
    (h : Host.reduce IntOp.andi
          (andi (cmpi .sge Y (broadcastInDim S32x224 ![] Facts.bcast_S_S32x224 (constantI S_ 32 0#32)))
                (cmpi .slt Y (broadcastInDim S32x224 ![] Facts.bcast_S_S32x224 (constantI S_ 32 512#32))))
          (constantI S_ 1 1#1) Facts.reducesTo_S32x224_S_d0_1 Facts.h_S_ ValueIdx.ix0 = 1#1) :
    Cert.Cutout.InRange Y :=
  fun p => toNat_lt_512 (Y p) (Host.reduce_andi_all _ _ _ _ _ h p)

/-! ## The precondition decoded -/

/-- Under the precondition every entry of the image is a real and both index arrays are in range. -/
theorem decode [Cert.Pre_finite_inputs.Facts] (x : FVec Ideal Cert.Pre_finite_inputs.S16x3x512x512 .f32)
    (s ox oy : IVec Cert.Pre_finite_inputs.S32 32)
    (h : Cert.Pre_finite_inputs.fn (F := Ideal) x s ox oy = fun _ => 1#1) :
    (∀ p, ∃ r : ℝ, x p = (r : EReal)) ∧ Cert.Cutout.InRange (Cert.Cutout.yidx s oy)
      ∧ Cert.Cutout.InRange (Cert.Cutout.yidx s ox) := by
  have e := congrFun h ValueIdx.ix0
  rw [fn_eq] at e
  obtain ⟨hAB, hC⟩ := IntOp.andi_eq_one.1 e
  obtain ⟨hA, hB⟩ := IntOp.andi_eq_one.1 hAB
  exact ⟨real_of_all x hA, inRange_of_all _ hB, inRange_of_all _ hC⟩

end Cert.Cutout.Pre

end
-- ==== Proof.RefTerm.lean ====
/-
  The reference's gather indices, as its host operations build them from the two source-index arrays.

  Each source index is first wrapped (an index below zero has 512 added to it); the row indices are laid along the
  [cutout, i, ·] axes and the column indices along the [cutout, ·, j] axes of a [32, 224, 224] grid; and the two are
  paired into one [32, 224, 224, 2] array of (row, column) start indices for the gather.
-/
import proofs.«424226_j75823352644348_3_alg».proof.Proof.Gen.ReferenceIdeal
import proofs.«424226_j75823352644348_3_alg».proof.Proof.Spec

noncomputable section

namespace Cert.Cutout.Ref

open Idealize.ShloMosaic Cert.ReferenceIdeal Cert.ReferenceIdeal.Facts₀

/-- The row indices wrapped and laid out as a column [32, 224, 1]. -/
def wrapY (Y : IVec S32x224 32) : IVec S32x224x1 32 :=
  let v19 : IVec S32x224x1 32 := broadcastInDim S32x224x1 ![0, 1] bcast_S32x224_S32x224x1_0_1 Y
  let v21 : IVec S32x224x1 32 := broadcastInDim S32x224x1 ![] bcast_S_S32x224x1 (constantI S_ 32 0#32)
  let v23 : IVec S32x224x1 32 := broadcastInDim S32x224x1 ![] bcast_S_S32x224x1 (constantI S_ 32 512#32)
  select (cmpi .slt v19 v21) (addi v19 v23) v19

/-- The column indices wrapped and laid out as a row [32, 1, 224]. -/
def wrapX (Xi : IVec S32x224 32) : IVec S32x1x224 32 :=
  let v20 : IVec S32x1x224 32 := broadcastInDim S32x1x224 ![0, 2] bcast_S32x224_S32x1x224_0_2 Xi
  let v26 : IVec S32x1x224 32 := broadcastInDim S32x1x224 ![] bcast_S_S32x1x224 (constantI S_ 32 0#32)
  let v28 : IVec S32x1x224 32 := broadcastInDim S32x1x224 ![] bcast_S_S32x1x224 (constantI S_ 32 512#32)
  select (cmpi .slt v20 v26) (addi v20 v28) v20

/-- The (row, column) start indices of the gather, [32, 224, 224, 2]. -/
def gidx (Y Xi : IVec S32x224 32) : IVec S32x224x224x2 32 :=
  concatenate S32x224x224x2 3
    [⟨S32x224x224x1, broadcastInDim S32x224x224x1 ![0, 1, 2] bcast_S32x224x224_S32x224x224x1_0_1_2
        (broadcastInDim S32x224x224 ![0, 1, 2] bcast_S32x224x1_S32x224x224_0_1_2 (wrapY Y))⟩,
     ⟨S32x224x224x1, broadcastInDim S32x224x224x1 ![0, 1, 2] bcast_S32x224x224_S32x224x224x1_0_1_2
        (broadcastInDim S32x224x224 ![0, 1, 2] bcast_S32x1x224_S32x224x224_0_1_2 (wrapX Xi))⟩]
    concatenates_S32x224x224x1_S32x224x224x1_S32x224x224x2_d3

/-- What the gather and the transposition leave, [32, 16, 3, 224, 224], from the image array and the index arrays. -/
def gathered (x : FVec Ideal S16x3x512x512 .f32) (Y Xi : IVec S32x224 32) : FVec Ideal S32x16x3x224x224 .f32 :=
  transpose S32x16x3x224x224 [2, 0, 1, 3, 4]
    (Host.gather gather_S16x3x512x512_S32x224x224x2_S16x3x32x224x224_01_23_n_n_23_3_16311 x (gidx Y Xi))
    transposes_S16x3x32x224x224_S32x16x3x224x224_2_0_1_3_4

end Cert.Cutout.Ref

end
-- ==== Proof.RefRun.lean ====
/-
  The reference program's run.

  The reference is a straight line of array operations with no kernel: it builds the two source-index arrays (each
  `offset n + floor((i * size n) / 224)`, the floored quotient computed by a helper function that is called twice and
  is read here with its operations in place at each call), wraps them, pairs them into gather indices, gathers the
  image's pixels, and lays the result out as [cutout * 16 + image, channel, 224, 224].

  Listed as the operations in order, the program's run is read back: every execution ends, the result array holds the
  composition of the operations applied to the four argument arrays, and the arguments are unchanged.
-/
import proofs.«424226_j75823352644348_3_alg».proof.Proof.RefTerm
import Idealize.ShloMosaic.Lib.StableHlo.Run
import Idealize.ShloMosaic.Adequacy
import Idealize.ShloMosaic.Init

noncomputable section

namespace Cert.Cutout.Ref

open Idealize.ShloMosaic Idealize.ShloMosaic.TcCoe Idealize.SL.Sem Idealize.ShloMosaic.StableHlo
open Cert.ReferenceIdeal Cert.ReferenceIdeal.Facts₀

variable {F : FTy → Type} [FloatOps F]

/-- The reference's operations in order, the two calls of the floored-quotient helper read in place: each is the
    helper's sixteen operations and the selection its own helper makes, over that call's own arrays. -/
abbrev ops : List (HloOp τ sig (Elt F)) :=
  [ StableHlo.nullary main_v0 (iotaInDim S224 32 0),
    StableHlo.unary main_arg3 main_v1 (broadcastInDim S32x1 ![0] bcast_S32_S32x1_0 : (⟨S32, .i32⟩ : BufTy).Contents (Elt F) → (⟨S32x1, .i32⟩ : BufTy).Contents (Elt F)),
    StableHlo.unary main_v0 main_v2 (broadcastInDim S1x224 ![1] bcast_S224_S1x224_1 : (⟨S224, .i32⟩ : BufTy).Contents (Elt F) → (⟨S1x224, .i32⟩ : BufTy).Contents (Elt F)),
    StableHlo.unary main_arg1 main_v3 (broadcastInDim S32x1 ![0] bcast_S32_S32x1_0 : (⟨S32, .i32⟩ : BufTy).Contents (Elt F) → (⟨S32x1, .i32⟩ : BufTy).Contents (Elt F)),
    StableHlo.unary main_v2 main_v4 (broadcastInDim S32x224 ![0, 1] bcast_S1x224_S32x224_0_1 : (⟨S1x224, .i32⟩ : BufTy).Contents (Elt F) → (⟨S32x224, .i32⟩ : BufTy).Contents (Elt F)),
    StableHlo.unary main_v3 main_v5 (broadcastInDim S32x224 ![0, 1] bcast_S32x1_S32x224_0_1 : (⟨S32x1, .i32⟩ : BufTy).Contents (Elt F) → (⟨S32x224, .i32⟩ : BufTy).Contents (Elt F)),
    StableHlo.binary main_v4 main_v5 main_v6 (muli : (⟨S32x224, .i32⟩ : BufTy).Contents (Elt F) → (⟨S32x224, .i32⟩ : BufTy).Contents (Elt F) → (⟨S32x224, .i32⟩ : BufTy).Contents (Elt F)),
    StableHlo.nullary main_c (constantI S_ 32 224#32),
    StableHlo.TRef.unary (.of main_c) main_call0.v0 id,
    StableHlo.TRef.unary main_call0.v0 main_call0.v1 (broadcastInDim S32x224 ![] bcast_S_S32x224),
    StableHlo.TRef.binary (.of main_v6) main_call0.v1 main_call0.v2 Host.divsi,
    StableHlo.TRef.unary (.of main_v6) main_call0.v3 signi,
    StableHlo.TRef.unary main_call0.v0 main_call0.v4 signi,
    StableHlo.TRef.unary main_call0.v4 main_call0.v5 (broadcastInDim S32x224 ![] bcast_S_S32x224),
    StableHlo.TRef.binary main_call0.v3 main_call0.v5 main_call0.v6 (cmpi .ne),
    StableHlo.TRef.unary main_call0.v0 main_call0.v7 (broadcastInDim S32x224 ![] bcast_S_S32x224),
    StableHlo.TRef.binary (.of main_v6) main_call0.v7 main_call0.v8 Host.remsi,
    StableHlo.TRef.nullary main_call0.c (constantI S_ 32 0#32),
    StableHlo.TRef.unary main_call0.c main_call0.v9 (broadcastInDim S32x224 ![] bcast_S_S32x224),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S32x224 ![] bcast_S_S32x224),
    StableHlo.TRef.binary main_call0.v2 main_call0.v12 main_call0.v13 subi,
    StableHlo.TRef.ternary main_call0.v11 main_call0.v13 main_call0.v2 main_call0.call0.v0 select,
    StableHlo.unary main_v1 main_v8 (broadcastInDim S32x224 ![0, 1] bcast_S32x1_S32x224_0_1 : (⟨S32x1, .i32⟩ : BufTy).Contents (Elt F) → (⟨S32x224, .i32⟩ : BufTy).Contents (Elt F)),
    StableHlo.binary main_v8 main_v7 main_v9 (addi : (⟨S32x224, .i32⟩ : BufTy).Contents (Elt F) → (⟨S32x224, .i32⟩ : BufTy).Contents (Elt F) → (⟨S32x224, .i32⟩ : BufTy).Contents (Elt F)),
    StableHlo.unary main_arg2 main_v10 (broadcastInDim S32x1 ![0] bcast_S32_S32x1_0 : (⟨S32, .i32⟩ : BufTy).Contents (Elt F) → (⟨S32x1, .i32⟩ : BufTy).Contents (Elt F)),
    StableHlo.unary main_v0 main_v11 (broadcastInDim S1x224 ![1] bcast_S224_S1x224_1 : (⟨S224, .i32⟩ : BufTy).Contents (Elt F) → (⟨S1x224, .i32⟩ : BufTy).Contents (Elt F)),
    StableHlo.unary main_arg1 main_v12 (broadcastInDim S32x1 ![0] bcast_S32_S32x1_0 : (⟨S32, .i32⟩ : BufTy).Contents (Elt F) → (⟨S32x1, .i32⟩ : BufTy).Contents (Elt F)),
    StableHlo.unary main_v11 main_v13 (broadcastInDim S32x224 ![0, 1] bcast_S1x224_S32x224_0_1 : (⟨S1x224, .i32⟩ : BufTy).Contents (Elt F) → (⟨S32x224, .i32⟩ : BufTy).Contents (Elt F)),
    StableHlo.unary main_v12 main_v14 (broadcastInDim S32x224 ![0, 1] bcast_S32x1_S32x224_0_1 : (⟨S32x1, .i32⟩ : BufTy).Contents (Elt F) → (⟨S32x224, .i32⟩ : BufTy).Contents (Elt F)),
    StableHlo.binary main_v13 main_v14 main_v15 (muli : (⟨S32x224, .i32⟩ : BufTy).Contents (Elt F) → (⟨S32x224, .i32⟩ : BufTy).Contents (Elt F) → (⟨S32x224, .i32⟩ : BufTy).Contents (Elt F)),
    StableHlo.nullary main_c_0 (constantI S_ 32 224#32),
    StableHlo.TRef.unary (.of main_c_0) main_call1.v0 id,
    StableHlo.TRef.unary main_call1.v0 main_call1.v1 (broadcastInDim S32x224 ![] bcast_S_S32x224),
    StableHlo.TRef.binary (.of main_v15) main_call1.v1 main_call1.v2 Host.divsi,
    StableHlo.TRef.unary (.of main_v15) main_call1.v3 signi,
    StableHlo.TRef.unary main_call1.v0 main_call1.v4 signi,
    StableHlo.TRef.unary main_call1.v4 main_call1.v5 (broadcastInDim S32x224 ![] bcast_S_S32x224),
    StableHlo.TRef.binary main_call1.v3 main_call1.v5 main_call1.v6 (cmpi .ne),
    StableHlo.TRef.unary main_call1.v0 main_call1.v7 (broadcastInDim S32x224 ![] bcast_S_S32x224),
    StableHlo.TRef.binary (.of main_v15) main_call1.v7 main_call1.v8 Host.remsi,
    StableHlo.TRef.nullary main_call1.c (constantI S_ 32 0#32),
    StableHlo.TRef.unary main_call1.c main_call1.v9 (broadcastInDim S32x224 ![] bcast_S_S32x224),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S32x224 ![] bcast_S_S32x224),
    StableHlo.TRef.binary main_call1.v2 main_call1.v12 main_call1.v13 subi,
    StableHlo.TRef.ternary main_call1.v11 main_call1.v13 main_call1.v2 main_call1.call0.v0 select,
    StableHlo.unary main_v10 main_v17 (broadcastInDim S32x224 ![0, 1] bcast_S32x1_S32x224_0_1 : (⟨S32x1, .i32⟩ : BufTy).Contents (Elt F) → (⟨S32x224, .i32⟩ : BufTy).Contents (Elt F)),
    StableHlo.binary main_v17 main_v16 main_v18 (addi : (⟨S32x224, .i32⟩ : BufTy).Contents (Elt F) → (⟨S32x224, .i32⟩ : BufTy).Contents (Elt F) → (⟨S32x224, .i32⟩ : BufTy).Contents (Elt F)),
    StableHlo.unary main_v9 main_v19 (broadcastInDim S32x224x1 ![0, 1] bcast_S32x224_S32x224x1_0_1 : (⟨S32x224, .i32⟩ : BufTy).Contents (Elt F) → (⟨S32x224x1, .i32⟩ : BufTy).Contents (Elt F)),
    StableHlo.unary main_v18 main_v20 (broadcastInDim S32x1x224 ![0, 2] bcast_S32x224_S32x1x224_0_2 : (⟨S32x224, .i32⟩ : BufTy).Contents (Elt F) → (⟨S32x1x224, .i32⟩ : BufTy).Contents (Elt F)),
    StableHlo.nullary main_c_1 (constantI S_ 32 0#32),
    StableHlo.unary main_c_1 main_v21 (broadcastInDim S32x224x1 ![] bcast_S_S32x224x1 : (⟨S_, .i32⟩ : BufTy).Contents (Elt F) → (⟨S32x224x1, .i32⟩ : BufTy).Contents (Elt F)),
    StableHlo.binary main_v19 main_v21 main_v22 (cmpi .slt : (⟨S32x224x1, .i32⟩ : BufTy).Contents (Elt F) → (⟨S32x224x1, .i32⟩ : BufTy).Contents (Elt F) → (⟨S32x224x1, .i1⟩ : BufTy).Contents (Elt F)),
    StableHlo.nullary main_c_2 (constantI S_ 32 512#32),
    StableHlo.unary main_c_2 main_v23 (broadcastInDim S32x224x1 ![] bcast_S_S32x224x1 : (⟨S_, .i32⟩ : BufTy).Contents (Elt F) → (⟨S32x224x1, .i32⟩ : BufTy).Contents (Elt F)),
    StableHlo.binary main_v19 main_v23 main_v24 (addi : (⟨S32x224x1, .i32⟩ : BufTy).Contents (Elt F) → (⟨S32x224x1, .i32⟩ : BufTy).Contents (Elt F) → (⟨S32x224x1, .i32⟩ : BufTy).Contents (Elt F)),
    StableHlo.ternary main_v22 main_v24 main_v19 main_v25 (select : (⟨S32x224x1, .i1⟩ : BufTy).Contents (Elt F) → (⟨S32x224x1, .i32⟩ : BufTy).Contents (Elt F) → (⟨S32x224x1, .i32⟩ : BufTy).Contents (Elt F) → (⟨S32x224x1, .i32⟩ : BufTy).Contents (Elt F)),
    StableHlo.nullary main_c_3 (constantI S_ 32 0#32),
    StableHlo.unary main_c_3 main_v26 (broadcastInDim S32x1x224 ![] bcast_S_S32x1x224 : (⟨S_, .i32⟩ : BufTy).Contents (Elt F) → (⟨S32x1x224, .i32⟩ : BufTy).Contents (Elt F)),
    StableHlo.binary main_v20 main_v26 main_v27 (cmpi .slt : (⟨S32x1x224, .i32⟩ : BufTy).Contents (Elt F) → (⟨S32x1x224, .i32⟩ : BufTy).Contents (Elt F) → (⟨S32x1x224, .i1⟩ : BufTy).Contents (Elt F)),
    StableHlo.nullary main_c_4 (constantI S_ 32 512#32),
    StableHlo.unary main_c_4 main_v28 (broadcastInDim S32x1x224 ![] bcast_S_S32x1x224 : (⟨S_, .i32⟩ : BufTy).Contents (Elt F) → (⟨S32x1x224, .i32⟩ : BufTy).Contents (Elt F)),
    StableHlo.binary main_v20 main_v28 main_v29 (addi : (⟨S32x1x224, .i32⟩ : BufTy).Contents (Elt F) → (⟨S32x1x224, .i32⟩ : BufTy).Contents (Elt F) → (⟨S32x1x224, .i32⟩ : BufTy).Contents (Elt F)),
    StableHlo.ternary main_v27 main_v29 main_v20 main_v30 (select : (⟨S32x1x224, .i1⟩ : BufTy).Contents (Elt F) → (⟨S32x1x224, .i32⟩ : BufTy).Contents (Elt F) → (⟨S32x1x224, .i32⟩ : BufTy).Contents (Elt F) → (⟨S32x1x224, .i32⟩ : BufTy).Contents (Elt F)),
    StableHlo.unary main_v25 main_v31 (broadcastInDim S32x224x224 ![0, 1, 2] bcast_S32x224x1_S32x224x224_0_1_2 : (⟨S32x224x1, .i32⟩ : BufTy).Contents (Elt F) → (⟨S32x224x224, .i32⟩ : BufTy).Contents (Elt F)),
    StableHlo.unary main_v30 main_v32 (broadcastInDim S32x224x224 ![0, 1, 2] bcast_S32x1x224_S32x224x224_0_1_2 : (⟨S32x1x224, .i32⟩ : BufTy).Contents (Elt F) → (⟨S32x224x224, .i32⟩ : BufTy).Contents (Elt F)),
    StableHlo.unary main_v31 main_v33 (broadcastInDim S32x224x224x1 ![0, 1, 2] bcast_S32x224x224_S32x224x224x1_0_1_2 : (⟨S32x224x224, .i32⟩ : BufTy).Contents (Elt F) → (⟨S32x224x224x1, .i32⟩ : BufTy).Contents (Elt F)),
    StableHlo.unary main_v32 main_v34 (broadcastInDim S32x224x224x1 ![0, 1, 2] bcast_S32x224x224_S32x224x224x1_0_1_2 : (⟨S32x224x224, .i32⟩ : BufTy).Contents (Elt F) → (⟨S32x224x224x1, .i32⟩ : BufTy).Contents (Elt F)),
    StableHlo.binary main_v33 main_v34 main_v35 ((fun a b => concatenate S32x224x224x2 3 [⟨S32x224x224x1, a⟩, ⟨S32x224x224x1, b⟩] concatenates_S32x224x224x1_S32x224x224x1_S32x224x224x2_d3) : (⟨S32x224x224x1, .i32⟩ : BufTy).Contents (Elt F) → (⟨S32x224x224x1, .i32⟩ : BufTy).Contents (Elt F) → (⟨S32x224x224x2, .i32⟩ : BufTy).Contents (Elt F)),
    StableHlo.binary main_arg0 main_v35 main_v36 ((fun x i => Host.gather gather_S16x3x512x512_S32x224x224x2_S16x3x32x224x224_01_23_n_n_23_3_16311 x i) : (⟨S16x3x512x512, .f32⟩ : BufTy).Contents (Elt F) → (⟨S32x224x224x2, .i32⟩ : BufTy).Contents (Elt F) → (⟨S16x3x32x224x224, .f32⟩ : BufTy).Contents (Elt F)),
    StableHlo.unary main_v36 main_v37 ((transpose S32x16x3x224x224 [2, 0, 1, 3, 4] · transposes_S16x3x32x224x224_S32x16x3x224x224_2_0_1_3_4) : (⟨S16x3x32x224x224, .f32⟩ : BufTy).Contents (Elt F) → (⟨S32x16x3x224x224, .f32⟩ : BufTy).Contents (Elt F)),
    StableHlo.reshape main_v37 main_v38 rfl shapeCasts_S32x16x3x224x224_S512x3x224x224 ]

/-- The reference is that straight line: with the helpers' bodies put in place of their calls, both sides are one chain
    of operation steps, by computation. -/
theorem main_eq (c : Dev nD) : main (F := F) c = seq ops := rfl

/-- No array of the program is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches arrays of the device only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..,
    unary_bufs_sub .., unary_bufs_sub .., binary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., binary_bufs_sub .., binary_bufs_sub .., unary_bufs_sub .., reshape_bufs_sub ..⟩

/-! ## What the arrays hold after the line

The contents after the operations are a fold over the list: each operation rewrites the array it defines and leaves
the others. At a given array the fold computes: every operation either defines that array, and then its value is the
operation's function of the arrays it reads, or it does not, and then the value is the one before. -/

-- the array operations are kept folded while the fold is computed: the equation is between two compositions of the
-- SAME operations, and nothing in it looks inside one
attribute [local irreducible] Host.gather transpose shapeCast concatenate broadcastInDim select cmpi addi muli subi andi
  signi Host.divsi Host.remsi constantI iotaInDim in
set_option maxRecDepth 8192 in
set_option maxHeartbeats 1000000 in
/-- The result array after the line: the image gathered at the two source-index arrays — the row indices built from the
    sizes and the row offsets, the column indices from the sizes and the column offsets — and read as
    [cutout * 16 + image, channel, 224, 224]. The index arrays the line builds are the common vocabulary's, operation
    for operation (the helper's conversion of its divisor to its own type is the identity); the wrapped, paired and
    gathered arrays are the ones named beside the program. -/
theorem out_eq (V : Valuation τ sig (Elt Ideal)) :
    after ops V (main_v38 : DevRef τ sig)
      = shapeCast S512x3x224x224
          (gathered (V (main_arg0 : DevRef τ sig))
            (Cert.Cutout.yidx (V (main_arg1 : DevRef τ sig)) (V (main_arg3 : DevRef τ sig)))
            (Cert.Cutout.yidx (V (main_arg1 : DevRef τ sig)) (V (main_arg2 : DevRef τ sig))))
          shapeCasts_S32x16x3x224x224_S512x3x224x224 := by
  simp only [after_cons, after_nil]
  rfl

/-- No operation defines an argument array: each holds after the line what it held before. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-! ## The run -/

/-- From any memory with zero counters, every weakly fair execution of the reference terminates; the result array then
    holds the image gathered at the two source-index arrays, laid out as [cutout * 16 + image, channel, 224, 224], and
    the four argument arrays hold what they held. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
        = shapeCast S512x3x224x224
            (gathered (m ((c.tc : Thread nD τ).loc main_arg0))
              (Cert.Cutout.yidx (m ((c.tc : Thread nD τ).loc main_arg1)) (m ((c.tc : Thread nD τ).loc main_arg3)))
              (Cert.Cutout.yidx (m ((c.tc : Thread nD τ).loc main_arg1)) (m ((c.tc : Thread nD τ).loc main_arg2))))
            shapeCasts_S32x16x3x224x224_S512x3x224x224
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c main_v38).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.Cutout.Ref

end
-- ==== Proof.RefValue.lean ====
/-
  The reference's gather read at one result index.

  The reference pairs the wrapped row and column indices into a [32, 224, 224, 2] array of start indices, gathers
  one pixel of every image and channel at each (cutout, i, j), and moves the cutout axis to the front.  Read at
  the result index (n, b, ch, i, j):

  * the transposition reads the gather's result at (b, ch, n, i, j);
  * the gather reads the image array at (b, ch, r, c), where r and c are the two start indices stored at
    (n, i, j, 0) and (n, i, j, 1), each read as a signed integer and clamped into [0, 511]: the axes 0 and 1 are
    offset axes whose slice is the whole axis, the axes 2 and 3 are collapsed and indexed;
  * the start index at (n, i, j, 0) is the wrapped row index of (n, i) and the one at (n, i, j, 1) the wrapped
    column index of (n, j): the concatenation along the last axis reads its first piece at position 0 and its
    second piece at position 1, and each piece is constant along the axis it was broadcast over;
  * for an index in [0, 512) the wrap (add 512 below zero) and the clamp are both the identity, so r is the row
    and c the column the two source indices name.
-/
import proofs.«424226_j75823352644348_3_alg».proof.Proof.RefTerm
import Idealize.ShloMosaic.Lib.ValueIdx
import Idealize.ShloMosaic.Lib.ValueLayout
import Idealize.ShloMosaic.Lib.Pipeline.Value

noncomputable section

namespace Cert.Cutout.Ref

open Idealize.ShloMosaic Idealize.ShloMosaic.ValueIdx Cert.ReferenceIdeal Cert.ReferenceIdeal.Facts₀

/-! ## Words: an index in [0, 512) is not negative, so wrapping and clamping leave it alone -/

/-- A 32-bit word whose unsigned value is below 512 has that value when read signed. -/
private theorem toInt_of_lt {v : BitVec 32} (h : v.toNat < 512) : v.toInt = (v.toNat : Int) := by
  rw [BitVec.toInt_eq_toNat_cond]
  split <;> omega

/-- The wrap "add 512 to an index below zero" leaves an index in [0, 512) alone. -/
private theorem wrap_word {v : BitVec 32} (h : v.toNat < 512) :
    Scalar.select (IntOp.cmpi .slt v 0#32) (IntOp.addi v 512#32) v = v := by
  have hlt : v.slt 0#32 = false := by
    simp only [BitVec.slt, BitVec.toInt_zero, decide_eq_false_iff_not, Int.not_lt]
    rw [toInt_of_lt h]
    omega
  have hc : IntOp.cmpi .slt v 0#32 = 0#1 := by
    show BitVec.ofBool (v.slt 0#32) = 0#1
    rw [hlt]
    rfl
  rw [hc, select_zero]

/-- The clamp into [0, 511] of an index in [0, 512), read signed, is its unsigned value. -/
private theorem clamp_word {v : BitVec 32} (h : v.toNat < 512) : min v.toInt.toNat 511 = v.toNat := by
  rw [toInt_of_lt h, Int.toNat_natCast]
  omega

/-! ## The wrapped indices at an index -/

/-- The wrapped row indices at (n, i, ·): the row index of (n, i). -/
theorem wrapY_apply (Y : IVec S32x224 32) (hY : Cert.Cutout.InRange Y) (n : Fin 32) (i : Fin 224) (c : Fin 1) :
    wrapY Y (ix3 n i c) = Y (ix2 n i) := by
  have hb : broadcastInDim S32x224x1 ![0, 1] bcast_S32x224_S32x224x1_0_1 Y (ix3 n i c) = Y (ix2 n i) :=
    broadcastInDim_apply _ _ _ _ (ix2 n i) (fun a => by
      match a with
      | ⟨0, _⟩ => rfl
      | ⟨1, _⟩ => rfl)
  show Scalar.select
      (IntOp.cmpi .slt (broadcastInDim S32x224x1 ![0, 1] bcast_S32x224_S32x224x1_0_1 Y (ix3 n i c)) 0#32)
      (IntOp.addi (broadcastInDim S32x224x1 ![0, 1] bcast_S32x224_S32x224x1_0_1 Y (ix3 n i c)) 512#32)
      (broadcastInDim S32x224x1 ![0, 1] bcast_S32x224_S32x224x1_0_1 Y (ix3 n i c)) = _
  rw [hb]
  exact wrap_word (hY _)

/-- The wrapped column indices at (n, ·, j): the column index of (n, j). -/
theorem wrapX_apply (Xi : IVec S32x224 32) (hX : Cert.Cutout.InRange Xi) (n : Fin 32) (c : Fin 1) (j : Fin 224) :
    wrapX Xi (ix3 n c j) = Xi (ix2 n j) := by
  have hb : broadcastInDim S32x1x224 ![0, 2] bcast_S32x224_S32x1x224_0_2 Xi (ix3 n c j) = Xi (ix2 n j) :=
    broadcastInDim_apply _ _ _ _ (ix2 n j) (fun a => by
      match a with
      | ⟨0, _⟩ => rfl
      | ⟨1, _⟩ => rfl)
  show Scalar.select
      (IntOp.cmpi .slt (broadcastInDim S32x1x224 ![0, 2] bcast_S32x224_S32x1x224_0_2 Xi (ix3 n c j)) 0#32)
      (IntOp.addi (broadcastInDim S32x1x224 ![0, 2] bcast_S32x224_S32x1x224_0_2 Xi (ix3 n c j)) 512#32)
      (broadcastInDim S32x1x224 ![0, 2] bcast_S32x224_S32x1x224_0_2 Xi (ix3 n c j)) = _
  rw [hb]
  exact wrap_word (hX _)

/-! ## The start indices at an index -/

/-- The start index stored at (n, i, j, 0) is the wrapped row index of (n, i). -/
theorem gidx_row (Y Xi : IVec S32x224 32) (n : Fin 32) (i j : Fin 224) :
    gidx Y Xi (ix4 n i j (0 : Fin 2)) = wrapY Y (ix3 n i (0 : Fin 1)) := by
  unfold gidx
  rw [concatenate_pair_apply_left (s₁ := S32x224x224x1) (s₂ := S32x224x224x1) (3 : Fin 4) _ _ _ (ix4 n i j (0 : Fin 2)) rfl (ix4 n i j (0 : Fin 1)) (fun b => by
      match b with
      | ⟨0, _⟩ => rfl
      | ⟨1, _⟩ => rfl
      | ⟨2, _⟩ => rfl
      | ⟨3, _⟩ => rfl)]
  rw [broadcastInDim_apply _ _ _ (ix4 n i j (0 : Fin 1)) (ix3 n i j) (fun a => by
      match a with
      | ⟨0, _⟩ => rfl
      | ⟨1, _⟩ => rfl
      | ⟨2, _⟩ => rfl)]
  exact broadcastInDim_apply _ _ _ (ix3 n i j) (ix3 n i (0 : Fin 1)) (fun a => by
      match a with
      | ⟨0, _⟩ => rfl
      | ⟨1, _⟩ => rfl
      | ⟨2, _⟩ => rfl)

/-- The start index stored at (n, i, j, 1) is the wrapped column index of (n, j). -/
theorem gidx_col (Y Xi : IVec S32x224 32) (n : Fin 32) (i j : Fin 224) :
    gidx Y Xi (ix4 n i j (1 : Fin 2)) = wrapX Xi (ix3 n (0 : Fin 1) j) := by
  unfold gidx
  rw [concatenate_pair_apply_right (s₁ := S32x224x224x1) (s₂ := S32x224x224x1) (3 : Fin 4) _ _ _ (ix4 n i j (1 : Fin 2)) rfl rfl (ix4 n i j (0 : Fin 1)) (fun b hb => by
      match b with
      | ⟨0, _⟩ => rfl
      | ⟨1, _⟩ => rfl
      | ⟨2, _⟩ => rfl
      | ⟨3, _⟩ => exact absurd rfl hb) rfl]
  rw [broadcastInDim_apply _ _ _ (ix4 n i j (0 : Fin 1)) (ix3 n i j) (fun a => by
      match a with
      | ⟨0, _⟩ => rfl
      | ⟨1, _⟩ => rfl
      | ⟨2, _⟩ => rfl)]
  exact broadcastInDim_apply _ _ _ (ix3 n i j) (ix3 n (0 : Fin 1) j) (fun a => by
      match a with
      | ⟨0, _⟩ => rfl
      | ⟨1, _⟩ => rfl
      | ⟨2, _⟩ => rfl)

/-! ## The gather at an index -/

/-- The gather's dimension numbers, under a short name. -/
private abbrev gd : GatherDims S16x3x512x512 S32x224x224x2 S16x3x32x224x224 :=
  gather_S16x3x512x512_S32x224x224x2_S16x3x32x224x224_01_23_n_n_23_3_16311

/-- The gather at (b, ch, n, i, j) reads the image array at (b, ch, r, c): b and ch are the offset coordinates on
    the two axes whose slice is the whole axis, and r, c are the start indices stored at (n, i, j, 0) and
    (n, i, j, 1), read signed and clamped into [0, 511]. -/
theorem gather_apply (x : FVec Ideal S16x3x512x512 .f32) (idx : IVec S32x224x224x2 32)
    (b : Fin 16) (ch : Fin 3) (n : Fin 32) (i j : Fin 224) :
    Host.gather gather_S16x3x512x512_S32x224x224x2_S16x3x32x224x224_01_23_n_n_23_3_16311 x idx (ix5 b ch n i j)
      = x (ix4 b ch
          (⟨min (idx (ix4 n i j (0 : Fin 2))).toInt.toNat 511, by omega⟩ : Fin 512)
          (⟨min (idx (ix4 n i j (1 : Fin 2))).toInt.toNat 511, by omega⟩ : Fin 512)) := by
  unfold Host.gather
  congr 1
  funext a
  refine Fin.ext ?_
  match a with
  | ⟨0, _⟩ =>
    show GatherDims.start gd (ix5 b ch n i j) idx (0 : Fin 4) + GatherDims.batchCoord gd (ix5 b ch n i j) (0 : Fin 4)
      + GatherDims.offCoord gd (ix5 b ch n i j) (0 : Fin 4) = b.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start gd (ix5 b ch n i j) idx (1 : Fin 4) + GatherDims.batchCoord gd (ix5 b ch n i j) (1 : Fin 4)
      + GatherDims.offCoord gd (ix5 b ch n i j) (1 : Fin 4) = ch.val
    rw [GatherDims.batchCoord_eq_zero _ _ _ List.not_mem_nil]
    unfold GatherDims.start GatherDims.offCoord
    rw [dif_neg (by decide), dif_pos (by decide)]
    simp only [Nat.zero_add, Nat.add_zero]
    rfl
  | ⟨2, _⟩ =>
    show GatherDims.start gd (ix5 b ch n i j) idx (2 : Fin 4) + GatherDims.batchCoord gd (ix5 b ch n i j) (2 : Fin 4)
      + GatherDims.offCoord gd (ix5 b ch n i j) (2 : Fin 4) = min (idx (ix4 n i j (0 : Fin 2))).toInt.toNat 511
    rw [GatherDims.batchCoord_eq_zero _ _ _ List.not_mem_nil]
    unfold GatherDims.start GatherDims.offCoord
    rw [dif_pos (by decide), dif_neg (by decide)]
    simp only [Nat.add_zero]
    have hsi : GatherDims.siIdx gd (ix5 b ch n i j)
        ⟨List.idxOf (2 : Fin 4) gd.startIndexMap, List.idxOf_lt_length_iff.2 (by decide)⟩ = ix4 n i j (0 : Fin 2) := by
      funext c
      refine Fin.ext ?_
      match c with
      | ⟨0, _⟩ => rfl
      | ⟨1, _⟩ => rfl
      | ⟨2, _⟩ => rfl
      | ⟨3, _⟩ => rfl
    rw [hsi]
    rfl
  | ⟨3, _⟩ =>
    show GatherDims.start gd (ix5 b ch n i j) idx (3 : Fin 4) + GatherDims.batchCoord gd (ix5 b ch n i j) (3 : Fin 4)
      + GatherDims.offCoord gd (ix5 b ch n i j) (3 : Fin 4) = min (idx (ix4 n i j (1 : Fin 2))).toInt.toNat 511
    rw [GatherDims.batchCoord_eq_zero _ _ _ List.not_mem_nil]
    unfold GatherDims.start GatherDims.offCoord
    rw [dif_pos (by decide), dif_neg (by decide)]
    simp only [Nat.add_zero]
    have hsi : GatherDims.siIdx gd (ix5 b ch n i j)
        ⟨List.idxOf (3 : Fin 4) gd.startIndexMap, List.idxOf_lt_length_iff.2 (by decide)⟩ = ix4 n i j (1 : Fin 2) := by
      funext c
      refine Fin.ext ?_
      match c with
      | ⟨0, _⟩ => rfl
      | ⟨1, _⟩ => rfl
      | ⟨2, _⟩ => rfl
      | ⟨3, _⟩ => rfl
    rw [hsi]
    rfl

/-! ## The transposition, and the whole reading -/

/-- The transposed gather at (n, b, ch, i, j) is the gather at (b, ch, n, i, j). -/
theorem gathered_apply (x : FVec Ideal S16x3x512x512 .f32) (Y Xi : IVec S32x224 32)
    (n : Fin 32) (b : Fin 16) (ch : Fin 3) (i j : Fin 224) :
    gathered x Y Xi (ix5 n b ch i j)
      = Host.gather gather_S16x3x512x512_S32x224x224x2_S16x3x32x224x224_01_23_n_n_23_3_16311 x (gidx Y Xi)
          (ix5 b ch n i j) := by
  unfold gathered
  exact transpose_apply _ _ _ (ix5 n b ch i j) (ix5 b ch n i j) (fun a => by
    match a with
    | ⟨0, _⟩ => rfl
    | ⟨1, _⟩ => rfl
    | ⟨2, _⟩ => rfl
    | ⟨3, _⟩ => rfl
    | ⟨4, _⟩ => rfl)

/-- Pixel (i, j) of cutout n, image b, channel ch of the reference's gather: the image's pixel at the row the row
    index of (n, i) names and the column the column index of (n, j) names. -/
theorem gathered_at (x : FVec Ideal S16x3x512x512 .f32) (Y Xi : IVec S32x224 32)
    (hY : Cert.Cutout.InRange Y) (hX : Cert.Cutout.InRange Xi)
    (n : Fin 32) (b : Fin 16) (ch : Fin 3) (i j : Fin 224) :
    gathered x Y Xi (ix5 n b ch i j) = x (ix4 b ch (Cert.Cutout.rowOf Y n i) (Cert.Cutout.rowOf Xi n j)) := by
  rw [gathered_apply, gather_apply]
  have hr : (⟨min (gidx Y Xi (ix4 n i j (0 : Fin 2))).toInt.toNat 511, by omega⟩ : Fin 512) = Cert.Cutout.rowOf Y n i := by
    refine Fin.ext ?_
    rw [Cert.Cutout.rowOf_val hY]
    show min (gidx Y Xi (ix4 n i j (0 : Fin 2))).toInt.toNat 511 = _
    rw [gidx_row, wrapY_apply Y hY]
    exact clamp_word (hY _)
  have hc : (⟨min (gidx Y Xi (ix4 n i j (1 : Fin 2))).toInt.toNat 511, by omega⟩ : Fin 512) = Cert.Cutout.rowOf Xi n j := by
    refine Fin.ext ?_
    rw [Cert.Cutout.rowOf_val hX]
    show min (gidx Y Xi (ix4 n i j (1 : Fin 2))).toInt.toNat 511 = _
    rw [gidx_col, wrapX_apply Xi hX]
    exact clamp_word (hX _)
  rw [hr, hc]

/-- **The reference's gather, transposed, is the selection of the image's pixels by the two index arrays.** -/
theorem gathered_eq (x : FVec Ideal S16x3x512x512 .f32) (Y Xi : IVec S32x224 32)
    (hY : Cert.Cutout.InRange Y) (hX : Cert.Cutout.InRange Xi) :
    (gathered x Y Xi : Cert.Cutout.SO5.Idx → EReal) = Cert.Cutout.Out5 x Y Xi := by
  funext p
  rw [eq_ix5 p]
  exact gathered_at x Y Xi hY hX (p 0) (p 1) (p 2) (p 3) (p 4)

end Cert.Cutout.Ref

end
-- ==== Proof.lean ====
/-
  The certificate of the cutout kernel against its gather reference, over the extended reals.

  For each of 32 cutouts and each of the 16 x 3 images, both programs produce a 224 x 224 nearest-neighbour resize of
  a crop window of a 512 x 512 image: output pixel (i, j) of cutout n is the image's pixel at row
  offsety n + (i * size n) / 224 and column offsetx n + (j * size n) / 224 (32-bit integers, the quotient rounded
  towards minus infinity).  The reference gathers those pixels directly.  The kernel builds, on the host, a one-hot
  row selector and a one-hot column selector from the same indices and, per grid point (image, group of four
  cutouts), multiplies the selectors into the image split into a high part and a low part, adding the two products.

  The claim is stated under the precondition that the image entries are finite and that every source index lies in
  [0, 512), the range of the axis it indexes in the reference's gather.  Under it:

  * each selector row has exactly one one, so a product with it is a sum with one surviving term: it selects;
  * at the ideal instance a change of float format is the identity, so the high part is the image itself and the low
    part is the image minus itself, which is zero because the entries are finite; the low products add zero;
  * the reference's wrap of negative indices and the gather's clamp are the identity on indices in range.

  So both programs end with the same selection of the image (Cert.Cutout.Res).  The three frames: the kernel's two are
  its generated frame certificates; the reference's is its run with the result dropped.  The idealization replaced
  three round trips through the narrower format by the identity; each is the rule's statement.
-/
import proofs.«424226_j75823352644348_3_alg».proof.Defs
import proofs.«424226_j75823352644348_3_alg».proof.Proof.Gen.Kernel
import proofs.«424226_j75823352644348_3_alg».proof.Proof.Gen.Kernel.Skeleton
import proofs.«424226_j75823352644348_3_alg».proof.Proof.Gen.Kernel.Launch
import proofs.«424226_j75823352644348_3_alg».proof.Proof.Gen.Kernel.Points
import proofs.«424226_j75823352644348_3_alg».proof.Proof.Gen.Kernel.Frame
import proofs.«424226_j75823352644348_3_alg».proof.Proof.Gen.KernelIdeal
import proofs.«424226_j75823352644348_3_alg».proof.Proof.Gen.KernelIdeal.Skeleton
import proofs.«424226_j75823352644348_3_alg».proof.Proof.Gen.KernelIdeal.Launch
import proofs.«424226_j75823352644348_3_alg».proof.Proof.Gen.KernelIdeal.Points
import proofs.«424226_j75823352644348_3_alg».proof.Proof.Gen.KernelIdeal.Frame
import proofs.«424226_j75823352644348_3_alg».proof.Proof.Gen.ReferenceIdeal
import proofs.«424226_j75823352644348_3_alg».proof.Proof.Gen.Pre_finite_inputs
import proofs.«424226_j75823352644348_3_alg».proof.Proof.KValue
import proofs.«424226_j75823352644348_3_alg».proof.Proof.PreDecode
import proofs.«424226_j75823352644348_3_alg».proof.Proof.RefRun
import proofs.«424226_j75823352644348_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.Cutout.Ref.run m ρ)

/-- The three rewrites of the idealization: a value narrowed to the 16-bit format and widened back is the value. -/
theorem preserves : Cert.preserves_Kernel_KernelIdeal :=
  ⟨IdealRules.truncf_extf.statement Cert.KernelIdeal.S512x512 .f32 .bf16,
   IdealRules.truncf_extf.statement Cert.KernelIdeal.S512x512 .f32 .bf16,
   IdealRules.truncf_extf.statement Cert.KernelIdeal.S512x512 .f32 .bf16⟩

/-- Both programs end with the selection `Res` of the image by the two source-index arrays: the kernel's run, and
    the reference's run whose gather reads the same entries. -/
theorem algebraic : Cert.algebraic_KernelIdeal_ReferenceIdeal := by
  intro m ρ m' ρ' hpre hagree
  have hd := fun c => Cert.Cutout.Pre.decode _ _ _ _ (hpre c)
  refine ⟨fun c => Cert.Cutout.Res (Cert.KernelIdeal.Value.xA m c) (Cert.KernelIdeal.Value.yA m c) (Cert.KernelIdeal.Value.xiA m c),
    Cert.KernelIdeal.Value.run m ρ (fun c => (hd c).1) (fun c => (hd c).2.1) (fun c => (hd c).2.2), ?_⟩
  refine (θ_run Cert.ReferenceIdeal.defs _ _).mono (fun _ h c => ⟨(h c).1.trans ?_, (h c).2⟩) (Cert.Cutout.Ref.run m' ρ')
  rw [(hagree c).1, (hagree c).2.1, (hagree c).2.2.1, (hagree c).2.2.2]
  rw [Cert.Cutout.Ref.gathered_eq _ _ _ (hd c).2.1 (hd c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
